-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S698368x125 : Shape := ⟨2, ![698368, 125]⟩
abbrev S696320x12 : Shape := ⟨2, ![696320, 12]⟩
abbrev S177x125 : Shape := ⟨2, ![177, 125]⟩
abbrev S125 : Shape := ⟨1, ![125]⟩
abbrev S125x40 : Shape := ⟨2, ![125, 40]⟩
abbrev S40 : Shape := ⟨1, ![40]⟩
abbrev S_ : Shape := ⟨0, ![]⟩

class Facts : Prop where
  bcast_S_S698368x125 : S_.BroadcastsInDim S698368x125 (![] : Fin 0 → Fin S698368x125.rank)
  reducesTo_S698368x125_S_d0_1 : S698368x125.ReducesTo [0, 1] S_
  h_S_ : 0 < S_.numel
  bcast_S_S696320x12 : S_.BroadcastsInDim S696320x12 (![] : Fin 0 → Fin S696320x12.rank)
  reducesTo_S696320x12_S_d0_1 : S696320x12.ReducesTo [0, 1] S_
  bcast_S_S177x125 : S_.BroadcastsInDim S177x125 (![] : Fin 0 → Fin S177x125.rank)
  reducesTo_S177x125_S_d0_1 : S177x125.ReducesTo [0, 1] S_
  bcast_S_S125 : S_.BroadcastsInDim S125 (![] : Fin 0 → Fin S125.rank)
  reducesTo_S125_S_d0 : S125.ReducesTo [0] S_
  bcast_S_S125x40 : S_.BroadcastsInDim S125x40 (![] : Fin 0 → Fin S125x40.rank)
  reducesTo_S125x40_S_d0_1 : S125x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S125x40 .f32) (main_arg5 : FVec F S40 .f32) (main_v13 : IVec S_ 1) (main_v16 : IVec S125 1) : IVec S_ 1 :=
  let main_c_5 : IVec S_ 1 := constantI S_ 1 1#1
  let main_v17 : IVec S_ 1 := (fun x v => Host.reduce IntOp.andi x v reducesTo_S125_S_d0 h_S_) main_v16 main_c_5
  let main_v18 : IVec S_ 1 := andi main_v13 main_v17
  let main_v19 : FVec F S125x40 .f32 := Host.absf main_arg4
  let main_cst_6 : FVec F S_ .f32 := constant S_ .f32 0x7F800000#32
  let main_v20 : FVec F S125x40 .f32 := broadcastInDim S125x40 ![] bcast_S_S125x40 main_cst_6
  let main_v21 : IVec S125x40 1 := cmpf .olt main_v19 main_v20
  let main_c_7 : IVec S_ 1 := constantI S_ 1 1#1
  let main_v22 : IVec S_ 1 := (fun x v => Host.reduce IntOp.andi x v reducesTo_S125x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S698368x125 .f32) (main_arg1 : FVec F S696320x12 .f32) (main_arg2 : FVec F S177x125 .f32) (main_arg3 : FVec F S125 .f32) (main_arg4 : FVec F S125x40 .f32) (main_arg5 : FVec F S40 .f32) : IVec S_ 1 :=
  let main_v0 : FVec F S698368x125 .f32 := Host.absf main_arg0
  let main_cst : FVec F S_ .f32 := constant S_ .f32 0x7F800000#32
  let main_v1 : FVec F S698368x125 .f32 := broadcastInDim S698368x125 ![] bcast_S_S698368x125 main_cst
  let main_v2 : IVec S698368x125 1 := cmpf .olt main_v0 main_v1
  let main_c : IVec S_ 1 := constantI S_ 1 1#1
  let main_v3 : IVec S_ 1 := (fun x v => Host.reduce IntOp.andi x v reducesTo_S698368x125_S_d0_1 h_S_) main_v2 main_c
  let main_v4 : FVec F S696320x12 .f32 := Host.absf main_arg1
  let main_cst_0 : FVec F S_ .f32 := constant S_ .f32 0x7F800000#32
  let main_v5 : FVec F S696320x12 .f32 := broadcastInDim S696320x12 ![] bcast_S_S696320x12 main_cst_0
  let main_v6 : IVec S696320x12 1 := cmpf .olt main_v4 main_v5
  let main_c_1 : IVec S_ 1 := constantI S_ 1 1#1
  let main_v7 : IVec S_ 1 := (fun x v => Host.reduce IntOp.andi x v reducesTo_S696320x12_S_d0_1 h_S_) main_v6 main_c_1
  let main_v8 : IVec S_ 1 := andi main_v3 main_v7
  let main_v9 : FVec F S177x125 .f32 := Host.absf main_arg2
  let main_cst_2 : FVec F S_ .f32 := constant S_ .f32 0x7F800000#32
  let main_v10 : FVec F S177x125 .f32 := broadcastInDim S177x125 ![] bcast_S_S177x125 main_cst_2
  let main_v11 : IVec S177x125 1 := cmpf .olt main_v9 main_v10
  let main_c_3 : IVec S_ 1 := constantI S_ 1 1#1
  let main_v12 : IVec S_ 1 := (fun x v => Host.reduce IntOp.andi x v reducesTo_S177x125_S_d0_1 h_S_) main_v11 main_c_3
  let main_v13 : IVec S_ 1 := andi main_v8 main_v12
  let main_v14 : FVec F S125 .f32 := Host.absf main_arg3
  let main_cst_4 : FVec F S_ .f32 := constant S_ .f32 0x7F800000#32
  let main_v15 : FVec F S125 .f32 := broadcastInDim S125 ![] bcast_S_S125 main_cst_4
  let main_v16 : IVec S125 1 := cmpf .olt main_v14 main_v15
  fn_part1 (F := F) main_arg4 main_arg5 main_v13 main_v16
-- ==== Kernel.lean ====
abbrev S698368x125 : Shape := ⟨2, ![698368, 125]⟩
abbrev S696320x12 : Shape := ⟨2, ![696320, 12]⟩
abbrev S177x125 : Shape := ⟨2, ![177, 125]⟩
abbrev S125 : Shape := ⟨1, ![125]⟩
abbrev S125x40 : Shape := ⟨2, ![125, 40]⟩
abbrev S40 : Shape := ⟨1, ![40]⟩
abbrev S524288x125 : Shape := ⟨2, ![524288, 125]⟩
abbrev S1x125 : Shape := ⟨2, ![1, 125]⟩
abbrev S1x40 : Shape := ⟨2, ![1, 40]⟩
abbrev S524288x40 : Shape := ⟨2, ![524288, 40]⟩
abbrev S2048x125 : Shape := ⟨2, ![2048, 125]⟩
abbrev S2048x40 : Shape := ⟨2, ![2048, 40]⟩
abbrev S125x125 : Shape := ⟨2, ![125, 125]⟩
abbrev S131072x125 : Shape := ⟨2, ![131072, 125]⟩
abbrev S524288x12 : Shape := ⟨2, ![524288, 12]⟩
abbrev S131072x40 : Shape := ⟨2, ![131072, 40]⟩
abbrev S512x125 : Shape := ⟨2, ![512, 125]⟩
abbrev S2048x12 : Shape := ⟨2, ![2048, 12]⟩
abbrev S512x40 : Shape := ⟨2, ![512, 40]⟩
abbrev S12x125 : Shape := ⟨2, ![12, 125]⟩
abbrev S40x125 : Shape := ⟨2, ![40, 125]⟩
abbrev S512x1x125 : Shape := ⟨3, ![512, 1, 125]⟩
abbrev S512x4x125 : Shape := ⟨3, ![512, 4, 125]⟩
abbrev S512x4x40 : Shape := ⟨3, ![512, 4, 40]⟩
abbrev S32768x125 : Shape := ⟨2, ![32768, 125]⟩
abbrev S131072x12 : Shape := ⟨2, ![131072, 12]⟩
abbrev S32768x40 : Shape := ⟨2, ![32768, 40]⟩
abbrev S8192x125 : Shape := ⟨2, ![8192, 125]⟩
abbrev S32768x12 : Shape := ⟨2, ![32768, 12]⟩
abbrev S8192x40 : Shape := ⟨2, ![8192, 40]⟩
abbrev S8192x12 : Shape := ⟨2, ![8192, 12]⟩

abbrev nBuf : Space → Nat
  | .hbm => 30
  | .vmem => 56
  | .smem => 0
  | _ => 0

abbrev bufTy : (tb : Table) → Fin (tcTables nBuf tb) → BufTy
  | .hbm, ⟨0, _⟩ => ⟨S698368x125, .f32⟩
  | .hbm, ⟨1, _⟩ => ⟨S696320x12, .f32⟩
  | .hbm, ⟨2, _⟩ => ⟨S177x125, .f32⟩
  | .hbm, ⟨3, _⟩ => ⟨S125, .f32⟩
  | .hbm, ⟨4, _⟩ => ⟨S125x40, .f32⟩
  | .hbm, ⟨5, _⟩ => ⟨S40, .f32⟩
  | .hbm, ⟨6, _⟩ => ⟨S524288x125, .f32⟩
  | .hbm, ⟨7, _⟩ => ⟨S1x125, .f32⟩
  | .hbm, ⟨8, _⟩ => ⟨S1x40, .f32⟩
  | .hbm, ⟨9, _⟩ => ⟨S524288x40, .f32⟩
  | .hbm, ⟨10, _⟩ => ⟨S131072x125, .f32⟩
  | .hbm, ⟨11, _⟩ => ⟨S524288x12, .f32⟩
  | .hbm, ⟨12, _⟩ => ⟨S1x125, .f32⟩
  | .hbm, ⟨13, _⟩ => ⟨S1x40, .f32⟩
  | .hbm, ⟨14, _⟩ => ⟨S131072x40, .f32⟩
  | .hbm, ⟨15, _⟩ => ⟨S32768x125, .f32⟩
  | .hbm, ⟨16, _⟩ => ⟨S131072x12, .f32⟩
  | .hbm, ⟨17, _⟩ => ⟨S1x125, .f32⟩
  | .hbm, ⟨18, _⟩ => ⟨S1x40, .f32⟩
  | .hbm, ⟨19, _⟩ => ⟨S32768x40, .f32⟩
  | .hbm, ⟨20, _⟩ => ⟨S8192x125, .f32⟩
  | .hbm, ⟨21, _⟩ => ⟨S32768x12, .f32⟩
  | .hbm, ⟨22, _⟩ => ⟨S1x125, .f32⟩
  | .hbm, ⟨23, _⟩ => ⟨S1x40, .f32⟩
  | .hbm, ⟨24, _⟩ => ⟨S8192x40, .f32⟩
  | .hbm, ⟨25, _⟩ => ⟨S2048x125, .f32⟩
  | .hbm, ⟨26, _⟩ => ⟨S8192x12, .f32⟩
  | .hbm, ⟨27, _⟩ => ⟨S1x125, .f32⟩
  | .hbm, ⟨28, _⟩ => ⟨S1x40, .f32⟩
  | .hbm, ⟨29, _⟩ => ⟨S2048x40, .f32⟩
  | .local _ .vmem, ⟨0, _⟩ => ⟨S2048x125, .f32⟩
  | .local _ .vmem, ⟨1, _⟩ => ⟨S2048x125, .f32⟩
  | .local _ .vmem, ⟨2, _⟩ => ⟨S177x125, .f32⟩
  | .local _ .vmem, ⟨3, _⟩ => ⟨S1x125, .f32⟩
  | .local _ .vmem, ⟨4, _⟩ => ⟨S125x40, .f32⟩
  | .local _ .vmem, ⟨5, _⟩ => ⟨S1x40, .f32⟩
  | .local _ .vmem, ⟨6, _⟩ => ⟨S2048x40, .f32⟩
  | .local _ .vmem, ⟨7, _⟩ => ⟨S2048x40, .f32⟩
  | .local _ .vmem, ⟨8, _⟩ => ⟨S512x125, .f32⟩
  | .local _ .vmem, ⟨9, _⟩ => ⟨S512x125, .f32⟩
  | .local _ .vmem, ⟨10, _⟩ => ⟨S2048x12, .f32⟩
  | .local _ .vmem, ⟨11, _⟩ => ⟨S2048x12, .f32⟩
  | .local _ .vmem, ⟨12, _⟩ => ⟨S2048x40, .f32⟩
  | .local _ .vmem, ⟨13, _⟩ => ⟨S2048x40, .f32⟩
  | .local _ .vmem, ⟨14, _⟩ => ⟨S177x125, .f32⟩
  | .local _ .vmem, ⟨15, _⟩ => ⟨S1x125, .f32⟩
  | .local _ .vmem, ⟨16, _⟩ => ⟨S125x40, .f32⟩
  | .local _ .vmem, ⟨17, _⟩ => ⟨S1x40, .f32⟩
  | .local _ .vmem, ⟨18, _⟩ => ⟨S512x40, .f32⟩
  | .local _ .vmem, ⟨19, _⟩ => ⟨S512x40, .f32⟩
  | .local _ .vmem, ⟨20, _⟩ => ⟨S512x125, .f32⟩
  | .local _ .vmem, ⟨21, _⟩ => ⟨S512x125, .f32⟩
  | .local _ .vmem, ⟨22, _⟩ => ⟨S2048x12, .f32⟩
  | .local _ .vmem, ⟨23, _⟩ => ⟨S2048x12, .f32⟩
  | .local _ .vmem, ⟨24, _⟩ => ⟨S2048x40, .f32⟩
  | .local _ .vmem, ⟨25, _⟩ => ⟨S2048x40, .f32⟩
  | .local _ .vmem, ⟨26, _⟩ => ⟨S177x125, .f32⟩
  | .local _ .vmem, ⟨27, _⟩ => ⟨S1x125, .f32⟩
  | .local _ .vmem, ⟨28, _⟩ => ⟨S125x40, .f32⟩
  | .local _ .vmem, ⟨29, _⟩ => ⟨S1x40, .f32⟩
  | .local _ .vmem, ⟨30, _⟩ => ⟨S512x40, .f32⟩
  | .local _ .vmem, ⟨31, _⟩ => ⟨S512x40, .f32⟩
  | .local _ .vmem, ⟨32, _⟩ => ⟨S512x125, .f32⟩
  | .local _ .vmem, ⟨33, _⟩ => ⟨S512x125, .f32⟩
  | .local _ .vmem, ⟨34, _⟩ => ⟨S2048x12, .f32⟩
  | .local _ .vmem, ⟨35, _⟩ => ⟨S2048x12, .f32⟩
  | .local _ .vmem, ⟨36, _⟩ => ⟨S2048x40, .f32⟩
  | .local _ .vmem, ⟨37, _⟩ => ⟨S2048x40, .f32⟩
  | .local _ .vmem, ⟨38, _⟩ => ⟨S177x125, .f32⟩
  | .local _ .vmem, ⟨39, _⟩ => ⟨S1x125, .f32⟩
  | .local _ .vmem, ⟨40, _⟩ => ⟨S125x40, .f32⟩
  | .local _ .vmem, ⟨41, _⟩ => ⟨S1x40, .f32⟩
  | .local _ .vmem, ⟨42, _⟩ => ⟨S512x40, .f32⟩
  | .local _ .vmem, ⟨43, _⟩ => ⟨S512x40, .f32⟩
  | .local _ .vmem, ⟨44, _⟩ => ⟨S512x125, .f32⟩
  | .local _ .vmem, ⟨45, _⟩ => ⟨S512x125, .f32⟩
  | .local _ .vmem, ⟨46, _⟩ => ⟨S2048x12, .f32⟩
  | .local _ .vmem, ⟨47, _⟩ => ⟨S2048x12, .f32⟩
  | .local _ .vmem, ⟨48, _⟩ => ⟨S2048x40, .f32⟩
  | .local _ .vmem, ⟨49, _⟩ => ⟨S2048x40, .f32⟩
  | .local _ .vmem, ⟨50, _⟩ => ⟨S177x125, .f32⟩
  | .local _ .vmem, ⟨51, _⟩ => ⟨S1x125, .f32⟩
  | .local _ .vmem, ⟨52, _⟩ => ⟨S125x40, .f32⟩
  | .local _ .vmem, ⟨53, _⟩ => ⟨S1x40, .f32⟩
  | .local _ .vmem, ⟨54, _⟩ => ⟨S512x40, .f32⟩
  | .local _ .vmem, ⟨55, _⟩ => ⟨S512x40, .f32⟩
  | _, _ => ⟨S698368x125, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x125 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S177x125 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x125 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S125x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x125 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S177x125 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x125 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S125x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x125 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x12 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S177x125 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x125 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S125x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x125 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x12 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S177x125 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x125 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S125x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S512x40 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x125 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x12 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S177x125 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x125 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S125x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x40 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x40 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S698368x125_S524288x125_174080_0 : S698368x125.Slices ![174080, 0] S524288x125
  shapeCasts_S125_S1x125 : S125.ShapeCasts S1x125
  shapeCasts_S40_S1x40 : S40.ShapeCasts S1x40
  inb_S2048x125_S2048x125_0_0 : ∀ a, (![0, 0] : Fin 2 → Nat) a + S2048x125.size a ≤ S2048x125.size a
  h_S2048x125 : 0 < S2048x125.numel
  shapeCasts_S2048x125_S2048x125 : S2048x125.ShapeCasts S2048x125
  bitsLt_bf16_f32 : FTy.bits .bf16 < FTy.bits .f32
  inb_S177x125_S125x125_0_0 : ∀ a, (![0, 0] : Fin 2 → Nat) a + S125x125.size a ≤ S177x125.size a
  h_S125x125 : 0 < S125x125.numel
  inb_S1x125_S1x125_0_0 : ∀ a, (![0, 0] : Fin 2 → Nat) a + S1x125.size a ≤ S1x125.size a
  h_S1x125 : 0 < S1x125.numel
  shapeCasts_S1x125_S1x125 : S1x125.ShapeCasts S1x125
  broadcasts_S1x125_S2048x125 : S1x125.Broadcasts S2048x125
  inb_S125x40_S125x40_0_0 : ∀ a, (![0, 0] : Fin 2 → Nat) a + S125x40.size a ≤ S125x40.size a
  h_S125x40 : 0 < S125x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  inb_S2048x40_S2048x40_0_0 : ∀ a, (![0, 0] : Fin 2 → Nat) a + S2048x40.size a ≤ S2048x40.size a
  h_S2048x40 : 0 < S2048x40.numel
  slices_S698368x125_S131072x125_43008_0 : S698368x125.Slices ![43008, 0] S131072x125
  slices_S696320x12_S524288x12_172032_0 : S696320x12.Slices ![172032, 0] S524288x12
  inb_S512x125_S512x125_0_0 : ∀ a, (![0, 0] : Fin 2 → Nat) a + S512x125.size a ≤ S512x125.size a
  h_S512x125 : 0 < S512x125.numel
  shapeCasts_S512x125_S512x125 : S512x125.ShapeCasts S512x125
  inb_S2048x12_S2048x12_0_0 : ∀ a, (![0, 0] : Fin 2 → Nat) a + S2048x12.size a ≤ S2048x12.size a
  h_S2048x12 : 0 < S2048x12.numel
  shapeCasts_S2048x12_S2048x12 : S2048x12.ShapeCasts S2048x12
  shapeCasts_S2048x40_S2048x40 : S2048x40.ShapeCasts S2048x40
  inb_S177x125_S12x125_125_0 : ∀ a, (![125, 0] : Fin 2 → Nat) a + S12x125.size a ≤ S177x125.size a
  h_S12x125 : 0 < S12x125.numel
  inb_S177x125_S40x125_137_0 : ∀ a, (![137, 0] : Fin 2 → Nat) a + S40x125.size a ≤ S177x125.size a
  h_S40x125 : 0 < S40x125.numel
  shapeCasts_S512x125_S512x1x125 : S512x125.ShapeCasts S512x1x125
  broadcasts_S512x1x125_S512x4x125 : S512x1x125.Broadcasts S512x4x125
  shapeCasts_S512x4x125_S2048x125 : S512x4x125.ShapeCasts S2048x125
  shapeCasts_S2048x40_S512x4x40 : S2048x40.ShapeCasts S512x4x40
  reduces_S512x4x40_S512x40 : S512x4x40.Reduces [1] S512x40
  inb_S512x40_S512x40_0_0 : ∀ a, (![0, 0] : Fin 2 → Nat) a + S512x40.size a ≤ S512x40.size a
  h_S512x40 : 0 < S512x40.numel
  slices_S698368x125_S32768x125_10240_0 : S698368x125.Slices ![10240, 0] S32768x125
  slices_S696320x12_S131072x12_40960_0 : S696320x12.Slices ![40960, 0] S131072x12
  slices_S698368x125_S8192x125_2048_0 : S698368x125.Slices ![2048, 0] S8192x125
  slices_S696320x12_S32768x12_8192_0 : S696320x12.Slices ![8192, 0] S32768x12
  slices_S698368x125_S2048x125_0_0 : S698368x125.Slices ![0, 0] S2048x125
  slices_S696320x12_S8192x12_0_0 : S696320x12.Slices ![0, 0] S8192x12
  dot_S2048x125_S125x125_S2048x125_1_0_0_1_n_n_wf : DotDims.WF S2048x125 S125x125 S2048x125 [1] [0] [0] [1] [] []
  dot_S2048x125_S125x40_S2048x40_1_0_0_1_n_n_wf : DotDims.WF S2048x125 S125x40 S2048x40 [1] [0] [0] [1] [] []
  dot_S512x125_S125x125_S512x125_1_0_0_1_n_n_wf : DotDims.WF S512x125 S125x125 S512x125 [1] [0] [0] [1] [] []
  dot_S2048x12_S12x125_S2048x125_1_0_0_1_n_n_wf : DotDims.WF S2048x12 S12x125 S2048x125 [1] [0] [0] [1] [] []
  dot_S2048x40_S40x125_S2048x125_1_0_0_1_n_n_wf : DotDims.WF S2048x40 S40x125 S2048x125 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x125.size a ≤ S524288x125.size a
  hwx0_0 : ∀ i : grid0.Coords, EltTy.bits .f32 = 32 ∨ (Rect.block (s := S524288x125) S2048x125.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S177x125.size a ≤ S177x125.size a
  hwx0_1 : ∀ i : grid0.Coords, EltTy.bits .f32 = 32 ∨ (Rect.block (s := S177x125) S177x125.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x125.size a ≤ S1x125.size a
  hwx0_2 : ∀ i : grid0.Coords, EltTy.bits .f32 = 32 ∨ (Rect.block (s := S1x125) S1x125.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S125x40.size a ≤ S125x40.size a
  hwx0_3 : ∀ i : grid0.Coords, EltTy.bits .f32 = 32 ∨ (Rect.block (s := S125x40) S125x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x40.size a ≤ S524288x40.size a
  hwx0_5 : ∀ i : grid0.Coords, EltTy.bits .f32 = 32 ∨ (Rect.block (s := S524288x40) S2048x40.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x125.size a ≤ S131072x125.size a
  hwx1_0 : ∀ i : grid1.Coords, EltTy.bits .f32 = 32 ∨ (Rect.block (s := S131072x125) S512x125.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x12.size a ≤ S524288x12.size a
  hwx1_1 : ∀ i : grid1.Coords, EltTy.bits .f32 = 32 ∨ (Rect.block (s := S524288x12) S2048x12.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x40.size a ≤ S524288x40.size a
  hwx1_2 : ∀ i : grid1.Coords, EltTy.bits .f32 = 32 ∨ (Rect.block (s := S524288x40) S2048x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S177x125.size a ≤ S177x125.size a
  hwx1_3 : ∀ i : grid1.Coords, EltTy.bits .f32 = 32 ∨ (Rect.block (s := S177x125) S177x125.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x125.size a ≤ S1x125.size a
  hwx1_4 : ∀ i : grid1.Coords, EltTy.bits .f32 = 32 ∨ (Rect.block (s := S1x125) S1x125.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S125x40.size a ≤ S125x40.size a
  hwx1_5 : ∀ i : grid1.Coords, EltTy.bits .f32 = 32 ∨ (Rect.block (s := S125x40) S125x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x40.size a ≤ S131072x40.size a
  hwx1_7 : ∀ i : grid1.Coords, EltTy.bits .f32 = 32 ∨ (Rect.block (s := S131072x40) S512x40.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x125.size a ≤ S32768x125.size a
  hwx2_0 : ∀ i : grid2.Coords, EltTy.bits .f32 = 32 ∨ (Rect.block (s := S32768x125) S512x125.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x12.size a ≤ S131072x12.size a
  hwx2_1 : ∀ i : grid2.Coords, EltTy.bits .f32 = 32 ∨ (Rect.block (s := S131072x12) S2048x12.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x40.size a ≤ S131072x40.size a
  hwx2_2 : ∀ i : grid2.Coords, EltTy.bits .f32 = 32 ∨ (Rect.block (s := S131072x40) S2048x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S177x125.size a ≤ S177x125.size a
  hwx2_3 : ∀ i : grid2.Coords, EltTy.bits .f32 = 32 ∨ (Rect.block (s := S177x125) S177x125.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x125.size a ≤ S1x125.size a
  hwx2_4 : ∀ i : grid2.Coords, EltTy.bits .f32 = 32 ∨ (Rect.block (s := S1x125) S1x125.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S125x40.size a ≤ S125x40.size a
  hwx2_5 : ∀ i : grid2.Coords, EltTy.bits .f32 = 32 ∨ (Rect.block (s := S125x40) S125x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x40.size a ≤ S32768x40.size a
  hwx2_7 : ∀ i : grid2.Coords, EltTy.bits .f32 = 32 ∨ (Rect.block (s := S32768x40) S512x40.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x125.size a ≤ S8192x125.size a
  hwx3_0 : ∀ i : grid3.Coords, EltTy.bits .f32 = 32 ∨ (Rect.block (s := S8192x125) S512x125.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x12.size a ≤ S32768x12.size a
  hwx3_1 : ∀ i : grid3.Coords, EltTy.bits .f32 = 32 ∨ (Rect.block (s := S32768x12) S2048x12.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x40.size a ≤ S32768x40.size a
  hwx3_2 : ∀ i : grid3.Coords, EltTy.bits .f32 = 32 ∨ (Rect.block (s := S32768x40) S2048x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S177x125.size a ≤ S177x125.size a
  hwx3_3 : ∀ i : grid3.Coords, EltTy.bits .f32 = 32 ∨ (Rect.block (s := S177x125) S177x125.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x125.size a ≤ S1x125.size a
  hwx3_4 : ∀ i : grid3.Coords, EltTy.bits .f32 = 32 ∨ (Rect.block (s := S1x125) S1x125.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S125x40.size a ≤ S125x40.size a
  hwx3_5 : ∀ i : grid3.Coords, EltTy.bits .f32 = 32 ∨ (Rect.block (s := S125x40) S125x40.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x40.size a ≤ S1x40.size a
  hwx3_6 : ∀ i : grid3.Coords, EltTy.bits .f32 = 32 ∨ (Rect.block (s := S1x40) S1x40.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x40.size a ≤ S8192x40.size a
  hwx3_7 : ∀ i : grid3.Coords, EltTy.bits .f32 = 32 ∨ (Rect.block (s := S8192x40) S512x40.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x125.size a ≤ S2048x125.size a
  hwx4_0 : ∀ i : grid4.Coords, EltTy.bits .f32 = 32 ∨ (Rect.block (s := S2048x125) S512x125.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x12.size a ≤ S8192x12.size a
  hwx4_1 : ∀ i : grid4.Coords, EltTy.bits .f32 = 32 ∨ (Rect.block (s := S8192x12) S2048x12.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x40.size a ≤ S8192x40.size a
  hwx4_2 : ∀ i : grid4.Coords, EltTy.bits .f32 = 32 ∨ (Rect.block (s := S8192x40) S2048x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S177x125.size a ≤ S177x125.size a
  hwx4_3 : ∀ i : grid4.Coords, EltTy.bits .f32 = 32 ∨ (Rect.block (s := S177x125) S177x125.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x125.size a ≤ S1x125.size a
  hwx4_4 : ∀ i : grid4.Coords, EltTy.bits .f32 = 32 ∨ (Rect.block (s := S1x125) S1x125.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S125x40.size a ≤ S125x40.size a
  hwx4_5 : ∀ i : grid4.Coords, EltTy.bits .f32 = 32 ∨ (Rect.block (s := S125x40) S125x40.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x40.size a ≤ S1x40.size a
  hwx4_6 : ∀ i : grid4.Coords, EltTy.bits .f32 = 32 ∨ (Rect.block (s := S1x40) S1x40.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x40.size a ≤ S2048x40.size a
  hwx4_7 : ∀ i : grid4.Coords, EltTy.bits .f32 = 32 ∨ (Rect.block (s := S2048x40) S512x40.size (cc4_transform_7 i) (hinb4_7 i)).WholeWords (EltTy.packing .f32)

variable [Facts₀]

def dot_S2048x125_S125x125_S2048x125_1_0_0_1_n_n : DotDims S2048x125 S125x125 S2048x125 where
  lhsContracting := [1]
  rhsContracting := [0]
  lhsNonContracting := [0]
  rhsNonContracting := [1]
  lhsBatch := []
  rhsBatch := []
  wf := dot_S2048x125_S125x125_S2048x125_1_0_0_1_n_n_wf
def dot_S2048x125_S125x40_S2048x40_1_0_0_1_n_n : DotDims S2048x125 S125x40 S2048x40 where
  lhsContracting := [1]
  rhsContracting := [0]
  lhsNonContracting := [0]
  rhsNonContracting := [1]
  lhsBatch := []
  rhsBatch := []
  wf := dot_S2048x125_S125x40_S2048x40_1_0_0_1_n_n_wf
def dot_S512x125_S125x125_S512x125_1_0_0_1_n_n : DotDims S512x125 S125x125 S512x125 where
  lhsContracting := [1]
  rhsContracting := [0]
  lhsNonContracting := [0]
  rhsNonContracting := [1]
  lhsBatch := []
  rhsBatch := []
  wf := dot_S512x125_S125x125_S512x125_1_0_0_1_n_n_wf
def dot_S2048x12_S12x125_S2048x125_1_0_0_1_n_n : DotDims S2048x12 S12x125 S2048x125 where
  lhsContracting := [1]
  rhsContracting := [0]
  lhsNonContracting := [0]
  rhsNonContracting := [1]
  lhsBatch := []
  rhsBatch := []
  wf := dot_S2048x12_S12x125_S2048x125_1_0_0_1_n_n_wf
def dot_S2048x40_S40x125_S2048x125_1_0_0_1_n_n : DotDims S2048x40 S40x125 S2048x125 where
  lhsContracting := [1]
  rhsContracting := [0]
  lhsNonContracting := [0]
  rhsNonContracting := [1]
  lhsBatch := []
  rhsBatch := []
  wf := dot_S2048x40_S40x125_S2048x125_1_0_0_1_n_n_wf

abbrev win0_0 : Pipeline.Window sig grid0 :=
  Pipeline.Window.ofSpec (Memref.whole main_v0) S2048x125.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S177x125.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x125.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S125x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S512x125.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x12.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x40.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S177x125.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x125.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S125x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S512x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v9) S512x125.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2048x12.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2048x40.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S177x125.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x125.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S125x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S512x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v14) S512x125.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2048x12.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2048x40.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S177x125.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x125.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg4) S125x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S1x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v18) S512x40.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v19) S512x125.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S2048x12.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S2048x40.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg2) S177x125.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v21) S1x125.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg4) S125x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v22) S1x40.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v23) S512x40.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S698368x125 : Shape := ⟨2, ![698368, 125]⟩
abbrev S696320x12 : Shape := ⟨2, ![696320, 12]⟩
abbrev S177x125 : Shape := ⟨2, ![177, 125]⟩
abbrev S125 : Shape := ⟨1, ![125]⟩
abbrev S125x40 : Shape := ⟨2, ![125, 40]⟩
abbrev S40 : Shape := ⟨1, ![40]⟩
abbrev S524288x125 : Shape := ⟨2, ![524288, 125]⟩
abbrev S_ : Shape := ⟨0, ![]⟩
abbrev S524288x52 : Shape := ⟨2, ![524288, 52]⟩
abbrev S524288x177 : Shape := ⟨2, ![524288, 177]⟩
abbrev S1x125 : Shape := ⟨2, ![1, 125]⟩
abbrev S524288x40 : Shape := ⟨2, ![524288, 40]⟩
abbrev S1x40 : Shape := ⟨2, ![1, 40]⟩
abbrev S131072x125 : Shape := ⟨2, ![131072, 125]⟩
abbrev S524288x12 : Shape := ⟨2, ![524288, 12]⟩
abbrev S131072x4x125 : Shape := ⟨3, ![131072, 4, 125]⟩
abbrev S131072x4x40 : Shape := ⟨3, ![131072, 4, 40]⟩
abbrev S131072x40 : Shape := ⟨2, ![131072, 40]⟩
abbrev S32768x125 : Shape := ⟨2, ![32768, 125]⟩
abbrev S131072x12 : Shape := ⟨2, ![131072, 12]⟩
abbrev S32768x4x125 : Shape := ⟨3, ![32768, 4, 125]⟩
abbrev S131072x177 : Shape := ⟨2, ![131072, 177]⟩
abbrev S32768x4x40 : Shape := ⟨3, ![32768, 4, 40]⟩
abbrev S32768x40 : Shape := ⟨2, ![32768, 40]⟩
abbrev S8192x125 : Shape := ⟨2, ![8192, 125]⟩
abbrev S32768x12 : Shape := ⟨2, ![32768, 12]⟩
abbrev S8192x4x125 : Shape := ⟨3, ![8192, 4, 125]⟩
abbrev S32768x177 : Shape := ⟨2, ![32768, 177]⟩
abbrev S8192x4x40 : Shape := ⟨3, ![8192, 4, 40]⟩
abbrev S8192x40 : Shape := ⟨2, ![8192, 40]⟩
abbrev S2048x125 : Shape := ⟨2, ![2048, 125]⟩
abbrev S8192x12 : Shape := ⟨2, ![8192, 12]⟩
abbrev S2048x4x125 : Shape := ⟨3, ![2048, 4, 125]⟩
abbrev S8192x177 : Shape := ⟨2, ![8192, 177]⟩
abbrev S2048x4x40 : Shape := ⟨3, ![2048, 4, 40]⟩
abbrev S2048x40 : Shape := ⟨2, ![2048, 40]⟩

abbrev nBuf : Space → Nat
  | .hbm => 162
  | .vmem => 0
  | .smem => 0
  | _ => 0

abbrev hbmTy0_0 (i : Nat) : BufTy := match i % 128 with
  | 0 => ⟨S698368x125, .f32⟩
  | 1 => ⟨S696320x12, .f32⟩
  | 2 => ⟨S177x125, .f32⟩
  | 3 => ⟨S125, .f32⟩
  | 4 => ⟨S125x40, .f32⟩
  | 5 => ⟨S40, .f32⟩
  | 6 => ⟨S524288x125, .f32⟩
  | 7 => ⟨S_, .f32⟩
  | 8 => ⟨S524288x52, .f32⟩
  | 9 => ⟨S524288x177, .f32⟩
  | 10 => ⟨S524288x125, .f32⟩
  | 11 => ⟨S1x125, .f32⟩
  | 12 => ⟨S524288x125, .f32⟩
  | 13 => ⟨S524288x125, .f32⟩
  | 14 => ⟨S_, .f32⟩
  | 15 => ⟨S_, .f32⟩
  | 16 => ⟨S524288x125, .f32⟩
  | 17 => ⟨S524288x125, .i1⟩
  | 18 => ⟨S_, .f32⟩
  | 19 => ⟨S524288x125, .f32⟩
  | 20 => ⟨S524288x125, .f32⟩
  | 21 => ⟨S524288x125, .f32⟩
  | 22 => ⟨S524288x40, .f32⟩
  | 23 => ⟨S1x40, .f32⟩
  | 24 => ⟨S524288x40, .f32⟩
  | 25 => ⟨S524288x40, .f32⟩
  | 26 => ⟨S_, .f32⟩
  | 27 => ⟨S_, .f32⟩
  | 28 => ⟨S524288x40, .f32⟩
  | 29 => ⟨S524288x40, .i1⟩
  | 30 => ⟨S_, .f32⟩
  | 31 => ⟨S524288x40, .f32⟩
  | 32 => ⟨S524288x40, .f32⟩
  | 33 => ⟨S524288x40, .f32⟩
  | 34 => ⟨S131072x125, .f32⟩
  | 35 => ⟨S524288x12, .f32⟩
  | 36 => ⟨S131072x4x125, .f32⟩
  | 37 => ⟨S524288x125, .f32⟩
  | 38 => ⟨S524288x177, .f32⟩
  | 39 => ⟨S524288x125, .f32⟩
  | 40 => ⟨S1x125, .f32⟩
  | 41 => ⟨S524288x125, .f32⟩
  | 42 => ⟨S524288x125, .f32⟩
  | 43 => ⟨S_, .f32⟩
  | 44 => ⟨S_, .f32⟩
  | 45 => ⟨S524288x125, .f32⟩
  | 46 => ⟨S524288x125, .i1⟩
  | 47 => ⟨S_, .f32⟩
  | 48 => ⟨S524288x125, .f32⟩
  | 49 => ⟨S524288x125, .f32⟩
  | 50 => ⟨S524288x125, .f32⟩
  | 51 => ⟨S524288x40, .f32⟩
  | 52 => ⟨S1x40, .f32⟩
  | 53 => ⟨S524288x40, .f32⟩
  | 54 => ⟨S524288x40, .f32⟩
  | 55 => ⟨S_, .f32⟩
  | 56 => ⟨S_, .f32⟩
  | 57 => ⟨S524288x40, .f32⟩
  | 58 => ⟨S524288x40, .i1⟩
  | 59 => ⟨S_, .f32⟩
  | 60 => ⟨S524288x40, .f32⟩
  | 61 => ⟨S524288x40, .f32⟩
  | 62 => ⟨S524288x40, .f32⟩
  | 63 => ⟨S131072x4x40, .f32⟩
  | 64 => ⟨S_, .f32⟩
  | 65 => ⟨S131072x40, .f32⟩
  | 66 => ⟨S32768x125, .f32⟩
  | 67 => ⟨S131072x12, .f32⟩
  | 68 => ⟨S32768x4x125, .f32⟩
  | 69 => ⟨S131072x125, .f32⟩
  | 70 => ⟨S131072x177, .f32⟩
  | 71 => ⟨S131072x125, .f32⟩
  | 72 => ⟨S1x125, .f32⟩
  | 73 => ⟨S131072x125, .f32⟩
  | 74 => ⟨S131072x125, .f32⟩
  | 75 => ⟨S_, .f32⟩
  | 76 => ⟨S_, .f32⟩
  | 77 => ⟨S131072x125, .f32⟩
  | 78 => ⟨S131072x125, .i1⟩
  | 79 => ⟨S_, .f32⟩
  | 80 => ⟨S131072x125, .f32⟩
  | 81 => ⟨S131072x125, .f32⟩
  | 82 => ⟨S131072x125, .f32⟩
  | 83 => ⟨S131072x40, .f32⟩
  | 84 => ⟨S1x40, .f32⟩
  | 85 => ⟨S131072x40, .f32⟩
  | 86 => ⟨S131072x40, .f32⟩
  | 87 => ⟨S_, .f32⟩
  | 88 => ⟨S_, .f32⟩
  | 89 => ⟨S131072x40, .f32⟩
  | 90 => ⟨S131072x40, .i1⟩
  | 91 => ⟨S_, .f32⟩
  | 92 => ⟨S131072x40, .f32⟩
  | 93 => ⟨S131072x40, .f32⟩
  | 94 => ⟨S131072x40, .f32⟩
  | 95 => ⟨S32768x4x40, .f32⟩
  | 96 => ⟨S_, .f32⟩
  | 97 => ⟨S32768x40, .f32⟩
  | 98 => ⟨S8192x125, .f32⟩
  | 99 => ⟨S32768x12, .f32⟩
  | 100 => ⟨S8192x4x125, .f32⟩
  | 101 => ⟨S32768x125, .f32⟩
  | 102 => ⟨S32768x177, .f32⟩
  | 103 => ⟨S32768x125, .f32⟩
  | 104 => ⟨S1x125, .f32⟩
  | 105 => ⟨S32768x125, .f32⟩
  | 106 => ⟨S32768x125, .f32⟩
  | 107 => ⟨S_, .f32⟩
  | 108 => ⟨S_, .f32⟩
  | 109 => ⟨S32768x125, .f32⟩
  | 110 => ⟨S32768x125, .i1⟩
  | 111 => ⟨S_, .f32⟩
  | 112 => ⟨S32768x125, .f32⟩
  | 113 => ⟨S32768x125, .f32⟩
  | 114 => ⟨S32768x125, .f32⟩
  | 115 => ⟨S32768x40, .f32⟩
  | 116 => ⟨S1x40, .f32⟩
  | 117 => ⟨S32768x40, .f32⟩
  | 118 => ⟨S32768x40, .f32⟩
  | 119 => ⟨S_, .f32⟩
  | 120 => ⟨S_, .f32⟩
  | 121 => ⟨S32768x40, .f32⟩
  | 122 => ⟨S32768x40, .i1⟩
  | 123 => ⟨S_, .f32⟩
  | 124 => ⟨S32768x40, .f32⟩
  | 125 => ⟨S32768x40, .f32⟩
  | 126 => ⟨S32768x40, .f32⟩
  | 127 => ⟨S8192x4x40, .f32⟩
  | _ => ⟨S698368x125, .f32⟩

abbrev hbmTy0_1 (i : Nat) : BufTy := match i % 128 with
  | 0 => ⟨S_, .f32⟩
  | 1 => ⟨S8192x40, .f32⟩
  | 2 => ⟨S2048x125, .f32⟩
  | 3 => ⟨S8192x12, .f32⟩
  | 4 => ⟨S2048x4x125, .f32⟩
  | 5 => ⟨S8192x125, .f32⟩
  | 6 => ⟨S8192x177, .f32⟩
  | 7 => ⟨S8192x125, .f32⟩
  | 8 => ⟨S1x125, .f32⟩
  | 9 => ⟨S8192x125, .f32⟩
  | 10 => ⟨S8192x125, .f32⟩
  | 11 => ⟨S_, .f32⟩
  | 12 => ⟨S_, .f32⟩
  | 13 => ⟨S8192x125, .f32⟩
  | 14 => ⟨S8192x125, .i1⟩
  | 15 => ⟨S_, .f32⟩
  | 16 => ⟨S8192x125, .f32⟩
  | 17 => ⟨S8192x125, .f32⟩
  | 18 => ⟨S8192x125, .f32⟩
  | 19 => ⟨S8192x40, .f32⟩
  | 20 => ⟨S1x40, .f32⟩
  | 21 => ⟨S8192x40, .f32⟩
  | 22 => ⟨S8192x40, .f32⟩
  | 23 => ⟨S_, .f32⟩
  | 24 => ⟨S_, .f32⟩
  | 25 => ⟨S8192x40, .f32⟩
  | 26 => ⟨S8192x40, .i1⟩
  | 27 => ⟨S_, .f32⟩
  | 28 => ⟨S8192x40, .f32⟩
  | 29 => ⟨S8192x40, .f32⟩
  | 30 => ⟨S8192x40, .f32⟩
  | 31 => ⟨S2048x4x40, .f32⟩
  | 32 => ⟨S_, .f32⟩
  | 33 => ⟨S2048x40, .f32⟩
  | _ => ⟨S698368x125, .f32⟩

abbrev hbmTy (i : Nat) : BufTy := match i / 128 with
  | 0 => hbmTy0_0 i
  | 1 => hbmTy0_1 i
  | _ => ⟨S698368x125, .f32⟩

abbrev bufTy : (tb : Table) → Fin (tcTables nBuf tb) → BufTy
  | .hbm, ⟨i, _⟩ => hbmTy i
  | _, _ => ⟨S698368x125, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_5 : Ref sig .tc := ⟨.hbm, 75, rfl⟩
abbrev main_call4_cst : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_6 : Ref sig .tc := ⟨.hbm, 87, rfl⟩
abbrev main_call5_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v44 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_8 : Ref sig .tc := ⟨.hbm, 107, rfl⟩
abbrev main_call6_cst : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_9 : Ref sig .tc := ⟨.hbm, 119, rfl⟩
abbrev main_call7_cst : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_v61 : Ref sig .tc := ⟨.hbm, 126, rfl⟩
abbrev main_v62 : Ref sig .tc := ⟨.hbm, 127, rfl⟩
abbrev main_cst_10 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_11 : Ref sig .tc := ⟨.hbm, 139, rfl⟩
abbrev main_call8_cst : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_cst_12 : Ref sig .tc := ⟨.hbm, 151, rfl⟩
abbrev main_call9_cst : Ref sig .tc := ⟨.hbm, 152, rfl⟩
abbrev main_call9_v0 : Ref sig .tc := ⟨.hbm, 153, rfl⟩
abbrev main_call9_v1 : Ref sig .tc := ⟨.hbm, 154, rfl⟩
abbrev main_call9_v2 : Ref sig .tc := ⟨.hbm, 155, rfl⟩
abbrev main_call9_v3 : Ref sig .tc := ⟨.hbm, 156, rfl⟩
abbrev main_call9_v4 : Ref sig .tc := ⟨.hbm, 157, rfl⟩
abbrev main_v78 : Ref sig .tc := ⟨.hbm, 158, rfl⟩
abbrev main_v79 : Ref sig .tc := ⟨.hbm, 159, rfl⟩
abbrev main_cst_13 : Ref sig .tc := ⟨.hbm, 160, rfl⟩
abbrev main_v80 : Ref sig .tc := ⟨.hbm, 161, rfl⟩

abbrev nD : Nat := 1
abbrev τ : Topo := Topo.v7x

variable {F : FTy → Type} [FloatOps F]

class Facts₀ : Prop where
  slices_S698368x125_S524288x125_174080_0 : S698368x125.Slices ![174080, 0] S524288x125
  bcast_S_S524288x52 : S_.BroadcastsInDim S524288x52 (![] : Fin 0 → Fin S524288x52.rank)
  concatenates_S524288x125_S524288x52_S524288x177_d1 : Shape.Concatenates [S524288x125, S524288x52] S524288x177 1
  bcast_S125_S1x125_1 : S125.BroadcastsInDim S1x125 (![1] : Fin 1 → Fin S1x125.rank)
  bcast_S1x125_S524288x125_0_1 : S1x125.BroadcastsInDim S524288x125 (![0, 1] : Fin 2 → Fin S524288x125.rank)
  bcast_S_S524288x125 : S_.BroadcastsInDim S524288x125 (![] : Fin 0 → Fin S524288x125.rank)
  bcast_S40_S1x40_1 : S40.BroadcastsInDim S1x40 (![1] : Fin 1 → Fin S1x40.rank)
  bcast_S1x40_S524288x40_0_1 : S1x40.BroadcastsInDim S524288x40 (![0, 1] : Fin 2 → Fin S524288x40.rank)
  bcast_S_S524288x40 : S_.BroadcastsInDim S524288x40 (![] : Fin 0 → Fin S524288x40.rank)
  slices_S698368x125_S131072x125_43008_0 : S698368x125.Slices ![43008, 0] S131072x125
  slices_S696320x12_S524288x12_172032_0 : S696320x12.Slices ![172032, 0] S524288x12
  bcast_S131072x125_S131072x4x125_0_2 : S131072x125.BroadcastsInDim S131072x4x125 (![0, 2] : Fin 2 → Fin S131072x4x125.rank)
  shapeCasts_S131072x4x125_S524288x125 : S131072x4x125.ShapeCasts S524288x125
  concatenates_S524288x125_S524288x12_S524288x40_S524288x177_d1 : Shape.Concatenates [S524288x125, S524288x12, S524288x40] S524288x177 1
  shapeCasts_S524288x40_S131072x4x40 : S524288x40.ShapeCasts S131072x4x40
  reducesTo_S131072x4x40_S131072x40_d1 : S131072x4x40.ReducesTo [1] S131072x40
  h_S_ : 0 < S_.numel
  slices_S698368x125_S32768x125_10240_0 : S698368x125.Slices ![10240, 0] S32768x125
  slices_S696320x12_S131072x12_40960_0 : S696320x12.Slices ![40960, 0] S131072x12
  bcast_S32768x125_S32768x4x125_0_2 : S32768x125.BroadcastsInDim S32768x4x125 (![0, 2] : Fin 2 → Fin S32768x4x125.rank)
  shapeCasts_S32768x4x125_S131072x125 : S32768x4x125.ShapeCasts S131072x125
  concatenates_S131072x125_S131072x12_S131072x40_S131072x177_d1 : Shape.Concatenates [S131072x125, S131072x12, S131072x40] S131072x177 1
  bcast_S1x125_S131072x125_0_1 : S1x125.BroadcastsInDim S131072x125 (![0, 1] : Fin 2 → Fin S131072x125.rank)
  bcast_S_S131072x125 : S_.BroadcastsInDim S131072x125 (![] : Fin 0 → Fin S131072x125.rank)
  bcast_S1x40_S131072x40_0_1 : S1x40.BroadcastsInDim S131072x40 (![0, 1] : Fin 2 → Fin S131072x40.rank)
  bcast_S_S131072x40 : S_.BroadcastsInDim S131072x40 (![] : Fin 0 → Fin S131072x40.rank)
  shapeCasts_S131072x40_S32768x4x40 : S131072x40.ShapeCasts S32768x4x40
  reducesTo_S32768x4x40_S32768x40_d1 : S32768x4x40.ReducesTo [1] S32768x40
  slices_S698368x125_S8192x125_2048_0 : S698368x125.Slices ![2048, 0] S8192x125
  slices_S696320x12_S32768x12_8192_0 : S696320x12.Slices ![8192, 0] S32768x12
  bcast_S8192x125_S8192x4x125_0_2 : S8192x125.BroadcastsInDim S8192x4x125 (![0, 2] : Fin 2 → Fin S8192x4x125.rank)
  shapeCasts_S8192x4x125_S32768x125 : S8192x4x125.ShapeCasts S32768x125
  concatenates_S32768x125_S32768x12_S32768x40_S32768x177_d1 : Shape.Concatenates [S32768x125, S32768x12, S32768x40] S32768x177 1
  bcast_S1x125_S32768x125_0_1 : S1x125.BroadcastsInDim S32768x125 (![0, 1] : Fin 2 → Fin S32768x125.rank)
  bcast_S_S32768x125 : S_.BroadcastsInDim S32768x125 (![] : Fin 0 → Fin S32768x125.rank)
  bcast_S1x40_S32768x40_0_1 : S1x40.BroadcastsInDim S32768x40 (![0, 1] : Fin 2 → Fin S32768x40.rank)
  bcast_S_S32768x40 : S_.BroadcastsInDim S32768x40 (![] : Fin 0 → Fin S32768x40.rank)
  shapeCasts_S32768x40_S8192x4x40 : S32768x40.ShapeCasts S8192x4x40
  reducesTo_S8192x4x40_S8192x40_d1 : S8192x4x40.ReducesTo [1] S8192x40
  slices_S698368x125_S2048x125_0_0 : S698368x125.Slices ![0, 0] S2048x125
  slices_S696320x12_S8192x12_0_0 : S696320x12.Slices ![0, 0] S8192x12
  bcast_S2048x125_S2048x4x125_0_2 : S2048x125.BroadcastsInDim S2048x4x125 (![0, 2] : Fin 2 → Fin S2048x4x125.rank)
  shapeCasts_S2048x4x125_S8192x125 : S2048x4x125.ShapeCasts S8192x125
  concatenates_S8192x125_S8192x12_S8192x40_S8192x177_d1 : Shape.Concatenates [S8192x125, S8192x12, S8192x40] S8192x177 1
  bcast_S1x125_S8192x125_0_1 : S1x125.BroadcastsInDim S8192x125 (![0, 1] : Fin 2 → Fin S8192x125.rank)
  bcast_S_S8192x125 : S_.BroadcastsInDim S8192x125 (![] : Fin 0 → Fin S8192x125.rank)
  bcast_S1x40_S8192x40_0_1 : S1x40.BroadcastsInDim S8192x40 (![0, 1] : Fin 2 → Fin S8192x40.rank)
  bcast_S_S8192x40 : S_.BroadcastsInDim S8192x40 (![] : Fin 0 → Fin S8192x40.rank)
  shapeCasts_S8192x40_S2048x4x40 : S8192x40.ShapeCasts S2048x4x40
  reducesTo_S2048x4x40_S2048x40_d1 : S2048x4x40.ReducesTo [1] S2048x40
  dot_S524288x177_S177x125_S524288x125_1_0_0_1_n_n_wf : DotDims.WF S524288x177 S177x125 S524288x125 [1] [0] [0] [1] [] []
  dot_S524288x125_S125x40_S524288x40_1_0_0_1_n_n_wf : DotDims.WF S524288x125 S125x40 S524288x40 [1] [0] [0] [1] [] []
  dot_S131072x177_S177x125_S131072x125_1_0_0_1_n_n_wf : DotDims.WF S131072x177 S177x125 S131072x125 [1] [0] [0] [1] [] []
  dot_S131072x125_S125x40_S131072x40_1_0_0_1_n_n_wf : DotDims.WF S131072x125 S125x40 S131072x40 [1] [0] [0] [1] [] []
  dot_S32768x177_S177x125_S32768x125_1_0_0_1_n_n_wf : DotDims.WF S32768x177 S177x125 S32768x125 [1] [0] [0] [1] [] []
  dot_S32768x125_S125x40_S32768x40_1_0_0_1_n_n_wf : DotDims.WF S32768x125 S125x40 S32768x40 [1] [0] [0] [1] [] []
  dot_S8192x177_S177x125_S8192x125_1_0_0_1_n_n_wf : DotDims.WF S8192x177 S177x125 S8192x125 [1] [0] [0] [1] [] []
  dot_S8192x125_S125x40_S8192x40_1_0_0_1_n_n_wf : DotDims.WF S8192x125 S125x40 S8192x40 [1] [0] [0] [1] [] []

variable [Facts₀]

def dot_S524288x177_S177x125_S524288x125_1_0_0_1_n_n : DotDims S524288x177 S177x125 S524288x125 where
  lhsContracting := [1]
  rhsContracting := [0]
  lhsNonContracting := [0]
  rhsNonContracting := [1]
  lhsBatch := []
  rhsBatch := []
  wf := dot_S524288x177_S177x125_S524288x125_1_0_0_1_n_n_wf
def dot_S524288x125_S125x40_S524288x40_1_0_0_1_n_n : DotDims S524288x125 S125x40 S524288x40 where
  lhsContracting := [1]
  rhsContracting := [0]
  lhsNonContracting := [0]
  rhsNonContracting := [1]
  lhsBatch := []
  rhsBatch := []
  wf := dot_S524288x125_S125x40_S524288x40_1_0_0_1_n_n_wf
def dot_S131072x177_S177x125_S131072x125_1_0_0_1_n_n : DotDims S131072x177 S177x125 S131072x125 where
  lhsContracting := [1]
  rhsContracting := [0]
  lhsNonContracting := [0]
  rhsNonContracting := [1]
  lhsBatch := []
  rhsBatch := []
  wf := dot_S131072x177_S177x125_S131072x125_1_0_0_1_n_n_wf
def dot_S131072x125_S125x40_S131072x40_1_0_0_1_n_n : DotDims S131072x125 S125x40 S131072x40 where
  lhsContracting := [1]
  rhsContracting := [0]
  lhsNonContracting := [0]
  rhsNonContracting := [1]
  lhsBatch := []
  rhsBatch := []
  wf := dot_S131072x125_S125x40_S131072x40_1_0_0_1_n_n_wf
def dot_S32768x177_S177x125_S32768x125_1_0_0_1_n_n : DotDims S32768x177 S177x125 S32768x125 where
  lhsContracting := [1]
  rhsContracting := [0]
  lhsNonContracting := [0]
  rhsNonContracting := [1]
  lhsBatch := []
  rhsBatch := []
  wf := dot_S32768x177_S177x125_S32768x125_1_0_0_1_n_n_wf
def dot_S32768x125_S125x40_S32768x40_1_0_0_1_n_n : DotDims S32768x125 S125x40 S32768x40 where
  lhsContracting := [1]
  rhsContracting := [0]
  lhsNonContracting := [0]
  rhsNonContracting := [1]
  lhsBatch := []
  rhsBatch := []
  wf := dot_S32768x125_S125x40_S32768x40_1_0_0_1_n_n_wf
def dot_S8192x177_S177x125_S8192x125_1_0_0_1_n_n : DotDims S8192x177 S177x125 S8192x125 where
  lhsContracting := [1]
  rhsContracting := [0]
  lhsNonContracting := [0]
  rhsNonContracting := [1]
  lhsBatch := []
  rhsBatch := []
  wf := dot_S8192x177_S177x125_S8192x125_1_0_0_1_n_n_wf
def dot_S8192x125_S125x40_S8192x40_1_0_0_1_n_n : DotDims S8192x125 S125x40 S8192x40 where
  lhsContracting := [1]
  rhsContracting := [0]
  lhsNonContracting := [0]
  rhsNonContracting := [1]
  lhsBatch := []
  rhsBatch := []
  wf := dot_S8192x125_S125x40_S8192x40_1_0_0_1_n_n_wf

class Facts : Prop extends Facts₀ where

variable [Facts]
-- ==== Proof.Spec.lean ====
/-
  The mathematics both programs compute, stated once over the extended reals and independent of any program text.

  A forest of 2048 perfect 4-ary trees of depth 5 is stored level by level: level `d` has `2048 · 4^d` nodes, the
  children of node `p` of a level are nodes `4p, 4p+1, 4p+2, 4p+3` of the next one. Every node carries a message of
  125 numbers, every non-root node a bond of 12 numbers. One small network `net` (177 → 125 → 40, a leaky rectifier
  after each affine layer) is applied to a row of 177 numbers. A leaf's row is its message followed by 52 zeros; a
  child's row, one level up, is its PARENT's message, its own bond, and its own 40 outputs from the level below. A
  parent's 40 outputs are the sum of `net` over its four children. The result is the roots' outputs.
-/
import Idealize.ShloMosaic.Lib.ValueIdx
import Idealize.ShloMosaic.PureOps.Ideal.Laws
import Mathlib.Algebra.BigOperators.Fin

noncomputable section

namespace Cert.Spec

open Idealize.ShloMosaic

/-- The rectifier's slope on the negative side: the binary32 number nearest 1/100, read exactly. -/
abbrev slope : EReal := Ideal.ofBits .f32 0x3C23D70A#32

/-- A rank-2 array as a function of its row and its column. -/
abbrev cur2 {a b : ℕ} (A : (⟨2, ![a, b]⟩ : Shape).Idx → EReal) : Fin a → Fin b → EReal := fun r k => A (ValueIdx.ix2 r k)
/-- A rank-1 array as a function of its one coordinate. -/
abbrev cur1 {a : ℕ} (A : (⟨1, ![a]⟩ : Shape).Idx → EReal) : Fin a → EReal := fun k => A (ValueIdx.ix1 k)
/-- The one row of a 1×a array. -/
abbrev row1 {a : ℕ} (A : (⟨2, ![1, a]⟩ : Shape).Idx → EReal) : Fin a → EReal := fun k => A (ValueIdx.ix2 0 k)

/-- Rows `off … off + n - 1` of a table of `N` rows. -/
def rows {α : Type} {N : ℕ} (off n : ℕ) (h : off + n ≤ N) (a : Fin N → α) : Fin n → α :=
  fun r => a ⟨off + r.val, by have := r.isLt; omega⟩

variable (s : EReal)

/-- The leaky rectifier with slope `s`: the identity on `x ≥ 0`, `s · x` below. -/
def lrelu (x : EReal) : EReal := if 0 ≤ x then x else s * x

/-- Testing `x > 0` instead of `x ≥ 0` changes nothing: the two differ only at `x = 0`, where `s · 0 = 0`. -/
theorem lrelu_of_pos_test (x : EReal) : (if 0 < x then x else s * x) = lrelu s x := by
  unfold lrelu
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- The hidden layer on a row `u` of 177 numbers: entry `j` is `lrelu (∑ₖ u k · W1 k j + b1 j)`. -/
def hid (u : Fin 177 → EReal) (W1 : Fin 177 → Fin 125 → EReal) (b1 : Fin 125 → EReal) (j : Fin 125) : EReal :=
  lrelu s ((∑ k : Fin 177, u k * W1 k j) + b1 j)

/-- The output layer on a hidden row `h` of 125 numbers. -/
def layer2 (h : Fin 125 → EReal) (W2 : Fin 125 → Fin 40 → EReal) (b2 : Fin 40 → EReal) (o : Fin 40) : EReal :=
  lrelu s ((∑ j : Fin 125, h j * W2 j o) + b2 o)

/-- The network on a row of 177 numbers. -/
def net (u : Fin 177 → EReal) (W1 : Fin 177 → Fin 125 → EReal) (b1 : Fin 125 → EReal)
    (W2 : Fin 125 → Fin 40 → EReal) (b2 : Fin 40 → EReal) (o : Fin 40) : EReal :=
  layer2 s (hid s u W1 b1) W2 b2 o

/-- A leaf's row: its message, then 52 zeros. -/
def leafIn (x : Fin 125 → EReal) : Fin 177 → EReal :=
  fun k => if h : k.val < 125 then x ⟨k.val, h⟩ else 0

/-- A child's row: the parent's message (125), the child's bond (12), the child's outputs from below (40). -/
def levelIn (msg : Fin 125 → EReal) (bond : Fin 12 → EReal) (prev : Fin 40 → EReal) : Fin 177 → EReal :=
  fun k => if h : k.val < 125 then msg ⟨k.val, h⟩
    else if h2 : k.val < 137 then bond ⟨k.val - 125, by omega⟩
    else prev ⟨k.val - 137, by have := k.isLt; omega⟩

/-- A sum over `a + b + c` consecutive indices is the sum over the first `a`, plus the sum over the next `b`,
    plus the sum over the last `c`. Only commutativity and associativity of addition are used, so it holds in the
    extended reals without any finiteness assumption. -/
private theorem sum_three_ranges (a b c : ℕ) (f : Fin (a + b + c) → EReal) :
    ∑ k, f k = ((∑ k : Fin a, f (Fin.castAdd c (Fin.castAdd b k)))
      + ∑ k : Fin b, f (Fin.castAdd c (Fin.natAdd a k)))
      + ∑ k : Fin c, f (Fin.natAdd (a + b) k) := by
  rw [Fin.sum_univ_add, Fin.sum_univ_add]

/-- The case `177 = 125 + 12 + 40`: the three ranges are `0 … 124`, `125 … 136` and `137 … 176`. -/
private theorem sum177 (f : Fin 177 → EReal) :
    ∑ k, f k = ((∑ k : Fin 125, f ⟨k.val, by have := k.isLt; omega⟩)
      + ∑ k : Fin 12, f ⟨125 + k.val, by have := k.isLt; omega⟩)
      + ∑ k : Fin 40, f ⟨137 + k.val, by have := k.isLt; omega⟩ :=
  sum_three_ranges 125 12 40 f

/-- The hidden layer of a leaf, with the 52 vanishing terms dropped: only rows `0 … 124` of `W1` are met. -/
theorem hid_leafIn (x : Fin 125 → EReal) (W1 : Fin 177 → Fin 125 → EReal) (b1 : Fin 125 → EReal) (j : Fin 125) :
    hid s (leafIn x) W1 b1 j
      = lrelu s ((∑ k : Fin 125, x k * W1 ⟨k.val, by have := k.isLt; omega⟩ j) + b1 j) := by
  unfold hid
  rw [sum177 (fun k => leafIn x k * W1 k j)]
  -- On the first range a leaf's row is its message; on the other two it is zero.
  have h1 : ∀ k : Fin 125, leafIn x ⟨k.val, by have := k.isLt; omega⟩ = x k := by
    intro k
    show (if h : k.val < 125 then x ⟨k.val, h⟩ else 0) = x k
    rw [dif_pos k.isLt]
  have h2 : ∀ k : Fin 12, leafIn x ⟨125 + k.val, by have := k.isLt; omega⟩ = 0 := by
    intro k
    show (if h : 125 + k.val < 125 then x ⟨125 + k.val, h⟩ else 0) = 0
    rw [dif_neg (by omega)]
  have h3 : ∀ k : Fin 40, leafIn x ⟨137 + k.val, by have := k.isLt; omega⟩ = 0 := by
    intro k
    show (if h : 137 + k.val < 125 then x ⟨137 + k.val, h⟩ else 0) = 0
    rw [dif_neg (by omega)]
  -- `0 · w = 0` for every extended real `w`, so the 52 padded terms vanish and their two sums are zero.
  simp only [h1, h2, h3, zero_mul, Finset.sum_const_zero, add_zero]

/-- The hidden layer of a child, as three separate products with the three row ranges of `W1`
    (`0 … 124`, `125 … 136`, `137 … 176`), summed in this order. -/
theorem hid_levelIn (msg : Fin 125 → EReal) (bond : Fin 12 → EReal) (prev : Fin 40 → EReal)
    (W1 : Fin 177 → Fin 125 → EReal) (b1 : Fin 125 → EReal) (j : Fin 125) :
    hid s (levelIn msg bond prev) W1 b1 j
      = lrelu s ((((∑ k : Fin 125, msg k * W1 ⟨k.val, by have := k.isLt; omega⟩ j)
            + ∑ k : Fin 12, bond k * W1 ⟨125 + k.val, by have := k.isLt; omega⟩ j)
            + ∑ k : Fin 40, prev k * W1 ⟨137 + k.val, by have := k.isLt; omega⟩ j) + b1 j) := by
  unfold hid
  rw [sum177 (fun k => levelIn msg bond prev k * W1 k j)]
  -- A child's row is the parent's message on `0 … 124`, the bond on `125 … 136`, the outputs from below on `137 … 176`.
  have h1 : ∀ k : Fin 125, levelIn msg bond prev ⟨k.val, by have := k.isLt; omega⟩ = msg k := by
    intro k
    show (if h : k.val < 125 then msg ⟨k.val, h⟩ else _) = msg k
    rw [dif_pos k.isLt]
  have h2 : ∀ k : Fin 12, levelIn msg bond prev ⟨125 + k.val, by have := k.isLt; omega⟩ = bond k := by
    intro k
    have hk := k.isLt
    show (if h : 125 + k.val < 125 then msg ⟨125 + k.val, h⟩
      else if h2 : 125 + k.val < 137 then bond ⟨125 + k.val - 125, _⟩ else _) = bond k
    rw [dif_neg (by omega), dif_pos (by omega)]
    congr 1
    exact Fin.ext (by simp)
  have h3 : ∀ k : Fin 40, levelIn msg bond prev ⟨137 + k.val, by have := k.isLt; omega⟩ = prev k := by
    intro k
    have hk := k.isLt
    show (if h : 137 + k.val < 125 then msg ⟨137 + k.val, h⟩
      else if h2 : 137 + k.val < 137 then bond ⟨137 + k.val - 125, _⟩ else prev ⟨137 + k.val - 137, _⟩) = prev k
    rw [dif_neg (by omega), dif_neg (by omega)]
    congr 1
    exact Fin.ext (by simp)
  simp only [h1, h2, h3]

/-- The leaves' outputs: `net` of each leaf's row. -/
def leaf (n : ℕ) (x : Fin n → Fin 125 → EReal) (W1 : Fin 177 → Fin 125 → EReal) (b1 : Fin 125 → EReal)
    (W2 : Fin 125 → Fin 40 → EReal) (b2 : Fin 40 → EReal) : Fin n → Fin 40 → EReal :=
  fun r o => net s (leafIn (x r)) W1 b1 W2 b2 o

/-- One level up: parent `p`'s outputs are the sum over its four children `4p + q` of `net` of the child's row. -/
def level (n n4 : ℕ) (h4 : n4 = 4 * n) (msg : Fin n → Fin 125 → EReal) (bond : Fin n4 → Fin 12 → EReal)
    (prev : Fin n4 → Fin 40 → EReal) (W1 : Fin 177 → Fin 125 → EReal) (b1 : Fin 125 → EReal)
    (W2 : Fin 125 → Fin 40 → EReal) (b2 : Fin 40 → EReal) : Fin n → Fin 40 → EReal :=
  fun p o => ∑ q : Fin 4,
    net s (levelIn (msg p) (bond ⟨4 * p.val + q.val, by have := p.isLt; have := q.isLt; omega⟩)
      (prev ⟨4 * p.val + q.val, by have := p.isLt; have := q.isLt; omega⟩)) W1 b1 W2 b2 o

section Forest
variable (a0 : Fin 698368 → Fin 125 → EReal) (a1 : Fin 696320 → Fin 12 → EReal)
  (W1 : Fin 177 → Fin 125 → EReal) (b1 : Fin 125 → EReal) (W2 : Fin 125 → Fin 40 → EReal) (b2 : Fin 40 → EReal)

/-- Level 4 (the 524288 leaves): messages are rows `174080 …` of the node table. -/
def out4 : Fin 524288 → Fin 40 → EReal :=
  leaf s 524288 (rows 174080 524288 (by norm_num) a0) W1 b1 W2 b2
/-- Level 3 (131072 nodes): messages rows `43008 …`, their children's bonds rows `172032 …` of the bond table. -/
def out3 : Fin 131072 → Fin 40 → EReal :=
  level s 131072 524288 (by norm_num) (rows 43008 131072 (by norm_num) a0) (rows 172032 524288 (by norm_num) a1)
    (out4 s a0 W1 b1 W2 b2) W1 b1 W2 b2
/-- Level 2 (32768 nodes): messages rows `10240 …`, bonds rows `40960 …`. -/
def out2 : Fin 32768 → Fin 40 → EReal :=
  level s 32768 131072 (by norm_num) (rows 10240 32768 (by norm_num) a0) (rows 40960 131072 (by norm_num) a1)
    (out3 s a0 a1 W1 b1 W2 b2) W1 b1 W2 b2
/-- Level 1 (8192 nodes): messages rows `2048 …`, bonds rows `8192 …`. -/
def out1 : Fin 8192 → Fin 40 → EReal :=
  level s 8192 32768 (by norm_num) (rows 2048 8192 (by norm_num) a0) (rows 8192 32768 (by norm_num) a1)
    (out2 s a0 a1 W1 b1 W2 b2) W1 b1 W2 b2
/-- Level 0 (the 2048 roots): messages rows `0 …`, bonds rows `0 …`. This is the result. -/
def out0 : Fin 2048 → Fin 40 → EReal :=
  level s 2048 8192 (by norm_num) (rows 0 2048 (by norm_num) a0) (rows 0 8192 (by norm_num) a1)
    (out1 s a0 a1 W1 b1 W2 b2) W1 b1 W2 b2
end Forest

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KPay.lean ====
/-
  The two kernel bodies' arithmetic at one entry of the block they store, over the extended reals.
  Leaf body: for a block of 2048 leaf rows, entry (r, o) is the output layer of the hidden row
  `lrelu (x_r · W1[0:125] + b1)`. Level body: for a block of 512 parents and their 2048 children, entry (p, o) is the
  sum over the four children 4p+q of the output layer of `lrelu (msg_p · W1a + bond_{4p+q} · W1b + prev_{4p+q} · W1c + b1)`;
  the parent's product is formed once per parent and repeated to its four children.
-/
import proofs.«105904_j53970559042267_1_alg».proof.Proof.Gen.KernelIdeal.Skeleton
import proofs.«105904_j53970559042267_1_alg».proof.Proof.Spec
import proofs.«105904_j53970559042267_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The rectifier, the bias row and the five matrix products at an entry -/

/-- Selecting `x` where `x > 0` and `slope · x` elsewhere is the leaky rectifier: the strict test and the weak one
    differ only at `x = 0`, where both branches are `0`. -/
private theorem rect_apply {s : Shape} (v : FVec Ideal s .f32) (i : s.Idx) :
    select (cmpf .ogt v (broadcast s (Scalar.ofBits (F := Ideal) .f32 0x00000000#32))) v
        (mulf (broadcast s (Scalar.ofBits (F := Ideal) .f32 0x3C23D70A#32)) v) i
      = lrelu slope (v i) := by
  rw [← lrelu_of_pos_test]
  show Scalar.select (Ideal.cmp .ogt (v i) (Ideal.ofBits .f32 0x00000000#32)) (v i)
      (Ideal.ofBits .f32 0x3C23D70A#32 * v i) = _
  rw [Ideal.ofBits_zero_f32]
  unfold Ideal.cmp
  by_cases h : (0 : EReal) < v i
  · rw [if_pos h]
    simp only [h, decide_true, BitVec.ofBool_true]
    exact select_one _ _
  · rw [if_neg h]
    simp only [h, decide_false, BitVec.ofBool_false]
    exact select_zero _ _

/-- A bias row `[1, N]` laid over `M` rows reads, at `(r, o)`, its entry `o`. -/
private theorem bias_apply {M N : Nat} (b : (⟨2, ![1, N]⟩ : Shape).Idx → EReal)
    (hc : (⟨2, ![1, N]⟩ : Shape).ShapeCasts ⟨2, ![1, N]⟩) (hb : (⟨2, ![1, N]⟩ : Shape).Broadcasts ⟨2, ![M, N]⟩)
    (r : Fin M) (o : Fin N) :
    broadcastTo ⟨2, ![M, N]⟩ (shapeCast ⟨2, ![1, N]⟩ b hc) hb (ix2 r o) = b (ix2 0 o) := by
  rw [broadcastTo_1b_ab_apply, shapeCast_self]

/-- Each of the five products contracts the left operand's columns with the right operand's rows. -/
private theorem dims_2048_125_125 : dot_S2048x125_S125x125_S2048x125_1_0_0_1_n_n = DotDims.plain 2048 125 125 := rfl
private theorem dims_2048_125_40 : dot_S2048x125_S125x40_S2048x40_1_0_0_1_n_n = DotDims.plain 2048 125 40 := rfl
private theorem dims_512_125_125 : dot_S512x125_S125x125_S512x125_1_0_0_1_n_n = DotDims.plain 512 125 125 := rfl
private theorem dims_2048_12_125 : dot_S2048x12_S12x125_S2048x125_1_0_0_1_n_n = DotDims.plain 2048 12 125 := rfl
private theorem dims_2048_40_125 : dot_S2048x40_S40x125_S2048x125_1_0_0_1_n_n = DotDims.plain 2048 40 125 := rfl

/-- So entry `(p, q)` of each, formed from zero, is the row-by-column sum. -/
private theorem mm_2048_125_125 {φ₁ φ₂ : FTy} (a : FVec Ideal S2048x125 φ₁) (w : FVec Ideal S125x125 φ₂) (p : Fin 2048) (q : Fin 125) :
    matmul dot_S2048x125_S125x125_S2048x125_1_0_0_1_n_n none a w (constant (F := Ideal) S2048x125 .f32 0x00000000#32) (ix2 p q)
      = ∑ k : Fin 125, a (ix2 p k) * w (ix2 k q) := by
  rw [dims_2048_125_125]; exact Cert.Lib.PlainDot.matmul_zero_apply none a w p q
private theorem mm_2048_125_40 {φ₁ φ₂ : FTy} (a : FVec Ideal S2048x125 φ₁) (w : FVec Ideal S125x40 φ₂) (p : Fin 2048) (q : Fin 40) :
    matmul dot_S2048x125_S125x40_S2048x40_1_0_0_1_n_n none a w (constant (F := Ideal) S2048x40 .f32 0x00000000#32) (ix2 p q)
      = ∑ k : Fin 125, a (ix2 p k) * w (ix2 k q) := by
  rw [dims_2048_125_40]; exact Cert.Lib.PlainDot.matmul_zero_apply none a w p q
private theorem mm_512_125_125 {φ₁ φ₂ : FTy} (a : FVec Ideal S512x125 φ₁) (w : FVec Ideal S125x125 φ₂) (p : Fin 512) (q : Fin 125) :
    matmul dot_S512x125_S125x125_S512x125_1_0_0_1_n_n none a w (constant (F := Ideal) S512x125 .f32 0x00000000#32) (ix2 p q)
      = ∑ k : Fin 125, a (ix2 p k) * w (ix2 k q) := by
  rw [dims_512_125_125]; exact Cert.Lib.PlainDot.matmul_zero_apply none a w p q
private theorem mm_2048_12_125 {φ₁ φ₂ : FTy} (a : FVec Ideal S2048x12 φ₁) (w : FVec Ideal S12x125 φ₂) (p : Fin 2048) (q : Fin 125) :
    matmul dot_S2048x12_S12x125_S2048x125_1_0_0_1_n_n none a w (constant (F := Ideal) S2048x125 .f32 0x00000000#32) (ix2 p q)
      = ∑ k : Fin 12, a (ix2 p k) * w (ix2 k q) := by
  rw [dims_2048_12_125]; exact Cert.Lib.PlainDot.matmul_zero_apply none a w p q
private theorem mm_2048_40_125 {φ₁ φ₂ : FTy} (a : FVec Ideal S2048x40 φ₁) (w : FVec Ideal S40x125 φ₂) (p : Fin 2048) (q : Fin 125) :
    matmul dot_S2048x40_S40x125_S2048x125_1_0_0_1_n_n none a w (constant (F := Ideal) S2048x125 .f32 0x00000000#32) (ix2 p q)
      = ∑ k : Fin 40, a (ix2 p k) * w (ix2 k q) := by
  rw [dims_2048_40_125]; exact Cert.Lib.PlainDot.matmul_zero_apply none a w p q

/-! ## Parents and children: the repeat and the sum over four -/

/-- A table of 512 rows with every row repeated four times in place: row `c = 4p + q` of the result is row `p`. -/
private theorem repeat4_apply (v : S512x125.Idx → EReal) (h1 : S512x125.ShapeCasts S512x1x125)
    (h2 : S512x1x125.Broadcasts S512x4x125) (h3 : S512x4x125.ShapeCasts S2048x125)
    (p : Fin 512) (q : Fin 4) (c : Fin 2048) (hc : c.val = 4 * p.val + q.val) (j : Fin 125) :
    shapeCast S2048x125 (broadcastTo S512x4x125 (shapeCast S512x1x125 v h1) h2) h3 (ix2 c j) = v (ix2 p j) := by
  refine (shapeCast_apply _ h3 (ix2 c j) (ix3 p q j) ?_).trans ?_
  · rw [Shape.rowMajor_val_three, Shape.rowMajor_val_two]
    show (p.val * 4 + q.val) * 125 + j.val = c.val * 125 + j.val
    omega
  refine (broadcastTo_apply _ h2 (ix3 p q j) (ix3 p (0 : Fin 1) j) fun a => ?_).trans ?_
  · match a with
    | ⟨0, _⟩ => rfl
    | ⟨1, _⟩ => rfl
    | ⟨2, _⟩ => rfl
  refine shapeCast_apply v h1 (ix3 p (0 : Fin 1) j) (ix2 p j) ?_
  rw [Shape.rowMajor_val_three, Shape.rowMajor_val_two]
  show p.val * 125 + j.val = (p.val * 1 + 0) * 125 + j.val
  omega

/-- A table of 2048 rows read as 512 groups of four consecutive rows and summed within each group: entry `(p, o)`
    is the sum over `q` of entry `(4p + q, o)`. -/
private theorem sum4_apply (v : FVec Ideal S2048x40 .f32) (h1 : S2048x40.ShapeCasts S512x4x40)
    (h2 : S512x4x40.Reduces [1] S512x40) (hφ : FKind.Formats .f32)
    (hacc : (0x00000000#32 : BitVec 32) = FKind.add.neutral .f32 hφ) (p : Fin 512) (o : Fin 40) :
    multiReduction (F := Ideal) .add [1] S512x40 (shapeCast S512x4x40 v h1) 0x00000000#32 h2 hφ hacc (ix2 p o)
      = ∑ q : Fin 4, v (ix2 (⟨4 * p.val + q.val, by have := p.isLt; have := q.isLt; omega⟩ : Fin 2048) o) := by
  refine (Ideal.multiReduction_add_single (shapeCast S512x4x40 v h1) 0x00000000#32 h2 hφ hacc (ix2 p o)).trans ?_
  show ∑ q : Fin 4, shapeCast S512x4x40 v h1 (h2.lift (ix2 p o) q) = _
  refine Finset.sum_congr rfl fun q _ => ?_
  refine shapeCast_apply v h1 _ (ix2 (⟨4 * p.val + q.val, by have := p.isLt; have := q.isLt; omega⟩ : Fin 2048) o) ?_
  rw [Shape.rowMajor_val_three, Shape.rowMajor_val_two]
  show (4 * p.val + q.val) * 40 + o.val = (p.val * 4 + q.val) * 40 + o.val
  omega

/-! ## The two bodies at an entry -/

/-- The leaf body's stored value at entry (r, o). -/
theorem leaf_pay (x : Vec Ideal S2048x125 .f32) (w1a : Vec Ideal S125x125 .f32) (b1 : Vec Ideal S1x125 .f32)
    (w2 : Vec Ideal S125x40 .f32) (b2 : Vec Ideal S1x40 .f32) (r : Fin 2048) (o : Fin 40) :
    (k0_pay1 (F := Ideal) x w1a b1 w2 b2 (ix2 r o) : EReal)
      = layer2 slope (fun j => lrelu slope ((∑ k : Fin 125, (x (ix2 r k) : EReal) * (w1a (ix2 k j) : EReal)) + (b1 (ix2 0 j) : EReal)))
          (cur2 (w2 : S125x40.Idx → EReal)) (row1 (b2 : S1x40.Idx → EReal)) o := by
  unfold k0_pay1 layer2
  -- the outer rectifier, then its argument: a product plus the bias row
  refine (rect_apply _ (ix2 r o)).trans (congrArg (lrelu slope) ?_)
  refine (addf_apply _ _ (ix2 r o)).trans (congrArg₂ (· + ·) ?_ (bias_apply _ _ _ r o))
  refine (mm_2048_125_40 _ _ r o).trans (Finset.sum_congr rfl fun j _ => congrArg₂ (· * ·) ?_ rfl)
  -- the hidden row's entry j (narrowing the format is the identity on the extended reals): the inner rectifier of a
  -- product plus the bias row
  show select _ _ _ (ix2 r j) = _
  refine (rect_apply _ (ix2 r j)).trans (congrArg (lrelu slope) ?_)
  refine (addf_apply _ _ (ix2 r j)).trans (congrArg₂ (· + ·) ?_ (bias_apply _ _ _ r j))
  refine (mm_2048_125_125 _ _ r j).trans (Finset.sum_congr rfl fun k _ => congrArg₂ (· * ·) ?_ rfl)
  exact congrFun (shapeCast_self x _) (ix2 r k)

/-- The level body's stored value at entry (p, o): the four children of parent `p` are rows `4p … 4p+3` of the block. -/
theorem level_pay1 (x0 : Vec Ideal S512x125 .f32) (x1 : Vec Ideal S2048x12 .f32) (x2 : Vec Ideal S2048x40 .f32)
    (w1a : Vec Ideal S125x125 .f32) (w1b : Vec Ideal S12x125 .f32) (w1c : Vec Ideal S40x125 .f32) (b1 : Vec Ideal S1x125 .f32)
    (w2 : Vec Ideal S125x40 .f32) (b2 : Vec Ideal S1x40 .f32) (p : Fin 512) (o : Fin 40) :
    (k1_pay1 (F := Ideal) (k1_pay2 (F := Ideal) x0 x1 x2 w1a w1b w1c b1 w2) b2 (ix2 p o) : EReal)
      = ∑ q : Fin 4, layer2 slope (fun j => lrelu slope
            ((((∑ k : Fin 125, (x0 (ix2 p k) : EReal) * (w1a (ix2 k j) : EReal))
              + ∑ k : Fin 12, (x1 (ix2 (⟨4 * p.val + q.val, by have := p.isLt; have := q.isLt; omega⟩ : Fin 2048) k) : EReal) * (w1b (ix2 k j) : EReal))
              + ∑ k : Fin 40, (x2 (ix2 (⟨4 * p.val + q.val, by have := p.isLt; have := q.isLt; omega⟩ : Fin 2048) k) : EReal) * (w1c (ix2 k j) : EReal))
              + (b1 (ix2 0 j) : EReal)))
          (cur2 (w2 : S125x40.Idx → EReal)) (row1 (b2 : S1x40.Idx → EReal)) o := by
  unfold k1_pay1 k1_pay2 layer2
  -- the sum over the four children; from here on one child, row c = 4p + q of the block
  refine (sum4_apply _ _ _ _ _ p o).trans (Finset.sum_congr rfl fun q _ => ?_)
  -- the outer rectifier, then its argument: a product plus the bias row
  refine (rect_apply _ (ix2 _ o)).trans (congrArg (lrelu slope) ?_)
  refine (addf_apply _ _ (ix2 _ o)).trans (congrArg₂ (· + ·) ?_ (bias_apply _ _ _ _ o))
  refine (mm_2048_125_40 _ _ _ o).trans (Finset.sum_congr rfl fun j _ => congrArg₂ (· * ·) ?_ rfl)
  -- the hidden row's entry j (narrowing the format is the identity on the extended reals): the inner rectifier of
  -- three products plus the bias row
  show select _ _ _ (ix2 _ j) = _
  refine (rect_apply _ (ix2 _ j)).trans (congrArg (lrelu slope) ?_)
  refine (addf_apply _ _ (ix2 _ j)).trans (congrArg₂ (· + ·) ?_ (bias_apply _ _ _ _ j))
  refine (addf_apply _ _ (ix2 _ j)).trans (congrArg₂ (· + ·) ?_ ?_)
  · refine (addf_apply _ _ (ix2 _ j)).trans (congrArg₂ (· + ·) ?_ ?_)
    · -- the parent's product, formed once for row p and repeated to row c
      refine (repeat4_apply _ _ _ _ p q (⟨4 * p.val + q.val, by have := p.isLt; have := q.isLt; omega⟩ : Fin 2048) rfl j).trans ?_
      refine (mm_512_125_125 _ _ p j).trans (Finset.sum_congr rfl fun k _ => congrArg₂ (· * ·) ?_ rfl)
      exact congrFun (shapeCast_self x0 _) (ix2 p k)
    · -- the child's bond
      refine (mm_2048_12_125 _ _ _ j).trans (Finset.sum_congr rfl fun k _ => congrArg₂ (· * ·) ?_ rfl)
      exact congrFun (shapeCast_self x1 _) (ix2 _ k)
  · -- the child's outputs from the level below
    refine (mm_2048_40_125 _ _ _ j).trans (Finset.sum_congr rfl fun k _ => congrArg₂ (· * ·) ?_ rfl)
    exact congrFun (shapeCast_self x2 _) (ix2 _ k)

/-- Region 2's body is region 1's, word for word. -/
theorem level_pay2 (x0 : Vec Ideal S512x125 .f32) (x1 : Vec Ideal S2048x12 .f32) (x2 : Vec Ideal S2048x40 .f32)
    (w1a : Vec Ideal S125x125 .f32) (w1b : Vec Ideal S12x125 .f32) (w1c : Vec Ideal S40x125 .f32) (b1 : Vec Ideal S1x125 .f32)
    (w2 : Vec Ideal S125x40 .f32) (b2 : Vec Ideal S1x40 .f32) (p : Fin 512) (o : Fin 40) :
    (k2_pay1 (F := Ideal) (k2_pay2 (F := Ideal) x0 x1 x2 w1a w1b w1c b1 w2) b2 (ix2 p o) : EReal)
      = ∑ q : Fin 4, layer2 slope (fun j => lrelu slope
            ((((∑ k : Fin 125, (x0 (ix2 p k) : EReal) * (w1a (ix2 k j) : EReal))
              + ∑ k : Fin 12, (x1 (ix2 (⟨4 * p.val + q.val, by have := p.isLt; have := q.isLt; omega⟩ : Fin 2048) k) : EReal) * (w1b (ix2 k j) : EReal))
              + ∑ k : Fin 40, (x2 (ix2 (⟨4 * p.val + q.val, by have := p.isLt; have := q.isLt; omega⟩ : Fin 2048) k) : EReal) * (w1c (ix2 k j) : EReal))
              + (b1 (ix2 0 j) : EReal)))
          (cur2 (w2 : S125x40.Idx → EReal)) (row1 (b2 : S1x40.Idx → EReal)) o :=
  level_pay1 x0 x1 x2 w1a w1b w1c b1 w2 b2 p o

/-- Region 3's body is region 1's, word for word. -/
theorem level_pay3 (x0 : Vec Ideal S512x125 .f32) (x1 : Vec Ideal S2048x12 .f32) (x2 : Vec Ideal S2048x40 .f32)
    (w1a : Vec Ideal S125x125 .f32) (w1b : Vec Ideal S12x125 .f32) (w1c : Vec Ideal S40x125 .f32) (b1 : Vec Ideal S1x125 .f32)
    (w2 : Vec Ideal S125x40 .f32) (b2 : Vec Ideal S1x40 .f32) (p : Fin 512) (o : Fin 40) :
    (k3_pay1 (F := Ideal) (k3_pay2 (F := Ideal) x0 x1 x2 w1a w1b w1c b1 w2) b2 (ix2 p o) : EReal)
      = ∑ q : Fin 4, layer2 slope (fun j => lrelu slope
            ((((∑ k : Fin 125, (x0 (ix2 p k) : EReal) * (w1a (ix2 k j) : EReal))
              + ∑ k : Fin 12, (x1 (ix2 (⟨4 * p.val + q.val, by have := p.isLt; have := q.isLt; omega⟩ : Fin 2048) k) : EReal) * (w1b (ix2 k j) : EReal))
              + ∑ k : Fin 40, (x2 (ix2 (⟨4 * p.val + q.val, by have := p.isLt; have := q.isLt; omega⟩ : Fin 2048) k) : EReal) * (w1c (ix2 k j) : EReal))
              + (b1 (ix2 0 j) : EReal)))
          (cur2 (w2 : S125x40.Idx → EReal)) (row1 (b2 : S1x40.Idx → EReal)) o :=
  level_pay1 x0 x1 x2 w1a w1b w1c b1 w2 b2 p o

/-- Region 4's body is region 1's, word for word. -/
theorem level_pay4 (x0 : Vec Ideal S512x125 .f32) (x1 : Vec Ideal S2048x12 .f32) (x2 : Vec Ideal S2048x40 .f32)
    (w1a : Vec Ideal S125x125 .f32) (w1b : Vec Ideal S12x125 .f32) (w1c : Vec Ideal S40x125 .f32) (b1 : Vec Ideal S1x125 .f32)
    (w2 : Vec Ideal S125x40 .f32) (b2 : Vec Ideal S1x40 .f32) (p : Fin 512) (o : Fin 40) :
    (k4_pay1 (F := Ideal) (k4_pay2 (F := Ideal) x0 x1 x2 w1a w1b w1c b1 w2) b2 (ix2 p o) : EReal)
      = ∑ q : Fin 4, layer2 slope (fun j => lrelu slope
            ((((∑ k : Fin 125, (x0 (ix2 p k) : EReal) * (w1a (ix2 k j) : EReal))
              + ∑ k : Fin 12, (x1 (ix2 (⟨4 * p.val + q.val, by have := p.isLt; have := q.isLt; omega⟩ : Fin 2048) k) : EReal) * (w1b (ix2 k j) : EReal))
              + ∑ k : Fin 40, (x2 (ix2 (⟨4 * p.val + q.val, by have := p.isLt; have := q.isLt; omega⟩ : Fin 2048) k) : EReal) * (w1c (ix2 k j) : EReal))
              + (b1 (ix2 0 j) : EReal)))
          (cur2 (w2 : S125x40.Idx → EReal)) (row1 (b2 : S1x40.Idx → EReal)) o :=
  level_pay1 x0 x1 x2 w1a w1b w1c b1 w2 b2 p o

end Cert.KernelIdeal.Pay

end
-- ==== Proof.KLeaf.lean ====
/-
  Region 0 (the leaves) as one function of the arrays the region finds: its 256 grid points each write a block of 2048
  rows of the output, the blocks tile the 524288 rows, and row r of the output is the network on leaf r's row.
-/
import proofs.«105904_j53970559042267_1_alg».proof.Proof.Gen.KernelIdeal.Frame
import proofs.«105904_j53970559042267_1_alg».proof.Proof.Spec
import proofs.«105904_j53970559042267_1_alg».proof.Proof.KPay
import Idealize.ShloMosaic.Lib.Pipeline.Value

noncomputable section

namespace Cert.KernelIdeal.Leaf

open Cert.KernelIdeal Cert.KernelIdeal.Gen Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

/-! ## Where each block sits -/

/-- Every access of the body starts at row 0 and column 0. -/
theorem offsets_zero : (![0, 0] : Fin 2 → Nat) = fun _ => 0 :=
  funext fun a => by match a with | ⟨0, _⟩ => rfl | ⟨1, _⟩ => rfl

/-- The block indices at grid point `t`: the leaf rows and the output move down with the point (block `t` of 256, column
    block 0); the two weight matrices and the two bias rows are one block each, the same at every point. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `y` of the leaf-row block at point `t` is entry `(2048 t + y₀, y₁)` of the 524288 × 125 table of leaf messages. -/
theorem leaf_rows (c : Dev nD) (t : Fin cfg0.N) (y : S2048x125.Idx) (k : S524288x125.Idx)
    (hk0 : (k 0).val = 2048 * t.val + (y 0).val) (hk1 : (k 1).val = (y 1).val) :
    (iblk0 V c 0 t : Vec Ideal S2048x125 .f32) y = (V c main_v0 : S524288x125.Idx → Elt Ideal .f32) k := by
  obtain ⟨e0, e1, -⟩ := block_index t
  unfold iblk0
  rw [View.read_apply]
  show V c main_v0 _ = V c main_v0 _
  congr 1
  funext a; apply Fin.ext
  match a with
  | ⟨0, _⟩ => show win0_0.index t (0 : Fin 2) * 2048 + 1 * (y 0).val = (k 0).val; rw [e0, hk0]; omega
  | ⟨1, _⟩ => show win0_0.index t (1 : Fin 2) * 125 + 1 * (y 1).val = (k 1).val; rw [e1, hk1]; omega

/-- The first layer's weights (177 × 125) are one block: at every point the block is the whole matrix. -/
theorem weights1_block (c : Dev nD) (t : Fin cfg0.N) :
    (iblk0 V c 1 t : Vec Ideal S177x125 .f32) = (V c main_arg2 : S177x125.Idx → Elt Ideal .f32) := by
  obtain ⟨-, -, e0, e1, -⟩ := block_index t
  funext y
  unfold iblk0
  rw [View.read_apply]
  show V c main_arg2 _ = V c main_arg2 _
  congr 1
  funext a; apply Fin.ext
  match a with
  | ⟨0, _⟩ => show win0_1.index t (0 : Fin 2) * 177 + 1 * (y 0).val = (y 0).val; rw [e0]; omega
  | ⟨1, _⟩ => show win0_1.index t (1 : Fin 2) * 125 + 1 * (y 1).val = (y 1).val; rw [e1]; omega

/-- The first layer's bias (1 × 125) is one block: at every point the block is the whole row. -/
theorem bias1_block (c : Dev nD) (t : Fin cfg0.N) :
    (iblk0 V c 2 t : Vec Ideal S1x125 .f32) = (V c main_v1 : S1x125.Idx → Elt Ideal .f32) := by
  obtain ⟨-, -, -, -, e0, e1, -⟩ := block_index t
  funext y
  unfold iblk0
  rw [View.read_apply]
  show V c main_v1 _ = V c main_v1 _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 125 + 1 * (y 1).val = (y 1).val; rw [e1]; omega

/-- The second layer's weights (125 × 40) are one block: at every point the block is the whole matrix. -/
theorem weights2_block (c : Dev nD) (t : Fin cfg0.N) :
    (iblk0 V c 3 t : Vec Ideal S125x40 .f32) = (V c main_arg4 : S125x40.Idx → Elt Ideal .f32) := by
  obtain ⟨-, -, -, -, -, -, e0, e1, -⟩ := block_index t
  funext y
  unfold iblk0
  rw [View.read_apply]
  show V c main_arg4 _ = V c main_arg4 _
  congr 1
  funext a; apply Fin.ext
  match a with
  | ⟨0, _⟩ => show win0_3.index t (0 : Fin 2) * 125 + 1 * (y 0).val = (y 0).val; rw [e0]; omega
  | ⟨1, _⟩ => show win0_3.index t (1 : Fin 2) * 40 + 1 * (y 1).val = (y 1).val; rw [e1]; omega

/-- The second layer's bias (1 × 40) is one block: at every point the block is the whole row. -/
theorem bias2_block (c : Dev nD) (t : Fin cfg0.N) :
    (iblk0 V c 4 t : Vec Ideal S1x40 .f32) = (V c main_v2 : S1x40.Idx → Elt Ideal .f32) := by
  obtain ⟨-, -, -, -, -, -, -, -, e0, e1, -⟩ := block_index t
  funext y
  unfold iblk0
  rw [View.read_apply]
  show V c main_v2 _ = V c main_v2 _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 40 + 1 * (y 1).val = (y 1).val; rw [e1]; omega

/-! ## One entry of one block -/

/-- The body reads the top 125 rows of the 177-row weight matrix: entry `(k, j)` of what it loads is entry `(k, j)`
    of the matrix, for `k < 125`. The other 52 rows would multiply the zeros that pad a leaf's row, and are never read. -/
theorem weights1_top (w1 : Vec Ideal S177x125 .f32) (k j : Fin 125) :
    (View.ld w1 r0_1 (ix2 k j) : EReal) = w1 (ix2 ⟨k.val, by have := k.isLt; omega⟩ j) := by
  show w1 _ = w1 _
  congr 1
  funext a; apply Fin.ext
  match a with
  | ⟨0, _⟩ => show 0 + 1 * k.val = k.val; omega
  | ⟨1, _⟩ => show 0 + 1 * j.val = j.val; omega

/-- Entry `(r, o)` of the block the body computes from a block `x` of leaf messages and the weights is output `o` of the
    network on row `r` of `x` padded with 52 zeros: the padded positions contribute nothing to the hidden layer's sums,
    which is why the top 125 rows of the first weight matrix suffice. -/
theorem point_entry (x : Vec Ideal S2048x125 .f32) (w1 : Vec Ideal S177x125 .f32) (b1 : Vec Ideal S1x125 .f32)
    (w2 : Vec Ideal S125x40 .f32) (b2 : Vec Ideal S1x40 .f32) (r : Fin 2048) (o : Fin 40) :
    (k0_pay1 (F := Ideal) (View.ld x r0_0) (View.ld w1 r0_1) (View.ld b1 r0_2) (View.ld w2 r0_3) (View.ld b2 r0_4) (ix2 r o) : EReal)
      = net slope (leafIn (fun k => (x (ix2 r k) : EReal))) (cur2 (w1 : S177x125.Idx → EReal)) (row1 (b1 : S1x125.Idx → EReal))
          (cur2 (w2 : S125x40.Idx → EReal)) (row1 (b2 : S1x40.Idx → EReal)) o := by
  rw [View.ld_unit_zero (S := S2048x125) offsets_zero, View.ld_unit_zero (S := S1x125) offsets_zero,
    View.ld_unit_zero (S := S125x40) offsets_zero, View.ld_unit_zero (S := S1x40) offsets_zero]
  rw [Pay.leaf_pay]
  unfold net
  refine congrArg (fun h => layer2 slope h _ _ o) (funext fun j => ?_)
  rw [hid_leafIn]
  refine congrArg (fun s => lrelu slope (s + _)) (Finset.sum_congr rfl fun k _ => ?_)
  rw [weights1_top]

/-- The network on a row `x` that is row `p` of the table `X` of leaf messages is entry `p` of the leaves' outputs. -/
theorem leaf_at (X : Fin 524288 → Fin 125 → EReal) (W1 : Fin 177 → Fin 125 → EReal) (b1 : Fin 125 → EReal)
    (W2 : Fin 125 → Fin 40 → EReal) (b2 : Fin 40 → EReal) (x : Fin 125 → EReal) (p : Fin 524288) (o o' : Fin 40)
    (hx : ∀ k, x k = X p k) (ho : o' = o) :
    net slope (leafIn x) W1 b1 W2 b2 o = leaf slope 524288 X W1 b1 W2 b2 p o' := by
  subst ho
  unfold leaf
  rw [show x = X p from funext hx]

/-! ## What a point writes, and the whole array -/

/-- What grid point `t` writes back is rows `2048 t … 2048 t + 2047` of the leaves' outputs: entry `(r, o)` of its block
    is the network on leaf `2048 t + r`, whose message is row `r` of the point's block of leaf rows. -/
theorem flushed_block (c : Dev nD) (t : Fin cfg0.N) :
    (dat0 V c).flushed 5 t = ((cfg0.win 5).blk t).view.read (Elt Ideal)
      (fun (i : S524288x40.Idx) => leaf slope 524288 (cur2 (V c main_v0 : S524288x125.Idx → EReal))
          (cur2 (V c main_arg2 : S177x125.Idx → EReal)) (row1 (V c main_v1 : S1x125.Idx → EReal))
          (cur2 (V c main_arg4 : S125x40.Idx → EReal)) (row1 (V c main_v2 : S1x40.Idx → EReal)) (i 0) (i 1)) := by
  obtain ⟨-, -, -, -, -, -, -, -, -, -, e0, e1⟩ := block_index t
  show (cfg0.win 5).cut (grid0.coords t) ((dat0 V c).after 5 t) = _
  rw [after0_5]
  unfold out0_5
  rw [View.canon_unit_zero offsets_zero,
    weights1_block V c t, bias1_block V c t, weights2_block V c t, bias2_block V c t]
  funext j
  obtain ⟨r, o, rfl⟩ : ∃ (r : Fin 2048) (o : Fin 40), j = ix2 r o := ⟨j 0, j 1, eq_ix2 j⟩
  show (k0_pay1 (F := Ideal) (View.ld (iblk0 V c 0 t) r0_0) (View.ld (V c main_arg2 : S177x125.Idx → EReal) r0_1)
        (View.ld (V c main_v1 : S1x125.Idx → EReal) r0_2) (View.ld (V c main_arg4 : S125x40.Idx → EReal) r0_3)
        (View.ld (V c main_v2 : S1x40.Idx → EReal) r0_4) (ix2 r o) : EReal)
      = leaf slope 524288 (cur2 (V c main_v0 : S524288x125.Idx → EReal))
          (cur2 (V c main_arg2 : S177x125.Idx → EReal)) (row1 (V c main_v1 : S1x125.Idx → EReal))
          (cur2 (V c main_arg4 : S125x40.Idx → EReal)) (row1 (V c main_v2 : S1x40.Idx → EReal))
          (((cfg0.win 5).blk t).view.emb (ix2 r o) 0) (((cfg0.win 5).blk t).view.emb (ix2 r o) 1)
  -- row r of block t of the output is row 2048 t + r of the array; its columns are the array's
  have h0 : (((cfg0.win 5).blk t).view.emb (ix2 r o) 0 : Fin 524288).val = 2048 * t.val + r.val := by
    show win0_5.index t (0 : Fin 2) * 2048 + 1 * r.val = _; rw [e0]; omega
  have h1 : (((cfg0.win 5).blk t).view.emb (ix2 r o) 1 : Fin 40) = o :=
    Fin.ext (by show win0_5.index t (1 : Fin 2) * 40 + 1 * o.val = o.val; rw [e1]; omega)
  refine (point_entry (iblk0 V c 0 t) (V c main_arg2) (V c main_v1) (V c main_arg4) (V c main_v2) r o).trans ?_
  exact leaf_at _ _ _ _ _ _ _ _ _ (fun k => leaf_rows V c t (ix2 r k) (ix2 _ k) h0 rfl) h1

/-- An entry of the output is in point `t`'s block iff each of its coordinates is in the block's range on that axis. -/
theorem mem_block (t : Fin cfg0.N) (i : S524288x40.Idx) :
    i ∈ ((cfg0.win 5).blk t).view.set ↔ ∀ a : Fin 2, win0_5.index t a * S2048x40.size a ≤ (i a).val
      ∧ (i a).val < win0_5.index t a * S2048x40.size a + S2048x40.size a := by
  show i ∈ ((View.whole main_v3).slice (win0_5.rect t)).set ↔ _
  rw [View.set_slice_whole, Rect.mem_set_unit]
  exact Iff.rfl

/-- The 256 blocks of 2048 rows tile the 524288 rows: row `r` is in the block of point `r / 2048`, and every point
    writes its block back. -/
theorem blocks_cover (i : S524288x40.Idx) :
    ∃ t : Fin cfg0.N, (cfg0.win 5).flush t = true ∧ i ∈ ((cfg0.win 5).blk t).view.set := by
  have hN : cfg0.N = 256 := N_0
  have hi0 : (i 0).val < 524288 := idx2_lt0 i
  have hi1 : (i 1).val < 40 := idx2_lt1 i
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := block_index t
  refine ⟨t, flush0_5 t, ?_⟩
  rw [mem_block]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 40 ≤ (i 1).val ∧ (i 1).val < win0_5.index t (1 : Fin 2) * 40 + 40
    rw [e1]; omega

/-- The output array after region 0, whatever the contents `V` it is entered from. -/
theorem arr (c : Dev nD) :
    (dat0 (F := Ideal) V c).arrAt 5 cfg0.N
      = fun (i : S524288x40.Idx) => leaf slope 524288 (cur2 (V c main_v0 : S524288x125.Idx → EReal))
          (cur2 (V c main_arg2 : S177x125.Idx → EReal)) (row1 (V c main_v1 : S1x125.Idx → EReal))
          (cur2 (V c main_arg4 : S125x40.Idx → EReal)) (row1 (V c main_v2 : S1x40.Idx → EReal)) (i 0) (i 1) :=
  (dat0 V c).arrAt_eq_of_cover 5 _ (fun t _ => flushed_block V c t) blocks_cover

end Cert.KernelIdeal.Leaf

end
-- ==== Proof.KLvl1.lean ====
/-
  One level's region (131072 parents over 524288 children) as one function of the arrays the region finds: its 256 grid points
  each write a block of 512 parent rows, the blocks tile the output, and row p is the sum over p's four children of the
  network on the child's row (parent's message, child's bond, child's outputs from the level below).
-/
import proofs.«105904_j53970559042267_1_alg».proof.Proof.Gen.KernelIdeal.Frame
import proofs.«105904_j53970559042267_1_alg».proof.Proof.Spec
import proofs.«105904_j53970559042267_1_alg».proof.Proof.KPay
import Idealize.ShloMosaic.Lib.Pipeline.Value

noncomputable section

namespace Cert.KernelIdeal.Lvl1

open Cert.KernelIdeal Cert.KernelIdeal.Gen Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

/-- The zero offsets of a whole-buffer access, as the constant function. -/
private theorem zero_offsets : (![0, 0] : Fin 2 → Nat) = fun _ => 0 := funext fun a => by fin_cases a <;> rfl

/-- The level function of the arrays the region finds: entry (p, o) is the sum over the four children 4p + q of the
    network on the child's row. -/
private abbrev levelOut (c : Dev nD) : S131072x40.Idx → EReal :=
  fun i => level slope 131072 524288 (by norm_num) (cur2 (V c main_v4 : S131072x125.Idx → EReal))
    (cur2 (V c main_v5 : S524288x12.Idx → EReal)) (cur2 (V c main_v3 : S524288x40.Idx → EReal))
    (cur2 (V c main_arg2 : S177x125.Idx → EReal)) (row1 (V c main_v6 : S1x125.Idx → EReal))
    (cur2 (V c main_arg4 : S125x40.Idx → EReal)) (row1 (V c main_v7 : S1x40.Idx → EReal)) (i 0) (i 1)

/-! ## The index maps -/

/-- The windows' block indices, decided over the grid: the parents', the children's and the output's blocks move with
    the point along the rows, the weights and biases stay at block (0, 0). -/
private theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid has 256 points. -/
private theorem npoints : grid1.N = 256 := by decide

/-- So every point's number is below 256. -/
private theorem point_lt (t : Fin cfg1.N) : t.val < 256 := lt_of_lt_of_eq t.isLt npoints

/-! ## The input blocks at a point, as rows of the arrays -/

/-- Point `t`'s block of parents' messages is rows `512 t …` of the message array. -/
private theorem read_msg (c : Dev nD) (t : Fin cfg1.N) (p : Fin 512) (k : Fin 125) :
    (iblk1 (F := Ideal) V c 0 t : Vec Ideal S512x125 .f32) (ix2 p k)
      = (V c main_v4 : S131072x125.Idx → EReal) (ix2 ⟨512 * t.val + p.val, by have := point_lt t; have := p.isLt; omega⟩ k) := by
  show (V c main_v4 : S131072x125.Idx → EReal) (((cfg1.win 0).blk t).view.emb (ix2 p k)) = _
  refine congrArg (V c main_v4 : S131072x125.Idx → EReal) (funext fun a => Fin.ext ?_)
  obtain ⟨e0, e1, -⟩ := index_facts t
  match a with
  | ⟨0, _⟩ => show win1_0.index t (0 : Fin 2) * 512 + 1 * p.val = 512 * t.val + p.val; rw [e0]; omega
  | ⟨1, _⟩ => show win1_0.index t (1 : Fin 2) * 125 + 1 * k.val = k.val; rw [e1]; omega

/-- Point `t`'s block of children's bonds is rows `2048 t …` of the bond array. -/
private theorem read_bond (c : Dev nD) (t : Fin cfg1.N) (r : Fin 2048) (k : Fin 12) :
    (iblk1 (F := Ideal) V c 1 t : Vec Ideal S2048x12 .f32) (ix2 r k)
      = (V c main_v5 : S524288x12.Idx → EReal) (ix2 ⟨2048 * t.val + r.val, by have := point_lt t; have := r.isLt; omega⟩ k) := by
  show (V c main_v5 : S524288x12.Idx → EReal) (((cfg1.win 1).blk t).view.emb (ix2 r k)) = _
  refine congrArg (V c main_v5 : S524288x12.Idx → EReal) (funext fun a => Fin.ext ?_)
  obtain ⟨-, -, e0, e1, -⟩ := index_facts t
  match a with
  | ⟨0, _⟩ => show win1_1.index t (0 : Fin 2) * 2048 + 1 * r.val = 2048 * t.val + r.val; rw [e0]; omega
  | ⟨1, _⟩ => show win1_1.index t (1 : Fin 2) * 12 + 1 * k.val = k.val; rw [e1]; omega

/-- Point `t`'s block of children's outputs from the level below is rows `2048 t …` of that array. -/
private theorem read_prev (c : Dev nD) (t : Fin cfg1.N) (r : Fin 2048) (k : Fin 40) :
    (iblk1 (F := Ideal) V c 2 t : Vec Ideal S2048x40 .f32) (ix2 r k)
      = (V c main_v3 : S524288x40.Idx → EReal) (ix2 ⟨2048 * t.val + r.val, by have := point_lt t; have := r.isLt; omega⟩ k) := by
  show (V c main_v3 : S524288x40.Idx → EReal) (((cfg1.win 2).blk t).view.emb (ix2 r k)) = _
  refine congrArg (V c main_v3 : S524288x40.Idx → EReal) (funext fun a => Fin.ext ?_)
  obtain ⟨-, -, -, -, e0, e1, -⟩ := index_facts t
  match a with
  | ⟨0, _⟩ => show win1_2.index t (0 : Fin 2) * 2048 + 1 * r.val = 2048 * t.val + r.val; rw [e0]; omega
  | ⟨1, _⟩ => show win1_2.index t (1 : Fin 2) * 40 + 1 * k.val = k.val; rw [e1]; omega

/-- The first layer's weight is read whole at every point. -/
private theorem read_w1 (c : Dev nD) (t : Fin cfg1.N) : iblk1 (F := Ideal) V c 3 t = (V c main_arg2 : S177x125.Idx → EReal) := by
  funext y
  show (V c main_arg2 : S177x125.Idx → EReal) (((cfg1.win 3).blk t).view.emb y) = (V c main_arg2 : S177x125.Idx → EReal) y
  refine congrArg (V c main_arg2 : S177x125.Idx → EReal) (funext fun a => Fin.ext ?_)
  obtain ⟨-, -, -, -, -, -, e0, e1, -⟩ := index_facts t
  match a with
  | ⟨0, _⟩ => show win1_3.index t (0 : Fin 2) * 177 + 1 * (y 0).val = (y 0).val; rw [e0]; omega
  | ⟨1, _⟩ => show win1_3.index t (1 : Fin 2) * 125 + 1 * (y 1).val = (y 1).val; rw [e1]; omega

/-- So is the first layer's bias, -/
private theorem read_b1 (c : Dev nD) (t : Fin cfg1.N) : iblk1 (F := Ideal) V c 4 t = (V c main_v6 : S1x125.Idx → EReal) := by
  funext y
  show (V c main_v6 : S1x125.Idx → EReal) (((cfg1.win 4).blk t).view.emb y) = (V c main_v6 : S1x125.Idx → EReal) y
  refine congrArg (V c main_v6 : S1x125.Idx → EReal) (funext fun a => Fin.ext ?_)
  obtain ⟨-, -, -, -, -, -, -, -, e0, e1, -⟩ := index_facts t
  match a with
  | ⟨0, _⟩ => show win1_4.index t (0 : Fin 2) * 1 + 1 * (y 0).val = (y 0).val; rw [e0]; omega
  | ⟨1, _⟩ => show win1_4.index t (1 : Fin 2) * 125 + 1 * (y 1).val = (y 1).val; rw [e1]; omega

/-- the second layer's weight, -/
private theorem read_w2 (c : Dev nD) (t : Fin cfg1.N) : iblk1 (F := Ideal) V c 5 t = (V c main_arg4 : S125x40.Idx → EReal) := by
  funext y
  show (V c main_arg4 : S125x40.Idx → EReal) (((cfg1.win 5).blk t).view.emb y) = (V c main_arg4 : S125x40.Idx → EReal) y
  refine congrArg (V c main_arg4 : S125x40.Idx → EReal) (funext fun a => Fin.ext ?_)
  obtain ⟨-, -, -, -, -, -, -, -, -, -, e0, e1, -⟩ := index_facts t
  match a with
  | ⟨0, _⟩ => show win1_5.index t (0 : Fin 2) * 125 + 1 * (y 0).val = (y 0).val; rw [e0]; omega
  | ⟨1, _⟩ => show win1_5.index t (1 : Fin 2) * 40 + 1 * (y 1).val = (y 1).val; rw [e1]; omega

/-- and the second layer's bias. -/
private theorem read_b2 (c : Dev nD) (t : Fin cfg1.N) : iblk1 (F := Ideal) V c 6 t = (V c main_v7 : S1x40.Idx → EReal) := by
  funext y
  show (V c main_v7 : S1x40.Idx → EReal) (((cfg1.win 6).blk t).view.emb y) = (V c main_v7 : S1x40.Idx → EReal) y
  refine congrArg (V c main_v7 : S1x40.Idx → EReal) (funext fun a => Fin.ext ?_)
  obtain ⟨-, -, -, -, -, -, -, -, -, -, -, -, e0, e1, -⟩ := index_facts t
  match a with
  | ⟨0, _⟩ => show win1_6.index t (0 : Fin 2) * 1 + 1 * (y 0).val = (y 0).val; rw [e0]; omega
  | ⟨1, _⟩ => show win1_6.index t (1 : Fin 2) * 40 + 1 * (y 1).val = (y 1).val; rw [e1]; omega

/-! ## The body's three reads of the weight block -/

/-- Rows `0 … 124` of the weight (the parent's message meets them), through the rectangle the body loads them by. -/
private theorem ld_rows_msg (w1 : Vec Ideal S177x125 .f32) (k : Fin 125) (j : Fin 125) :
    (View.ld w1 r1_3 (ix2 k j) : EReal) = cur2 (w1 : S177x125.Idx → EReal) ⟨k.val, by have := k.isLt; omega⟩ j := by
  refine congrArg (w1 : S177x125.Idx → EReal) (funext fun a => Fin.ext ?_)
  match a with
  | ⟨0, _⟩ => show 0 + 1 * k.val = k.val; omega
  | ⟨1, _⟩ => show 0 + 1 * j.val = j.val; omega

/-- Rows `125 … 136` (the child's bond). -/
private theorem ld_rows_bond (w1 : Vec Ideal S177x125 .f32) (k : Fin 12) (j : Fin 125) :
    (View.ld w1 r1_4 (ix2 k j) : EReal) = cur2 (w1 : S177x125.Idx → EReal) ⟨125 + k.val, by have := k.isLt; omega⟩ j := by
  refine congrArg (w1 : S177x125.Idx → EReal) (funext fun a => Fin.ext ?_)
  match a with
  | ⟨0, _⟩ => show 125 + 1 * k.val = 125 + k.val; omega
  | ⟨1, _⟩ => show 0 + 1 * j.val = j.val; omega

/-- Rows `137 … 176` (the child's outputs from the level below). -/
private theorem ld_rows_prev (w1 : Vec Ideal S177x125 .f32) (k : Fin 40) (j : Fin 125) :
    (View.ld w1 r1_5 (ix2 k j) : EReal) = cur2 (w1 : S177x125.Idx → EReal) ⟨137 + k.val, by have := k.isLt; omega⟩ j := by
  refine congrArg (w1 : S177x125.Idx → EReal) (funext fun a => Fin.ext ?_)
  match a with
  | ⟨0, _⟩ => show 137 + 1 * k.val = 137 + k.val; omega
  | ⟨1, _⟩ => show 0 + 1 * j.val = j.val; omega

/-! ## One entry of the block a point stores -/

/-- The body's stored value at entry (p, o) of point `t`'s block, for blocks `x0`, `x1`, `x2` that are rows `512 t …` of
    the messages and rows `2048 t …` of the bonds and of the outputs from below: the level function at parent
    `512 t + p`, whose children `4 (512 t + p) + q` are rows `4 p + q` of the children's blocks. -/
private theorem entry (t : ℕ) (ht : t < 256)
    (a0 : S131072x125.Idx → EReal) (a1 : S524288x12.Idx → EReal) (a2 : S524288x40.Idx → EReal)
    (w1 : Vec Ideal S177x125 .f32) (b1 : Vec Ideal S1x125 .f32) (w2 : Vec Ideal S125x40 .f32) (b2 : Vec Ideal S1x40 .f32)
    (x0 : Vec Ideal S512x125 .f32) (x1 : Vec Ideal S2048x12 .f32) (x2 : Vec Ideal S2048x40 .f32)
    (h0 : ∀ (p : Fin 512) (k : Fin 125), (x0 (ix2 p k) : EReal) = a0 (ix2 ⟨512 * t + p.val, by have := p.isLt; omega⟩ k))
    (h1 : ∀ (r : Fin 2048) (k : Fin 12), (x1 (ix2 r k) : EReal) = a1 (ix2 ⟨2048 * t + r.val, by have := r.isLt; omega⟩ k))
    (h2 : ∀ (r : Fin 2048) (k : Fin 40), (x2 (ix2 r k) : EReal) = a2 (ix2 ⟨2048 * t + r.val, by have := r.isLt; omega⟩ k))
    (p : Fin 512) (o : Fin 40) :
    (k1_pay1 (F := Ideal) (k1_pay2 (F := Ideal) x0 x1 x2 (View.ld w1 r1_3) (View.ld w1 r1_4) (View.ld w1 r1_5) b1 w2) b2 (ix2 p o) : EReal)
      = level slope 131072 524288 (by norm_num) (cur2 a0) (cur2 a1) (cur2 a2) (cur2 (w1 : S177x125.Idx → EReal))
          (row1 (b1 : S1x125.Idx → EReal)) (cur2 (w2 : S125x40.Idx → EReal)) (row1 (b2 : S1x40.Idx → EReal))
          ⟨512 * t + p.val, by have := p.isLt; omega⟩ o := by
  refine (Pay.level_pay1 x0 x1 x2 (View.ld w1 r1_3) (View.ld w1 r1_4) (View.ld w1 r1_5) b1 w2 b2 p o).trans ?_
  unfold level net
  refine Finset.sum_congr rfl fun q _ => ?_
  refine congrArg (fun h => layer2 slope h (cur2 (w2 : S125x40.Idx → EReal)) (row1 (b2 : S1x40.Idx → EReal)) o) (funext fun j => ?_)
  rw [hid_levelIn]
  refine congrArg (lrelu slope) ?_
  refine congrArg₂ (· + ·) (congrArg₂ (· + ·) (congrArg₂ (· + ·) ?_ ?_) ?_) rfl
  · exact Finset.sum_congr rfl fun k _ => congrArg₂ (· * ·) (h0 p k) (ld_rows_msg w1 k j)
  · refine Finset.sum_congr rfl fun k _ => congrArg₂ (· * ·) ((h1 _ k).trans ?_) (ld_rows_bond w1 k j)
    refine congrArg (fun r => a1 (ix2 r k)) (Fin.ext ?_)
    show 2048 * t + (4 * p.val + q.val) = 4 * (512 * t + p.val) + q.val
    omega
  · refine Finset.sum_congr rfl fun k _ => congrArg₂ (· * ·) ((h2 _ k).trans ?_) (ld_rows_prev w1 k j)
    refine congrArg (fun r => a2 (ix2 r k)) (Fin.ext ?_)
    show 2048 * t + (4 * p.val + q.val) = 4 * (512 * t + p.val) + q.val
    omega

/-! ## What a point writes back -/

/-- What the body leaves in the output's buffer is its arithmetic on the whole input buffers, the weight read through its
    three row ranges. -/
private theorem body_eq (x0 : Vec Ideal S512x125 .f32) (x1 : Vec Ideal S2048x12 .f32) (x2 : Vec Ideal S2048x40 .f32)
    (x3 : Vec Ideal S177x125 .f32) (x4 : Vec Ideal S1x125 .f32) (x5 : Vec Ideal S125x40 .f32) (x6 : Vec Ideal S1x40 .f32) :
    out1_7 (F := Ideal) x0 x1 x2 x3 x4 x5 x6
      = k1_pay1 (F := Ideal) (k1_pay2 (F := Ideal) x0 x1 x2 (View.ld x3 r1_3) (View.ld x3 r1_4) (View.ld x3 r1_5) x4 x5) x6 := by
  unfold out1_7
  rw [View.canon_unit_zero zero_offsets]
  simp only [View.ld_unit_zero (S := S512x125) zero_offsets, View.ld_unit_zero (S := S2048x12) zero_offsets,
    View.ld_unit_zero (S := S2048x40) zero_offsets, View.ld_unit_zero (S := S1x125) zero_offsets,
    View.ld_unit_zero (S := S125x40) zero_offsets, View.ld_unit_zero (S := S1x40) zero_offsets]

/-- An entry of the block point `t` stores is the level function at that entry's place in the array. -/
private theorem block_entry (c : Dev nD) (t : Fin cfg1.N) (y : S512x40.Idx) :
    (k1_pay1 (F := Ideal) (k1_pay2 (F := Ideal) (iblk1 (F := Ideal) V c 0 t) (iblk1 (F := Ideal) V c 1 t) (iblk1 (F := Ideal) V c 2 t)
        (View.ld (V c main_arg2 : Vec Ideal S177x125 .f32) r1_3) (View.ld (V c main_arg2 : Vec Ideal S177x125 .f32) r1_4)
        (View.ld (V c main_arg2 : Vec Ideal S177x125 .f32) r1_5) (V c main_v6 : Vec Ideal S1x125 .f32)
        (V c main_arg4 : Vec Ideal S125x40 .f32)) (V c main_v7 : Vec Ideal S1x40 .f32) y : EReal)
      = levelOut V c (((cfg1.win 7).blk t).view.emb y) := by
  obtain ⟨p, o, rfl⟩ : ∃ (p : Fin 512) (o : Fin 40), y = ix2 p o := ⟨y 0, y 1, eq_ix2 y⟩
  refine (entry t.val (point_lt t) (V c main_v4) (V c main_v5) (V c main_v3) (V c main_arg2) (V c main_v6) (V c main_arg4)
    (V c main_v7) (iblk1 (F := Ideal) V c 0 t) (iblk1 (F := Ideal) V c 1 t) (iblk1 (F := Ideal) V c 2 t)
    (read_msg V c t) (read_bond V c t) (read_prev V c t) p o).trans ?_
  show levelOut V c (ix2 ⟨512 * t.val + p.val, by have := point_lt t; have := p.isLt; omega⟩ o) = _
  refine congrArg (levelOut V c) (funext fun a => Fin.ext ?_)
  obtain ⟨-, -, -, -, -, -, -, -, -, -, -, -, -, -, e0, e1⟩ := index_facts t
  match a with
  | ⟨0, _⟩ => show 512 * t.val + p.val = win1_7.index t (0 : Fin 2) * 512 + 1 * p.val; rw [e0]; omega
  | ⟨1, _⟩ => show o.val = win1_7.index t (1 : Fin 2) * 40 + 1 * o.val; rw [e1]; omega

/-- What point `t` writes back is block `t` of the level function of the arrays. -/
private theorem writes_block (c : Dev nD) (t : Fin cfg1.N) :
    (dat1 (F := Ideal) V c).flushed 7 t = ((cfg1.win 7).blk t).view.read (Elt Ideal) (levelOut V c) := by
  show (cfg1.win 7).cut (grid1.coords t) ((dat1 (F := Ideal) V c).after 7 t) = _
  rw [after1_7, body_eq, read_w1 V c t, read_b1 V c t, read_w2 V c t, read_b2 V c t]
  funext j
  exact block_entry V c t j

/-! ## The blocks tile the array -/

/-- Membership in point `t`'s block of the output, axis by axis: on each axis the coordinate lies in the range of
    `512` rows (`40` columns) that starts at the block index times that extent. -/
private theorem mem_block (t : Fin cfg1.N) (i : S131072x40.Idx) :
    i ∈ ((cfg1.win 7).blk t).view.set ↔ ∀ a : Fin 2, win1_7.index t a * S512x40.size a ≤ (i a).val ∧ (i a).val < win1_7.index t a * S512x40.size a + S512x40.size a := by
  show i ∈ ((View.whole main_v8).slice (win1_7.rect t)).set ↔ _
  rw [View.set_slice_whole, Rect.mem_set_unit]
  exact Iff.rfl

/-- Row `r` of the array is in the block of point `r / 512`, which writes its block back. -/
private theorem covered (i : S131072x40.Idx) :
    ∃ t : Fin cfg1.N, (cfg1.win 7).flush t = true ∧ i ∈ ((cfg1.win 7).blk t).view.set := by
  have hi0 : (i 0).val < 131072 := (i 0).isLt
  have hi1 : (i 1).val < 40 := (i 1).isLt
  obtain ⟨t, ht⟩ : ∃ t : Fin cfg1.N, t.val = (i 0).val / 512 :=
    ⟨⟨(i 0).val / 512, lt_of_lt_of_eq (by omega : (i 0).val / 512 < 256) npoints.symm⟩, rfl⟩
  refine ⟨t, flush1_7 t, ?_⟩
  rw [mem_block]
  obtain ⟨-, -, -, -, -, -, -, -, -, -, -, -, -, -, e0, e1⟩ := index_facts t
  intro a
  match a with
  | ⟨0, _⟩ => show win1_7.index t (0 : Fin 2) * 512 ≤ (i 0).val ∧ (i 0).val < win1_7.index t (0 : Fin 2) * 512 + 512; rw [e0]; omega
  | ⟨1, _⟩ => show win1_7.index t (1 : Fin 2) * 40 ≤ (i 1).val ∧ (i 1).val < win1_7.index t (1 : Fin 2) * 40 + 40; rw [e1]; omega

/-! ## The array after the region -/

/-- The output array after this region, whatever the contents `V` it is entered from. -/
theorem arr (c : Dev nD) :
    (dat1 (F := Ideal) V c).arrAt 7 cfg1.N
      = fun (i : S131072x40.Idx) => level slope 131072 524288 (by norm_num) (cur2 (V c main_v4 : S131072x125.Idx → EReal))
          (cur2 (V c main_v5 : S524288x12.Idx → EReal)) (cur2 (V c main_v3 : S524288x40.Idx → EReal))
          (cur2 (V c main_arg2 : S177x125.Idx → EReal)) (row1 (V c main_v6 : S1x125.Idx → EReal))
          (cur2 (V c main_arg4 : S125x40.Idx → EReal)) (row1 (V c main_v7 : S1x40.Idx → EReal)) (i 0) (i 1) :=
  (dat1 (F := Ideal) V c).arrAt_eq_of_cover 7 (levelOut V c) (fun t _ => writes_block V c t) covered

end Cert.KernelIdeal.Lvl1

end
-- ==== Proof.KGlue.lean ====
/-
  What each region finds when it is entered, read back through the host operations and the earlier regions to the launch
  memory: a region's message and bond operands are row ranges of the node and bond tables, its two bias operands the bias
  vectors laid as one row, its weight operands the weight matrices untouched, and (from region 1 on) its third operand the
  array the region before it left.
-/
import proofs.«105904_j53970559042267_1_alg».proof.Proof.Gen.KernelIdeal.Frame
import proofs.«105904_j53970559042267_1_alg».proof.Proof.Spec
import Idealize.ShloMosaic.Lib.Pipeline.Value
import Idealize.ShloMosaic.Lib.ValueLayout
import Idealize.ShloMosaic.Lib.StableHlo.Run

noncomputable section

namespace Cert.KernelIdeal.Glue

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-! ## Two readings at an index -/

/-- A table cut along its rows from `off` on, read entry by entry, is the table's rows `off, off + 1, …`. -/
private theorem slice_rows {N n b : ℕ} (off : ℕ) (h : off + n ≤ N) (X : (⟨2, ![N, b]⟩ : Shape).Idx → EReal)
    (hs : (⟨2, ![N, b]⟩ : Shape).Slices ![off, 0] ⟨2, ![n, b]⟩) :
    cur2 (extractStridedSlice ⟨2, ![n, b]⟩ ![off, 0] X hs) = rows off n h (cur2 X) := by
  funext r k
  show extractStridedSlice ⟨2, ![n, b]⟩ ![off, 0] X hs (ix2 r k) = _
  rw [slice2_axis0_eq]
  rfl

/-- A vector laid as a matrix of one row: the row is the vector. -/
private theorem one_row {a : ℕ} (x : (⟨1, ![a]⟩ : Shape).Idx → EReal)
    (h : (⟨1, ![a]⟩ : Shape).ShapeCasts ⟨2, ![1, a]⟩) : row1 (shapeCast ⟨2, ![1, a]⟩ x h) = cur1 x := by
  funext k
  show shapeCast ⟨2, ![1, a]⟩ x h (ix2 0 k) = _
  rw [shapeCast_a_1a_apply]

/-! ## The six arguments are never written

No host operation writes an argument, and a region either does not touch it (the two tables and the two bias vectors) or
reads it through an input window (the two weight matrices), which it hands back as entered. So at every boundary an
argument's buffer holds what the launch memory held. -/

/-- A stretch of host operations leaves alone a buffer none of them writes: each operation's written buffer is compared
    with the buffer in question. -/
macro "not_written" h:ident : tactic =>
  `(tactic| (refine StableHlo.after_of_forall_not_mem _ _ (List.forall_iff_forall_mem.mp ?_)
             simp only [$h:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ### The two tables and the two bias vectors, where the host stretches read them (at a region's exit) -/

private theorem W2_arg0 (c : Dev nD) : W2 (F := Ideal) m ρ c (Proc.devRef .tc main_arg0) = m ((c : Thread nD τ).loc main_arg0) :=
  (W2_of_ne m ρ c main_arg0 (by decide)).trans ((by not_written hostOps0 : W1 (F := Ideal) m ρ c (Proc.devRef .tc main_arg0) = W0 m ρ c (Proc.devRef .tc main_arg0)).trans rfl)
private theorem W4_arg0 (c : Dev nD) : W4 (F := Ideal) m ρ c (Proc.devRef .tc main_arg0) = m ((c : Thread nD τ).loc main_arg0) :=
  (W4_of_ne m ρ c main_arg0 (by decide)).trans ((by not_written hostOps1 : W3 (F := Ideal) m ρ c (Proc.devRef .tc main_arg0) = W2 m ρ c (Proc.devRef .tc main_arg0)).trans (W2_arg0 m ρ c))
private theorem W6_arg0 (c : Dev nD) : W6 (F := Ideal) m ρ c (Proc.devRef .tc main_arg0) = m ((c : Thread nD τ).loc main_arg0) :=
  (W6_of_ne m ρ c main_arg0 (by decide)).trans ((by not_written hostOps2 : W5 (F := Ideal) m ρ c (Proc.devRef .tc main_arg0) = W4 m ρ c (Proc.devRef .tc main_arg0)).trans (W4_arg0 m ρ c))
private theorem W8_arg0 (c : Dev nD) : W8 (F := Ideal) m ρ c (Proc.devRef .tc main_arg0) = m ((c : Thread nD τ).loc main_arg0) :=
  (W8_of_ne m ρ c main_arg0 (by decide)).trans ((by not_written hostOps3 : W7 (F := Ideal) m ρ c (Proc.devRef .tc main_arg0) = W6 m ρ c (Proc.devRef .tc main_arg0)).trans (W6_arg0 m ρ c))

private theorem W2_arg1 (c : Dev nD) : W2 (F := Ideal) m ρ c (Proc.devRef .tc main_arg1) = m ((c : Thread nD τ).loc main_arg1) :=
  (W2_of_ne m ρ c main_arg1 (by decide)).trans ((by not_written hostOps0 : W1 (F := Ideal) m ρ c (Proc.devRef .tc main_arg1) = W0 m ρ c (Proc.devRef .tc main_arg1)).trans rfl)
private theorem W4_arg1 (c : Dev nD) : W4 (F := Ideal) m ρ c (Proc.devRef .tc main_arg1) = m ((c : Thread nD τ).loc main_arg1) :=
  (W4_of_ne m ρ c main_arg1 (by decide)).trans ((by not_written hostOps1 : W3 (F := Ideal) m ρ c (Proc.devRef .tc main_arg1) = W2 m ρ c (Proc.devRef .tc main_arg1)).trans (W2_arg1 m ρ c))
private theorem W6_arg1 (c : Dev nD) : W6 (F := Ideal) m ρ c (Proc.devRef .tc main_arg1) = m ((c : Thread nD τ).loc main_arg1) :=
  (W6_of_ne m ρ c main_arg1 (by decide)).trans ((by not_written hostOps2 : W5 (F := Ideal) m ρ c (Proc.devRef .tc main_arg1) = W4 m ρ c (Proc.devRef .tc main_arg1)).trans (W4_arg1 m ρ c))
private theorem W8_arg1 (c : Dev nD) : W8 (F := Ideal) m ρ c (Proc.devRef .tc main_arg1) = m ((c : Thread nD τ).loc main_arg1) :=
  (W8_of_ne m ρ c main_arg1 (by decide)).trans ((by not_written hostOps3 : W7 (F := Ideal) m ρ c (Proc.devRef .tc main_arg1) = W6 m ρ c (Proc.devRef .tc main_arg1)).trans (W6_arg1 m ρ c))

private theorem W2_arg3 (c : Dev nD) : W2 (F := Ideal) m ρ c (Proc.devRef .tc main_arg3) = m ((c : Thread nD τ).loc main_arg3) :=
  (W2_of_ne m ρ c main_arg3 (by decide)).trans ((by not_written hostOps0 : W1 (F := Ideal) m ρ c (Proc.devRef .tc main_arg3) = W0 m ρ c (Proc.devRef .tc main_arg3)).trans rfl)
private theorem W4_arg3 (c : Dev nD) : W4 (F := Ideal) m ρ c (Proc.devRef .tc main_arg3) = m ((c : Thread nD τ).loc main_arg3) :=
  (W4_of_ne m ρ c main_arg3 (by decide)).trans ((by not_written hostOps1 : W3 (F := Ideal) m ρ c (Proc.devRef .tc main_arg3) = W2 m ρ c (Proc.devRef .tc main_arg3)).trans (W2_arg3 m ρ c))
private theorem W6_arg3 (c : Dev nD) : W6 (F := Ideal) m ρ c (Proc.devRef .tc main_arg3) = m ((c : Thread nD τ).loc main_arg3) :=
  (W6_of_ne m ρ c main_arg3 (by decide)).trans ((by not_written hostOps2 : W5 (F := Ideal) m ρ c (Proc.devRef .tc main_arg3) = W4 m ρ c (Proc.devRef .tc main_arg3)).trans (W4_arg3 m ρ c))
private theorem W8_arg3 (c : Dev nD) : W8 (F := Ideal) m ρ c (Proc.devRef .tc main_arg3) = m ((c : Thread nD τ).loc main_arg3) :=
  (W8_of_ne m ρ c main_arg3 (by decide)).trans ((by not_written hostOps3 : W7 (F := Ideal) m ρ c (Proc.devRef .tc main_arg3) = W6 m ρ c (Proc.devRef .tc main_arg3)).trans (W6_arg3 m ρ c))

private theorem W2_arg5 (c : Dev nD) : W2 (F := Ideal) m ρ c (Proc.devRef .tc main_arg5) = m ((c : Thread nD τ).loc main_arg5) :=
  (W2_of_ne m ρ c main_arg5 (by decide)).trans ((by not_written hostOps0 : W1 (F := Ideal) m ρ c (Proc.devRef .tc main_arg5) = W0 m ρ c (Proc.devRef .tc main_arg5)).trans rfl)
private theorem W4_arg5 (c : Dev nD) : W4 (F := Ideal) m ρ c (Proc.devRef .tc main_arg5) = m ((c : Thread nD τ).loc main_arg5) :=
  (W4_of_ne m ρ c main_arg5 (by decide)).trans ((by not_written hostOps1 : W3 (F := Ideal) m ρ c (Proc.devRef .tc main_arg5) = W2 m ρ c (Proc.devRef .tc main_arg5)).trans (W2_arg5 m ρ c))
private theorem W6_arg5 (c : Dev nD) : W6 (F := Ideal) m ρ c (Proc.devRef .tc main_arg5) = m ((c : Thread nD τ).loc main_arg5) :=
  (W6_of_ne m ρ c main_arg5 (by decide)).trans ((by not_written hostOps2 : W5 (F := Ideal) m ρ c (Proc.devRef .tc main_arg5) = W4 m ρ c (Proc.devRef .tc main_arg5)).trans (W4_arg5 m ρ c))
private theorem W8_arg5 (c : Dev nD) : W8 (F := Ideal) m ρ c (Proc.devRef .tc main_arg5) = m ((c : Thread nD τ).loc main_arg5) :=
  (W8_of_ne m ρ c main_arg5 (by decide)).trans ((by not_written hostOps3 : W7 (F := Ideal) m ρ c (Proc.devRef .tc main_arg5) = W6 m ρ c (Proc.devRef .tc main_arg5)).trans (W6_arg5 m ρ c))

/-! ### The two weight matrices, where the regions read them (at a region's entry)

A region reads a weight matrix through an input window: at its exit the window's array is the array as entered. -/

private theorem W1_arg2 (c : Dev nD) : W1 (F := Ideal) m ρ c (Proc.devRef .tc main_arg2) = m ((c : Thread nD τ).loc main_arg2) :=
  (by not_written hostOps0 : W1 (F := Ideal) m ρ c (Proc.devRef .tc main_arg2) = W0 m ρ c (Proc.devRef .tc main_arg2)).trans rfl
private theorem W3_arg2 (c : Dev nD) : W3 (F := Ideal) m ρ c (Proc.devRef .tc main_arg2) = m ((c : Thread nD τ).loc main_arg2) :=
  (by not_written hostOps1 : W3 (F := Ideal) m ρ c (Proc.devRef .tc main_arg2) = W2 m ρ c (Proc.devRef .tc main_arg2)).trans
    (((W2_arr m ρ c 1).trans (((dat0 (V1 m ρ) c).arrAt_in 1 rfl _).trans (A_eq0 (V1 m ρ) c 1))).trans (W1_arg2 m ρ c))
private theorem W5_arg2 (c : Dev nD) : W5 (F := Ideal) m ρ c (Proc.devRef .tc main_arg2) = m ((c : Thread nD τ).loc main_arg2) :=
  (by not_written hostOps2 : W5 (F := Ideal) m ρ c (Proc.devRef .tc main_arg2) = W4 m ρ c (Proc.devRef .tc main_arg2)).trans
    (((W4_arr m ρ c 3).trans (((dat1 (V3 m ρ) c).arrAt_in 3 rfl _).trans (A_eq1 (V3 m ρ) c 3))).trans (W3_arg2 m ρ c))
private theorem W7_arg2 (c : Dev nD) : W7 (F := Ideal) m ρ c (Proc.devRef .tc main_arg2) = m ((c : Thread nD τ).loc main_arg2) :=
  (by not_written hostOps3 : W7 (F := Ideal) m ρ c (Proc.devRef .tc main_arg2) = W6 m ρ c (Proc.devRef .tc main_arg2)).trans
    (((W6_arr m ρ c 3).trans (((dat2 (V5 m ρ) c).arrAt_in 3 rfl _).trans (A_eq2 (V5 m ρ) c 3))).trans (W5_arg2 m ρ c))
private theorem W9_arg2 (c : Dev nD) : W9 (F := Ideal) m ρ c (Proc.devRef .tc main_arg2) = m ((c : Thread nD τ).loc main_arg2) :=
  (by not_written hostOps4 : W9 (F := Ideal) m ρ c (Proc.devRef .tc main_arg2) = W8 m ρ c (Proc.devRef .tc main_arg2)).trans
    (((W8_arr m ρ c 3).trans (((dat3 (V7 m ρ) c).arrAt_in 3 rfl _).trans (A_eq3 (V7 m ρ) c 3))).trans (W7_arg2 m ρ c))

private theorem W1_arg4 (c : Dev nD) : W1 (F := Ideal) m ρ c (Proc.devRef .tc main_arg4) = m ((c : Thread nD τ).loc main_arg4) :=
  (by not_written hostOps0 : W1 (F := Ideal) m ρ c (Proc.devRef .tc main_arg4) = W0 m ρ c (Proc.devRef .tc main_arg4)).trans rfl
private theorem W3_arg4 (c : Dev nD) : W3 (F := Ideal) m ρ c (Proc.devRef .tc main_arg4) = m ((c : Thread nD τ).loc main_arg4) :=
  (by not_written hostOps1 : W3 (F := Ideal) m ρ c (Proc.devRef .tc main_arg4) = W2 m ρ c (Proc.devRef .tc main_arg4)).trans
    (((W2_arr m ρ c 3).trans (((dat0 (V1 m ρ) c).arrAt_in 3 rfl _).trans (A_eq0 (V1 m ρ) c 3))).trans (W1_arg4 m ρ c))
private theorem W5_arg4 (c : Dev nD) : W5 (F := Ideal) m ρ c (Proc.devRef .tc main_arg4) = m ((c : Thread nD τ).loc main_arg4) :=
  (by not_written hostOps2 : W5 (F := Ideal) m ρ c (Proc.devRef .tc main_arg4) = W4 m ρ c (Proc.devRef .tc main_arg4)).trans
    (((W4_arr m ρ c 5).trans (((dat1 (V3 m ρ) c).arrAt_in 5 rfl _).trans (A_eq1 (V3 m ρ) c 5))).trans (W3_arg4 m ρ c))
private theorem W7_arg4 (c : Dev nD) : W7 (F := Ideal) m ρ c (Proc.devRef .tc main_arg4) = m ((c : Thread nD τ).loc main_arg4) :=
  (by not_written hostOps3 : W7 (F := Ideal) m ρ c (Proc.devRef .tc main_arg4) = W6 m ρ c (Proc.devRef .tc main_arg4)).trans
    (((W6_arr m ρ c 5).trans (((dat2 (V5 m ρ) c).arrAt_in 5 rfl _).trans (A_eq2 (V5 m ρ) c 5))).trans (W5_arg4 m ρ c))
private theorem W9_arg4 (c : Dev nD) : W9 (F := Ideal) m ρ c (Proc.devRef .tc main_arg4) = m ((c : Thread nD τ).loc main_arg4) :=
  (by not_written hostOps4 : W9 (F := Ideal) m ρ c (Proc.devRef .tc main_arg4) = W8 m ρ c (Proc.devRef .tc main_arg4)).trans
    (((W8_arr m ρ c 5).trans (((dat3 (V7 m ρ) c).arrAt_in 5 rfl _).trans (A_eq3 (V7 m ρ) c 5))).trans (W7_arg4 m ρ c))

/-! ## Region 0 (entered from `V1`)

The one host stretch before it cuts the leaves' rows out of the node table and lays the two bias vectors as rows. -/
theorem e0_x (c : Dev nD) : cur2 (V1 (F := Ideal) m ρ c main_v0 : S524288x125.Idx → EReal) = rows 174080 524288 (by norm_num) (cur2 (m ((c : Thread nD τ).loc main_arg0) : S698368x125.Idx → EReal)) := by
  have e : (V1 (F := Ideal) m ρ c main_v0 : S524288x125.Idx → EReal)
      = extractStridedSlice S524288x125 ![174080, 0] (m ((c : Thread nD τ).loc main_arg0) : S698368x125.Idx → EReal) slices_S698368x125_S524288x125_174080_0 := by
    show StableHlo.after hostOps0 (W0 m ρ c) (Proc.devRef .tc main_v0) = _
    after_results
  rw [e]
  exact slice_rows _ _ _ _
theorem e0_W1 (c : Dev nD) : (V1 (F := Ideal) m ρ c main_arg2 : S177x125.Idx → EReal) = (m ((c : Thread nD τ).loc main_arg2) : S177x125.Idx → EReal) :=
  W1_arg2 m ρ c
theorem e0_b1 (c : Dev nD) : row1 (V1 (F := Ideal) m ρ c main_v1 : S1x125.Idx → EReal) = cur1 (m ((c : Thread nD τ).loc main_arg3) : S125.Idx → EReal) := by
  have e : (V1 (F := Ideal) m ρ c main_v1 : S1x125.Idx → EReal)
      = shapeCast S1x125 (m ((c : Thread nD τ).loc main_arg3) : S125.Idx → EReal) shapeCasts_S125_S1x125 := by
    show StableHlo.after hostOps0 (W0 m ρ c) (Proc.devRef .tc main_v1) = _
    after_results
    rfl
  rw [e]
  exact one_row _ _
theorem e0_W2 (c : Dev nD) : (V1 (F := Ideal) m ρ c main_arg4 : S125x40.Idx → EReal) = (m ((c : Thread nD τ).loc main_arg4) : S125x40.Idx → EReal) :=
  W1_arg4 m ρ c
theorem e0_b2 (c : Dev nD) : row1 (V1 (F := Ideal) m ρ c main_v2 : S1x40.Idx → EReal) = cur1 (m ((c : Thread nD τ).loc main_arg5) : S40.Idx → EReal) := by
  have e : (V1 (F := Ideal) m ρ c main_v2 : S1x40.Idx → EReal)
      = shapeCast S1x40 (m ((c : Thread nD τ).loc main_arg5) : S40.Idx → EReal) shapeCasts_S40_S1x40 := by
    show StableHlo.after hostOps0 (W0 m ρ c) (Proc.devRef .tc main_v2) = _
    after_results
    rfl
  rw [e]
  exact one_row _ _

/-! ## Region 1 (entered from `V3`)

From here on the host stretch before a region cuts the level's rows out of the node table and its children's rows out of
the bond table, lays the two bias vectors as rows, and leaves alone the array the region before it wrote. -/
theorem e1_msg (c : Dev nD) : cur2 (V3 (F := Ideal) m ρ c main_v4 : S131072x125.Idx → EReal) = rows 43008 131072 (by norm_num) (cur2 (m ((c : Thread nD τ).loc main_arg0) : S698368x125.Idx → EReal)) := by
  have e : (V3 (F := Ideal) m ρ c main_v4 : S131072x125.Idx → EReal)
      = extractStridedSlice S131072x125 ![43008, 0] (m ((c : Thread nD τ).loc main_arg0) : S698368x125.Idx → EReal) slices_S698368x125_S131072x125_43008_0 := by
    show StableHlo.after hostOps1 (W2 m ρ c) (Proc.devRef .tc main_v4) = _
    after_results
    rw [W2_arg0]
  rw [e]
  exact slice_rows _ _ _ _
theorem e1_bond (c : Dev nD) : cur2 (V3 (F := Ideal) m ρ c main_v5 : S524288x12.Idx → EReal) = rows 172032 524288 (by norm_num) (cur2 (m ((c : Thread nD τ).loc main_arg1) : S696320x12.Idx → EReal)) := by
  have e : (V3 (F := Ideal) m ρ c main_v5 : S524288x12.Idx → EReal)
      = extractStridedSlice S524288x12 ![172032, 0] (m ((c : Thread nD τ).loc main_arg1) : S696320x12.Idx → EReal) slices_S696320x12_S524288x12_172032_0 := by
    show StableHlo.after hostOps1 (W2 m ρ c) (Proc.devRef .tc main_v5) = _
    after_results
    rw [W2_arg1]
  rw [e]
  exact slice_rows _ _ _ _
theorem e1_prev (c : Dev nD) : (V3 (F := Ideal) m ρ c main_v3 : S524288x40.Idx → EReal) = ((dat0 (F := Ideal) (V1 m ρ) c).arrAt 5 cfg0.N : S524288x40.Idx → EReal) :=
  (by not_written hostOps1 : W3 (F := Ideal) m ρ c (Proc.devRef .tc main_v3) = W2 m ρ c (Proc.devRef .tc main_v3)).trans (W2_arr m ρ c 5)
theorem e1_W1 (c : Dev nD) : (V3 (F := Ideal) m ρ c main_arg2 : S177x125.Idx → EReal) = (m ((c : Thread nD τ).loc main_arg2) : S177x125.Idx → EReal) :=
  W3_arg2 m ρ c
theorem e1_b1 (c : Dev nD) : row1 (V3 (F := Ideal) m ρ c main_v6 : S1x125.Idx → EReal) = cur1 (m ((c : Thread nD τ).loc main_arg3) : S125.Idx → EReal) := by
  have e : (V3 (F := Ideal) m ρ c main_v6 : S1x125.Idx → EReal)
      = shapeCast S1x125 (m ((c : Thread nD τ).loc main_arg3) : S125.Idx → EReal) shapeCasts_S125_S1x125 := by
    show StableHlo.after hostOps1 (W2 m ρ c) (Proc.devRef .tc main_v6) = _
    after_results
    rw [W2_arg3]
    rfl
  rw [e]
  exact one_row _ _
theorem e1_W2 (c : Dev nD) : (V3 (F := Ideal) m ρ c main_arg4 : S125x40.Idx → EReal) = (m ((c : Thread nD τ).loc main_arg4) : S125x40.Idx → EReal) :=
  W3_arg4 m ρ c
theorem e1_b2 (c : Dev nD) : row1 (V3 (F := Ideal) m ρ c main_v7 : S1x40.Idx → EReal) = cur1 (m ((c : Thread nD τ).loc main_arg5) : S40.Idx → EReal) := by
  have e : (V3 (F := Ideal) m ρ c main_v7 : S1x40.Idx → EReal)
      = shapeCast S1x40 (m ((c : Thread nD τ).loc main_arg5) : S40.Idx → EReal) shapeCasts_S40_S1x40 := by
    show StableHlo.after hostOps1 (W2 m ρ c) (Proc.devRef .tc main_v7) = _
    after_results
    rw [W2_arg5]
    rfl
  rw [e]
  exact one_row _ _

/-! ## Region 2 (entered from `V5`) -/
theorem e2_msg (c : Dev nD) : cur2 (V5 (F := Ideal) m ρ c main_v9 : S32768x125.Idx → EReal) = rows 10240 32768 (by norm_num) (cur2 (m ((c : Thread nD τ).loc main_arg0) : S698368x125.Idx → EReal)) := by
  have e : (V5 (F := Ideal) m ρ c main_v9 : S32768x125.Idx → EReal)
      = extractStridedSlice S32768x125 ![10240, 0] (m ((c : Thread nD τ).loc main_arg0) : S698368x125.Idx → EReal) slices_S698368x125_S32768x125_10240_0 := by
    show StableHlo.after hostOps2 (W4 m ρ c) (Proc.devRef .tc main_v9) = _
    after_results
    rw [W4_arg0]
  rw [e]
  exact slice_rows _ _ _ _
theorem e2_bond (c : Dev nD) : cur2 (V5 (F := Ideal) m ρ c main_v10 : S131072x12.Idx → EReal) = rows 40960 131072 (by norm_num) (cur2 (m ((c : Thread nD τ).loc main_arg1) : S696320x12.Idx → EReal)) := by
  have e : (V5 (F := Ideal) m ρ c main_v10 : S131072x12.Idx → EReal)
      = extractStridedSlice S131072x12 ![40960, 0] (m ((c : Thread nD τ).loc main_arg1) : S696320x12.Idx → EReal) slices_S696320x12_S131072x12_40960_0 := by
    show StableHlo.after hostOps2 (W4 m ρ c) (Proc.devRef .tc main_v10) = _
    after_results
    rw [W4_arg1]
  rw [e]
  exact slice_rows _ _ _ _
theorem e2_prev (c : Dev nD) : (V5 (F := Ideal) m ρ c main_v8 : S131072x40.Idx → EReal) = ((dat1 (F := Ideal) (V3 m ρ) c).arrAt 7 cfg1.N : S131072x40.Idx → EReal) :=
  (by not_written hostOps2 : W5 (F := Ideal) m ρ c (Proc.devRef .tc main_v8) = W4 m ρ c (Proc.devRef .tc main_v8)).trans (W4_arr m ρ c 7)
theorem e2_W1 (c : Dev nD) : (V5 (F := Ideal) m ρ c main_arg2 : S177x125.Idx → EReal) = (m ((c : Thread nD τ).loc main_arg2) : S177x125.Idx → EReal) :=
  W5_arg2 m ρ c
theorem e2_b1 (c : Dev nD) : row1 (V5 (F := Ideal) m ρ c main_v11 : S1x125.Idx → EReal) = cur1 (m ((c : Thread nD τ).loc main_arg3) : S125.Idx → EReal) := by
  have e : (V5 (F := Ideal) m ρ c main_v11 : S1x125.Idx → EReal)
      = shapeCast S1x125 (m ((c : Thread nD τ).loc main_arg3) : S125.Idx → EReal) shapeCasts_S125_S1x125 := by
    show StableHlo.after hostOps2 (W4 m ρ c) (Proc.devRef .tc main_v11) = _
    after_results
    rw [W4_arg3]
    rfl
  rw [e]
  exact one_row _ _
theorem e2_W2 (c : Dev nD) : (V5 (F := Ideal) m ρ c main_arg4 : S125x40.Idx → EReal) = (m ((c : Thread nD τ).loc main_arg4) : S125x40.Idx → EReal) :=
  W5_arg4 m ρ c
theorem e2_b2 (c : Dev nD) : row1 (V5 (F := Ideal) m ρ c main_v12 : S1x40.Idx → EReal) = cur1 (m ((c : Thread nD τ).loc main_arg5) : S40.Idx → EReal) := by
  have e : (V5 (F := Ideal) m ρ c main_v12 : S1x40.Idx → EReal)
      = shapeCast S1x40 (m ((c : Thread nD τ).loc main_arg5) : S40.Idx → EReal) shapeCasts_S40_S1x40 := by
    show StableHlo.after hostOps2 (W4 m ρ c) (Proc.devRef .tc main_v12) = _
    after_results
    rw [W4_arg5]
    rfl
  rw [e]
  exact one_row _ _

/-! ## Region 3 (entered from `V7`) -/
theorem e3_msg (c : Dev nD) : cur2 (V7 (F := Ideal) m ρ c main_v14 : S8192x125.Idx → EReal) = rows 2048 8192 (by norm_num) (cur2 (m ((c : Thread nD τ).loc main_arg0) : S698368x125.Idx → EReal)) := by
  have e : (V7 (F := Ideal) m ρ c main_v14 : S8192x125.Idx → EReal)
      = extractStridedSlice S8192x125 ![2048, 0] (m ((c : Thread nD τ).loc main_arg0) : S698368x125.Idx → EReal) slices_S698368x125_S8192x125_2048_0 := by
    show StableHlo.after hostOps3 (W6 m ρ c) (Proc.devRef .tc main_v14) = _
    after_results
    rw [W6_arg0]
  rw [e]
  exact slice_rows _ _ _ _
theorem e3_bond (c : Dev nD) : cur2 (V7 (F := Ideal) m ρ c main_v15 : S32768x12.Idx → EReal) = rows 8192 32768 (by norm_num) (cur2 (m ((c : Thread nD τ).loc main_arg1) : S696320x12.Idx → EReal)) := by
  have e : (V7 (F := Ideal) m ρ c main_v15 : S32768x12.Idx → EReal)
      = extractStridedSlice S32768x12 ![8192, 0] (m ((c : Thread nD τ).loc main_arg1) : S696320x12.Idx → EReal) slices_S696320x12_S32768x12_8192_0 := by
    show StableHlo.after hostOps3 (W6 m ρ c) (Proc.devRef .tc main_v15) = _
    after_results
    rw [W6_arg1]
  rw [e]
  exact slice_rows _ _ _ _
theorem e3_prev (c : Dev nD) : (V7 (F := Ideal) m ρ c main_v13 : S32768x40.Idx → EReal) = ((dat2 (F := Ideal) (V5 m ρ) c).arrAt 7 cfg2.N : S32768x40.Idx → EReal) :=
  (by not_written hostOps3 : W7 (F := Ideal) m ρ c (Proc.devRef .tc main_v13) = W6 m ρ c (Proc.devRef .tc main_v13)).trans (W6_arr m ρ c 7)
theorem e3_W1 (c : Dev nD) : (V7 (F := Ideal) m ρ c main_arg2 : S177x125.Idx → EReal) = (m ((c : Thread nD τ).loc main_arg2) : S177x125.Idx → EReal) :=
  W7_arg2 m ρ c
theorem e3_b1 (c : Dev nD) : row1 (V7 (F := Ideal) m ρ c main_v16 : S1x125.Idx → EReal) = cur1 (m ((c : Thread nD τ).loc main_arg3) : S125.Idx → EReal) := by
  have e : (V7 (F := Ideal) m ρ c main_v16 : S1x125.Idx → EReal)
      = shapeCast S1x125 (m ((c : Thread nD τ).loc main_arg3) : S125.Idx → EReal) shapeCasts_S125_S1x125 := by
    show StableHlo.after hostOps3 (W6 m ρ c) (Proc.devRef .tc main_v16) = _
    after_results
    rw [W6_arg3]
    rfl
  rw [e]
  exact one_row _ _
theorem e3_W2 (c : Dev nD) : (V7 (F := Ideal) m ρ c main_arg4 : S125x40.Idx → EReal) = (m ((c : Thread nD τ).loc main_arg4) : S125x40.Idx → EReal) :=
  W7_arg4 m ρ c
theorem e3_b2 (c : Dev nD) : row1 (V7 (F := Ideal) m ρ c main_v17 : S1x40.Idx → EReal) = cur1 (m ((c : Thread nD τ).loc main_arg5) : S40.Idx → EReal) := by
  have e : (V7 (F := Ideal) m ρ c main_v17 : S1x40.Idx → EReal)
      = shapeCast S1x40 (m ((c : Thread nD τ).loc main_arg5) : S40.Idx → EReal) shapeCasts_S40_S1x40 := by
    show StableHlo.after hostOps3 (W6 m ρ c) (Proc.devRef .tc main_v17) = _
    after_results
    rw [W6_arg5]
    rfl
  rw [e]
  exact one_row _ _

/-! ## Region 4 (entered from `V9`) -/
theorem e4_msg (c : Dev nD) : cur2 (V9 (F := Ideal) m ρ c main_v19 : S2048x125.Idx → EReal) = rows 0 2048 (by norm_num) (cur2 (m ((c : Thread nD τ).loc main_arg0) : S698368x125.Idx → EReal)) := by
  have e : (V9 (F := Ideal) m ρ c main_v19 : S2048x125.Idx → EReal)
      = extractStridedSlice S2048x125 ![0, 0] (m ((c : Thread nD τ).loc main_arg0) : S698368x125.Idx → EReal) slices_S698368x125_S2048x125_0_0 := by
    show StableHlo.after hostOps4 (W8 m ρ c) (Proc.devRef .tc main_v19) = _
    after_results
    rw [W8_arg0]
  rw [e]
  exact slice_rows _ _ _ _
theorem e4_bond (c : Dev nD) : cur2 (V9 (F := Ideal) m ρ c main_v20 : S8192x12.Idx → EReal) = rows 0 8192 (by norm_num) (cur2 (m ((c : Thread nD τ).loc main_arg1) : S696320x12.Idx → EReal)) := by
  have e : (V9 (F := Ideal) m ρ c main_v20 : S8192x12.Idx → EReal)
      = extractStridedSlice S8192x12 ![0, 0] (m ((c : Thread nD τ).loc main_arg1) : S696320x12.Idx → EReal) slices_S696320x12_S8192x12_0_0 := by
    show StableHlo.after hostOps4 (W8 m ρ c) (Proc.devRef .tc main_v20) = _
    after_results
    rw [W8_arg1]
  rw [e]
  exact slice_rows _ _ _ _
theorem e4_prev (c : Dev nD) : (V9 (F := Ideal) m ρ c main_v18 : S8192x40.Idx → EReal) = ((dat3 (F := Ideal) (V7 m ρ) c).arrAt 7 cfg3.N : S8192x40.Idx → EReal) :=
  (by not_written hostOps4 : W9 (F := Ideal) m ρ c (Proc.devRef .tc main_v18) = W8 m ρ c (Proc.devRef .tc main_v18)).trans (W8_arr m ρ c 7)
theorem e4_W1 (c : Dev nD) : (V9 (F := Ideal) m ρ c main_arg2 : S177x125.Idx → EReal) = (m ((c : Thread nD τ).loc main_arg2) : S177x125.Idx → EReal) :=
  W9_arg2 m ρ c
theorem e4_b1 (c : Dev nD) : row1 (V9 (F := Ideal) m ρ c main_v21 : S1x125.Idx → EReal) = cur1 (m ((c : Thread nD τ).loc main_arg3) : S125.Idx → EReal) := by
  have e : (V9 (F := Ideal) m ρ c main_v21 : S1x125.Idx → EReal)
      = shapeCast S1x125 (m ((c : Thread nD τ).loc main_arg3) : S125.Idx → EReal) shapeCasts_S125_S1x125 := by
    show StableHlo.after hostOps4 (W8 m ρ c) (Proc.devRef .tc main_v21) = _
    after_results
    rw [W8_arg3]
    rfl
  rw [e]
  exact one_row _ _
theorem e4_W2 (c : Dev nD) : (V9 (F := Ideal) m ρ c main_arg4 : S125x40.Idx → EReal) = (m ((c : Thread nD τ).loc main_arg4) : S125x40.Idx → EReal) :=
  W9_arg4 m ρ c
theorem e4_b2 (c : Dev nD) : row1 (V9 (F := Ideal) m ρ c main_v22 : S1x40.Idx → EReal) = cur1 (m ((c : Thread nD τ).loc main_arg5) : S40.Idx → EReal) := by
  have e : (V9 (F := Ideal) m ρ c main_v22 : S1x40.Idx → EReal)
      = shapeCast S1x40 (m ((c : Thread nD τ).loc main_arg5) : S40.Idx → EReal) shapeCasts_S40_S1x40 := by
    show StableHlo.after hostOps4 (W8 m ρ c) (Proc.devRef .tc main_v22) = _
    after_results
    rw [W8_arg5]
    rfl
  rw [e]
  exact one_row _ _

end Cert.KernelIdeal.Glue

end
-- ==== Proof.KVal.lean ====
/-
  The kernel program's result array after the run, as the specification's roots' outputs of the launch memory's six
  arguments: the last boundary's contents at the result is what region 4 leaves; each region's output is the
  specification's level of what the region finds; and what it finds is row ranges of the arguments and the output of the
  region before.
-/
import proofs.«105904_j53970559042267_1_alg».proof.Proof.Gen.KernelIdeal.Frame
import proofs.«105904_j53970559042267_1_alg».proof.Proof.Spec
import proofs.«105904_j53970559042267_1_alg».proof.Proof.KLeaf
import proofs.«105904_j53970559042267_1_alg».proof.Proof.KLvl1
import proofs.«105904_j53970559042267_1_alg».proof.Proof.KLvl2
import proofs.«105904_j53970559042267_1_alg».proof.Proof.KLvl3
import proofs.«105904_j53970559042267_1_alg».proof.Proof.KLvl4
import proofs.«105904_j53970559042267_1_alg».proof.Proof.KGlue

noncomputable section

namespace Cert.KernelIdeal.Val

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- The result array at the last boundary is the roots' outputs. -/
theorem result (c : Dev nD) :
    (W10 (F := Ideal) m ρ c (Proc.devRef .tc main_v23) : S2048x40.Idx → EReal)
      = fun (i : S2048x40.Idx) => out0 slope (cur2 (m ((c : Thread nD τ).loc main_arg0) : S698368x125.Idx → EReal)) (cur2 (m ((c : Thread nD τ).loc main_arg1) : S696320x12.Idx → EReal)) (cur2 (m ((c : Thread nD τ).loc main_arg2) : S177x125.Idx → EReal)) (cur1 (m ((c : Thread nD τ).loc main_arg3) : S125.Idx → EReal)) (cur2 (m ((c : Thread nD τ).loc main_arg4) : S125x40.Idx → EReal)) (cur1 (m ((c : Thread nD τ).loc main_arg5) : S40.Idx → EReal)) (i 0) (i 1) := by
  refine (W10_arr (F := Ideal) m ρ c 7).trans ?_
  rw [Lvl4.arr (V9 (F := Ideal) m ρ) c]
  rw [Glue.e4_msg, Glue.e4_bond, Glue.e4_prev, Glue.e4_W1, Glue.e4_b1, Glue.e4_W2, Glue.e4_b2]
  rw [Lvl3.arr (V7 (F := Ideal) m ρ) c]
  rw [Glue.e3_msg, Glue.e3_bond, Glue.e3_prev, Glue.e3_W1, Glue.e3_b1, Glue.e3_W2, Glue.e3_b2]
  rw [Lvl2.arr (V5 (F := Ideal) m ρ) c]
  rw [Glue.e2_msg, Glue.e2_bond, Glue.e2_prev, Glue.e2_W1, Glue.e2_b1, Glue.e2_W2, Glue.e2_b2]
  rw [Lvl1.arr (V3 (F := Ideal) m ρ) c]
  rw [Glue.e1_msg, Glue.e1_bond, Glue.e1_prev, Glue.e1_W1, Glue.e1_b1, Glue.e1_W2, Glue.e1_b2]
  rw [Leaf.arr (V1 (F := Ideal) m ρ) c]
  rw [Glue.e0_x, Glue.e0_W1, Glue.e0_b1, Glue.e0_W2, Glue.e0_b2]
  rfl

end Cert.KernelIdeal.Val

end
-- ==== Proof.RRun.lean ====
/-
  The reference program's run: its @main is the straight line of its operations (each outlined function written out at
  its call), so every weakly fair execution terminates with every buffer at the operations' fold over the launch contents.
-/
import proofs.«105904_j53970559042267_1_alg».proof.Proof.ROps
import Idealize.ShloMosaic.Lib.StableHlo.Run

noncomputable section

namespace Cert.ReferenceIdeal.RefRun

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

-- 156 steps re-associated: the rewriting under the chain recurses once per step, past the default depth
set_option maxRecDepth 4096 in
/-- @main is that straight line. Its two windows run one after the other; each of the ten rectifier calls is its callee's
    six steps followed by the select of the function it calls in turn, over the call's own buffers; and the five levels'
    lists appended are one list. With every definition opened at its call and sequencing re-associated
    (`(p >>= q) >>= r = p >>= fun x => q x >>= r`, `pure a >>= q = q a`) both sides are the same chain of 156 steps
    ended by the return. -/
theorem main_eq (c : Dev nD) : main (F := F) c = seq (ops (F := F)) := by
  simp only [main, main_part0, main_part1, fn_leaky_relu.body, fn_leaky_relu_0.body, fn_leaky_relu_2.body, fn_leaky_relu_4.body, fn_leaky_relu_6.body, fn_leaky_relu_8.body, fn_leaky_relu_10.body, fn_leaky_relu_12.body, fn_where.body, fn_where_1.body, fn_where_3.body, fn_where_5.body, fn_where_7.body, fn_where_9.body, fn_where_11.body, fn_where_13.body,
    ops, opsLeaf, opsL3, opsL2, opsL1, opsL0, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! An operation's buffers are its operands and its result, each a TensorCore reference by construction, so the set of
    them lies among the TensorCore references whatever the operation's arity; level by level, one fact per operation in
    the list's order (a typed reference's operation is the plain one over the reference it carries). -/

/-- The leaves' 28 operations. -/
private theorem opsLeaf_sub : (opsLeaf : List (HloOp τ sig (Elt F))).Forall fun op => op.bufs ⊆ tcRefs τ sig :=
  ⟨unary_bufs_sub .., nullary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

/-- Level 3's 32 operations. -/
private theorem opsL3_sub : (opsL3 : List (HloOp τ sig (Elt F))).Forall fun op => op.bufs ⊆ tcRefs τ sig :=
  ⟨unary_bufs_sub .., unary_bufs_sub .., unary_bufs_sub .., reshape_bufs_sub .., nary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    nullary_bufs_sub .., binary_bufs_sub ..⟩

/-- Level 2's 32 operations: the same kinds in the same order as level 3's. -/
private theorem opsL2_sub : (opsL2 : List (HloOp τ sig (Elt F))).Forall fun op => op.bufs ⊆ tcRefs τ sig :=
  ⟨unary_bufs_sub .., unary_bufs_sub .., unary_bufs_sub .., reshape_bufs_sub .., nary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    nullary_bufs_sub .., binary_bufs_sub ..⟩

/-- Level 1's 32 operations, likewise. -/
private theorem opsL1_sub : (opsL1 : List (HloOp τ sig (Elt F))).Forall fun op => op.bufs ⊆ tcRefs τ sig :=
  ⟨unary_bufs_sub .., unary_bufs_sub .., unary_bufs_sub .., reshape_bufs_sub .., nary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    nullary_bufs_sub .., binary_bufs_sub ..⟩

/-- Level 0's 32 operations, likewise. -/
private theorem opsL0_sub : (opsL0 : List (HloOp τ sig (Elt F))).Forall fun op => op.bufs ⊆ tcRefs τ sig :=
  ⟨unary_bufs_sub .., unary_bufs_sub .., unary_bufs_sub .., reshape_bufs_sub .., nary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    nullary_bufs_sub .., binary_bufs_sub ..⟩

/-- Every operation touches TensorCore references only: a property of every element of an appended list is that property
    of every element of each part. -/
theorem ops_sub : (ops : List (HloOp τ sig (Elt F))).Forall fun op => op.bufs ⊆ tcRefs τ sig :=
  List.forall_append.mpr ⟨opsLeaf_sub, List.forall_append.mpr ⟨opsL3_sub, List.forall_append.mpr ⟨opsL2_sub,
    List.forall_append.mpr ⟨opsL1_sub, opsL0_sub⟩⟩⟩⟩

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (b : DevRef τ sig) :=
  run_seq scopedRefs_eq scopedSems_eq defs main (fun _ => ops) main_eq (fun _ => ops_sub) m ρ

end Cert.ReferenceIdeal.RefRun

end
-- ==== Proof.LibAfterAppend.lean ====
/-
  The contents after a line of host operations that is two lines laid end to end: run the first, then the second
  from what the first leaves. (A general fact about `StableHlo.after`, independent of any program.)
-/
import Idealize.ShloMosaic.Lib.StableHlo.Run

namespace Idealize.ShloMosaic.StableHlo

variable {nD : Nat} {τ : Topo} {sig : RefSig} {Val : EltTy → Type}

/-- The fold of `l₁ ++ l₂` over contents `V` is the fold of `l₂` over the fold of `l₁` over `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RLeaf.lean ====
/-
  The reference's operations for the leaves, read at an entry: the leaf rows of the node table with 52 zero columns
  appended, through the two affine layers and their rectifiers. They write none of the six arguments.

  The 28 operations are four stretches laid end to end: the first affine layer (row slice, zero columns, concatenation,
  matrix product, bias), its rectifier, the second affine layer, its rectifier. Each stretch is read at one entry of its
  result from ANY contents before it, so the four compose by substitution: the last rectifier of the second layer's
  pre-activation, which is a sum over the 125 hidden entries, each the first rectifier of the first layer's
  pre-activation, a sum over the 177 columns of the leaf's row. That is `Spec.leaf` term by term.
-/
import proofs.«105904_j53970559042267_1_alg».proof.Proof.ROps
import proofs.«105904_j53970559042267_1_alg».proof.Proof.Spec
import proofs.«105904_j53970559042267_1_alg».proof.Proof.LibPlainDot
import proofs.«105904_j53970559042267_1_alg».proof.Proof.LibAfterAppend
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.Leaf

open Cert.ReferenceIdeal Cert.ReferenceIdeal.Gen Cert.ReferenceIdeal.Ops Idealize.ShloMosaic Idealize.ShloMosaic.TcCoe Idealize.ShloMosaic.ValueIdx Idealize.SL.Sem Idealize.ShloMosaic.StableHlo Cert.Spec

/-! ## Two shapes met twice: the rectifier and the bias -/

/-- The rectifier as the reference spells it — compare with a broadcast zero, multiply by the broadcast slope, select —
    read at an entry: the leaky rectifier of that entry. -/
private theorem lrelu_read {n m : ℕ} (h : S_.BroadcastsInDim ⟨2, ![n, m]⟩ (![] : Fin 0 → Fin 2)) (x : FVec Ideal ⟨2, ![n, m]⟩ .f32)
    (r : Fin n) (j : Fin m) :
    select (cmpf .oge x (broadcastInDim ⟨2, ![n, m]⟩ ![] h (constant (F := Ideal) S_ .f32 0x00000000#32)))
        x (mulf (broadcastInDim ⟨2, ![n, m]⟩ ![] h (id (constant (F := Ideal) S_ .f32 0x3C23D70A#32))) x) (ix2 r j)
      = lrelu slope (x (ix2 r j)) := by
  rw [select_apply, cmpf_apply, mulf_apply,
    broadcastInDim_apply (![] : Fin 0 → Fin 2) h (constant (F := Ideal) S_ .f32 0x00000000#32) (ix2 r j) ix0 (fun a => a.elim0),
    broadcastInDim_apply (![] : Fin 0 → Fin 2) h (id (constant (F := Ideal) S_ .f32 0x3C23D70A#32)) (ix2 r j) ix0 (fun a => a.elim0),
    id, constant_apply, constant_apply, Ideal.cmpf_def, Ideal.ofBits_zero_f32]
  unfold lrelu Ideal.cmp
  by_cases h0 : 0 ≤ x (ix2 r j)
  · rw [if_pos h0, decide_eq_true h0]
    exact select_one _ _
  · rw [if_neg h0, decide_eq_false h0]
    exact select_zero _ _

/-- A bias vector broadcast to one row and then to every row reads, at `(r, j)`, its entry `j`. -/
private theorem bias_read {n m : ℕ} (h1 : (⟨1, ![m]⟩ : Shape).BroadcastsInDim ⟨2, ![1, m]⟩ (![1] : Fin 1 → Fin 2))
    (h2 : (⟨2, ![1, m]⟩ : Shape).BroadcastsInDim ⟨2, ![n, m]⟩ (![0, 1] : Fin 2 → Fin 2)) (b : (⟨1, ![m]⟩ : Shape).Idx → EReal)
    (r : Fin n) (j : Fin m) :
    broadcastInDim ⟨2, ![n, m]⟩ ![0, 1] h2 (broadcastInDim ⟨2, ![1, m]⟩ ![1] h1 b) (ix2 r j) = b (ix1 j) := by
  refine (broadcastInDim_apply (![0, 1] : Fin 2 → Fin 2) h2 _ (ix2 r j) (ix2 (0 : Fin 1) j) fun a => ?_).trans
    (broadcastInDim_apply (![1] : Fin 1 → Fin 2) h1 b (ix2 (0 : Fin 1) j) (ix1 j) fun a => ?_)
  · match a with
    | ⟨0, _⟩ => rfl
    | ⟨1, _⟩ =>
      show j.val = if m = 1 then 0 else j.val
      split
      · have := j.isLt; omega
      · rfl
  · match a with
    | ⟨0, _⟩ =>
      show j.val = if m = 1 then 0 else j.val
      split
      · have := j.isLt; omega
      · rfl

/-! ## The four stretches -/

section Stretches
variable {F : FTy → Type} [FloatOps F]

/-- The first affine layer: the leaf rows of the node table, 52 zero columns appended, times the first weight
    matrix, plus the first bias. -/
private abbrev opsAff1 : List (HloOp τ sig (Elt F)) :=
  [ StableHlo.unary main_arg0 main_v0 ((extractStridedSlice S524288x125 ![174080, 0] · slices_S698368x125_S524288x125_174080_0) : (⟨S698368x125, .f32⟩ : BufTy).Contents (Elt F) → (⟨S524288x125, .f32⟩ : BufTy).Contents (Elt F)),
    StableHlo.nullary main_cst (constant S_ .f32 0x00000000#32),
    StableHlo.unary main_cst main_v1 (broadcastInDim S524288x52 ![] bcast_S_S524288x52 : (⟨S_, .f32⟩ : BufTy).Contents (Elt F) → (⟨S524288x52, .f32⟩ : BufTy).Contents (Elt F)),
    StableHlo.binary main_v0 main_v1 main_v2 ((fun a b => concatenate S524288x177 1 [⟨S524288x125, a⟩, ⟨S524288x52, b⟩] concatenates_S524288x125_S524288x52_S524288x177_d1) : (⟨S524288x125, .f32⟩ : BufTy).Contents (Elt F) → (⟨S524288x52, .f32⟩ : BufTy).Contents (Elt F) → (⟨S524288x177, .f32⟩ : BufTy).Contents (Elt F)),
    StableHlo.binary main_v2 main_arg2 main_v3 ((fun l r => Host.dotGeneral dot_S524288x177_S177x125_S524288x125_1_0_0_1_n_n none l r) : (⟨S524288x177, .f32⟩ : BufTy).Contents (Elt F) → (⟨S177x125, .f32⟩ : BufTy).Contents (Elt F) → (⟨S524288x125, .f32⟩ : BufTy).Contents (Elt F)),
    StableHlo.unary main_arg3 main_v4 (broadcastInDim S1x125 ![1] bcast_S125_S1x125_1 : (⟨S125, .f32⟩ : BufTy).Contents (Elt F) → (⟨S1x125, .f32⟩ : BufTy).Contents (Elt F)),
    StableHlo.unary main_v4 main_v5 (broadcastInDim S524288x125 ![0, 1] bcast_S1x125_S524288x125_0_1 : (⟨S1x125, .f32⟩ : BufTy).Contents (Elt F) → (⟨S524288x125, .f32⟩ : BufTy).Contents (Elt F)),
    StableHlo.binary main_v3 main_v5 main_v6 (addf : (⟨S524288x125, .f32⟩ : BufTy).Contents (Elt F) → (⟨S524288x125, .f32⟩ : BufTy).Contents (Elt F) → (⟨S524288x125, .f32⟩ : BufTy).Contents (Elt F)) ]

/-- The first rectifier: the slope constant and the seven operations of the outlined function. -/
private abbrev opsRect1 : List (HloOp τ sig (Elt F)) :=
  [ StableHlo.nullary main_cst_0 (constant S_ .f32 0x3C23D70A#32),
    StableHlo.TRef.nullary main_call0.cst (constant S_ .f32 0x00000000#32),
    StableHlo.TRef.unary main_call0.cst main_call0.v0 (broadcastInDim S524288x125 ![] bcast_S_S524288x125),
    StableHlo.TRef.binary (.of main_v6) main_call0.v0 main_call0.v1 (cmpf .oge),
    StableHlo.TRef.unary (.of main_cst_0) main_call0.v2 id,
    StableHlo.TRef.unary main_call0.v2 main_call0.v3 (broadcastInDim S524288x125 ![] bcast_S_S524288x125),
    StableHlo.TRef.binary main_call0.v3 (.of main_v6) main_call0.v4 mulf,
    StableHlo.TRef.ternary main_call0.v1 (.of main_v6) main_call0.v4 main_call0.call0.v0 select ]

/-- The second affine layer: the hidden rows times the second weight matrix, plus the second bias. -/
private abbrev opsAff2 : List (HloOp τ sig (Elt F)) :=
  [ StableHlo.binary main_v7 main_arg4 main_v8 ((fun l r => Host.dotGeneral dot_S524288x125_S125x40_S524288x40_1_0_0_1_n_n none l r) : (⟨S524288x125, .f32⟩ : BufTy).Contents (Elt F) → (⟨S125x40, .f32⟩ : BufTy).Contents (Elt F) → (⟨S524288x40, .f32⟩ : BufTy).Contents (Elt F)),
    StableHlo.unary main_arg5 main_v9 (broadcastInDim S1x40 ![1] bcast_S40_S1x40_1 : (⟨S40, .f32⟩ : BufTy).Contents (Elt F) → (⟨S1x40, .f32⟩ : BufTy).Contents (Elt F)),
    StableHlo.unary main_v9 main_v10 (broadcastInDim S524288x40 ![0, 1] bcast_S1x40_S524288x40_0_1 : (⟨S1x40, .f32⟩ : BufTy).Contents (Elt F) → (⟨S524288x40, .f32⟩ : BufTy).Contents (Elt F)),
    StableHlo.binary main_v8 main_v10 main_v11 (addf : (⟨S524288x40, .f32⟩ : BufTy).Contents (Elt F) → (⟨S524288x40, .f32⟩ : BufTy).Contents (Elt F) → (⟨S524288x40, .f32⟩ : BufTy).Contents (Elt F)) ]

/-- The second rectifier. -/
private abbrev opsRect2 : List (HloOp τ sig (Elt F)) :=
  [ StableHlo.nullary main_cst_1 (constant S_ .f32 0x3C23D70A#32),
    StableHlo.TRef.nullary main_call1.cst (constant S_ .f32 0x00000000#32),
    StableHlo.TRef.unary main_call1.cst main_call1.v0 (broadcastInDim S524288x40 ![] bcast_S_S524288x40),
    StableHlo.TRef.binary (.of main_v11) main_call1.v0 main_call1.v1 (cmpf .oge),
    StableHlo.TRef.unary (.of main_cst_1) main_call1.v2 id,
    StableHlo.TRef.unary main_call1.v2 main_call1.v3 (broadcastInDim S524288x40 ![] bcast_S_S524288x40),
    StableHlo.TRef.binary main_call1.v3 (.of main_v11) main_call1.v4 mulf,
    StableHlo.TRef.ternary main_call1.v1 (.of main_v11) main_call1.v4 main_call1.call0.v0 select ]

/-- The leaf operations are these four stretches laid end to end. -/
private theorem opsLeaf_split : (opsLeaf : List (HloOp τ sig (Elt F))) = opsAff1 ++ (opsRect1 ++ (opsAff2 ++ opsRect2)) := rfl

end Stretches

/-! ## Each stretch read at an entry -/

/-- The first layer's dimension numbers are the plain matrix product's. -/
private theorem dot1_plain : dot_S524288x177_S177x125_S524288x125_1_0_0_1_n_n = DotDims.plain 524288 177 125 := rfl
/-- The second layer's dimension numbers are the plain matrix product's. -/
private theorem dot2_plain : dot_S524288x125_S125x40_S524288x40_1_0_0_1_n_n = DotDims.plain 524288 125 40 := rfl

/-- A leaf's row of the concatenated table: the node table's row `174080 + r` on columns below 125, zero beyond. -/
private theorem leafRow_read (x : S698368x125.Idx → EReal) (r : Fin 524288) (k : Fin 177) :
    concatenate S524288x177 1
        [⟨S524288x125, extractStridedSlice S524288x125 ![174080, 0] x slices_S698368x125_S524288x125_174080_0⟩,
          ⟨S524288x52, broadcastInDim S524288x52 ![] bcast_S_S524288x52 (constant (F := Ideal) S_ .f32 0x00000000#32)⟩]
        concatenates_S524288x125_S524288x52_S524288x177_d1 (ix2 r k)
      = leafIn (rows 174080 524288 (by norm_num) (cur2 x) r) k := by
  unfold leafIn
  by_cases hk : k.val < 125
  · rw [dif_pos hk]
    refine (concatenate_pair_apply_left (s₁ := S524288x125) (s₂ := S524288x52) _ _ _ _ (ix2 r k) rfl
      (ix2 r (⟨k.val, hk⟩ : Fin 125)) fun b => ?_).trans ?_
    · match b with
      | ⟨0, _⟩ => rfl
      | ⟨1, _⟩ => rfl
    · exact slice2_axis0_eq 174080 x slices_S698368x125_S524288x125_174080_0 r ⟨k.val, hk⟩
  · rw [dif_neg hk]
    have hk52 : k.val - 125 < 52 := by have := k.isLt; omega
    refine (concatenate_pair_apply_right (s₁ := S524288x125) (s₂ := S524288x52) _ _ _ _ (ix2 r k) rfl rfl
      (ix2 r (⟨k.val - 125, hk52⟩ : Fin 52)) (fun b hb => ?_) ?_).trans ?_
    · match b with
      | ⟨0, _⟩ => rfl
      | ⟨1, _⟩ => exact absurd rfl hb
    · show k.val - 125 + 125 = k.val
      omega
    · exact (broadcastInDim_apply _ bcast_S_S524288x52 (constant (F := Ideal) S_ .f32 0x00000000#32) _ ix0
        fun a => a.elim0).trans ((constant_apply _ _).trans Ideal.ofBits_zero_f32)

/-- After the first affine layer, entry `(r, j)` is the row of leaf `r` — its message, then 52 zeros — against
    column `j` of the first weight matrix, plus the bias. -/
private theorem aff1_read (V : Valuation τ sig (Elt Ideal)) (r : Fin 524288) (j : Fin 125) :
    cur2 (after (opsAff1 (F := Ideal)) V (main_v6 : DevRef τ sig) : S524288x125.Idx → EReal) r j
      = (∑ k : Fin 177, leafIn (rows 174080 524288 (by norm_num) (cur2 (V (main_arg0 : DevRef τ sig) : S698368x125.Idx → EReal)) r) k
            * cur2 (V (main_arg2 : DevRef τ sig) : S177x125.Idx → EReal) k j)
          + cur1 (V (main_arg3 : DevRef τ sig) : S125.Idx → EReal) j := by
  unfold opsAff1
  after_results
  show addf _ _ (ix2 r j) = _
  rw [addf_apply, Host.dotGeneral, dot1_plain]
  refine congrArg₂ (· + ·) ?_ (bias_read bcast_S125_S1x125_1 bcast_S1x125_S524288x125_0_1 _ r j)
  refine (Cert.Lib.PlainDot.dotGeneral_apply none .single _ _ r j).trans (Finset.sum_congr rfl fun k _ => ?_)
  rw [leafRow_read]

/-- After the first rectifier, the hidden rows hold the rectifier of the first layer's pre-activation. -/
private theorem rect1_read (V : Valuation τ sig (Elt Ideal)) (r : Fin 524288) (j : Fin 125) :
    cur2 (after (opsRect1 (F := Ideal)) V (main_v7 : DevRef τ sig) : S524288x125.Idx → EReal) r j
      = lrelu slope (cur2 (V (main_v6 : DevRef τ sig) : S524288x125.Idx → EReal) r j) := by
  unfold opsRect1
  after_results
  exact lrelu_read bcast_S_S524288x125 _ r j

/-- After the second affine layer, entry `(r, o)` is hidden row `r` against column `o` of the second weight matrix,
    plus the bias. -/
private theorem aff2_read (V : Valuation τ sig (Elt Ideal)) (r : Fin 524288) (o : Fin 40) :
    cur2 (after (opsAff2 (F := Ideal)) V (main_v11 : DevRef τ sig) : S524288x40.Idx → EReal) r o
      = (∑ j : Fin 125, cur2 (V (main_v7 : DevRef τ sig) : S524288x125.Idx → EReal) r j
            * cur2 (V (main_arg4 : DevRef τ sig) : S125x40.Idx → EReal) j o)
          + cur1 (V (main_arg5 : DevRef τ sig) : S40.Idx → EReal) o := by
  unfold opsAff2
  after_results
  show addf _ _ (ix2 r o) = _
  rw [addf_apply, Host.dotGeneral, dot2_plain]
  exact congrArg₂ (· + ·) (Cert.Lib.PlainDot.dotGeneral_apply none .single _ _ r o)
    (bias_read bcast_S40_S1x40_1 bcast_S1x40_S524288x40_0_1 _ r o)

/-- After the second rectifier, the outputs hold the rectifier of the second layer's pre-activation. -/
private theorem rect2_read (V : Valuation τ sig (Elt Ideal)) (r : Fin 524288) (o : Fin 40) :
    cur2 (after (opsRect2 (F := Ideal)) V (main_v12 : DevRef τ sig) : S524288x40.Idx → EReal) r o
      = lrelu slope (cur2 (V (main_v11 : DevRef τ sig) : S524288x40.Idx → EReal) r o) := by
  unfold opsRect2
  after_results
  exact lrelu_read bcast_S_S524288x40 _ r o

/-! ## The stretches composed -/

/-- Neither the first affine layer nor the first rectifier writes the second weight matrix. -/
private theorem kept4_aff1_rect1 (X : Valuation τ sig (Elt Ideal)) :
    after (opsRect1 (F := Ideal)) (after (opsAff1 (F := Ideal)) X) (main_arg4 : DevRef τ sig) = X (main_arg4 : DevRef τ sig) := by
  unfold opsRect1 opsAff1
  after_results

/-- Neither the first affine layer nor the first rectifier writes the second bias. -/
private theorem kept5_aff1_rect1 (X : Valuation τ sig (Elt Ideal)) :
    after (opsRect1 (F := Ideal)) (after (opsAff1 (F := Ideal)) X) (main_arg5 : DevRef τ sig) = X (main_arg5 : DevRef τ sig) := by
  unfold opsRect1 opsAff1
  after_results

/-- The leaves' outputs at entry `(r, o)`: the four stretches in turn, each read at an entry of what the one before
    it left. -/
private theorem val_at (X : Valuation τ sig (Elt Ideal)) (r : Fin 524288) (o : Fin 40) :
    cur2 (after (opsLeaf (F := Ideal)) X (main_v12 : DevRef τ sig) : S524288x40.Idx → EReal) r o
      = leaf slope 524288 (rows 174080 524288 (by norm_num) (cur2 (X (main_arg0 : DevRef τ sig) : S698368x125.Idx → EReal)))
          (cur2 (X (main_arg2 : DevRef τ sig) : S177x125.Idx → EReal)) (cur1 (X (main_arg3 : DevRef τ sig) : S125.Idx → EReal))
          (cur2 (X (main_arg4 : DevRef τ sig) : S125x40.Idx → EReal)) (cur1 (X (main_arg5 : DevRef τ sig) : S40.Idx → EReal)) r o := by
  rw [opsLeaf_split, after_append, after_append, after_append, rect2_read, aff2_read, kept4_aff1_rect1, kept5_aff1_rect1]
  unfold leaf net layer2
  refine congrArg (lrelu slope) (congrArg₂ (· + ·) (Finset.sum_congr rfl fun j _ => congrArg (· * _) ?_) rfl)
  exact (rect1_read _ r j).trans (congrArg (lrelu slope) (aff1_read X r j))

/-- The leaves' outputs after the leaf operations, from any contents `X`. -/
theorem val (X : Valuation τ sig (Elt Ideal)) :
    (after (opsLeaf (F := Ideal)) X (main_v12 : DevRef τ sig) : S524288x40.Idx → EReal)
      = fun (i : S524288x40.Idx) => leaf slope 524288 (rows 174080 524288 (by norm_num) (cur2 (X (main_arg0 : DevRef τ sig) : S698368x125.Idx → EReal)))
          (cur2 (X (main_arg2 : DevRef τ sig) : S177x125.Idx → EReal)) (cur1 (X (main_arg3 : DevRef τ sig) : S125.Idx → EReal)) (cur2 (X (main_arg4 : DevRef τ sig) : S125x40.Idx → EReal)) (cur1 (X (main_arg5 : DevRef τ sig) : S40.Idx → EReal)) (i 0) (i 1) := by
  funext i
  exact (congrArg _ (eq_ix2 i)).trans (val_at X (i 0) (i 1))

theorem kept_arg0 (X : Valuation τ sig (Elt Ideal)) : after (opsLeaf (F := Ideal)) X (main_arg0 : DevRef τ sig) = X (main_arg0 : DevRef τ sig) := by
  unfold opsLeaf
  after_results
theorem kept_arg1 (X : Valuation τ sig (Elt Ideal)) : after (opsLeaf (F := Ideal)) X (main_arg1 : DevRef τ sig) = X (main_arg1 : DevRef τ sig) := by
  unfold opsLeaf
  after_results
theorem kept_arg2 (X : Valuation τ sig (Elt Ideal)) : after (opsLeaf (F := Ideal)) X (main_arg2 : DevRef τ sig) = X (main_arg2 : DevRef τ sig) := by
  unfold opsLeaf
  after_results
theorem kept_arg3 (X : Valuation τ sig (Elt Ideal)) : after (opsLeaf (F := Ideal)) X (main_arg3 : DevRef τ sig) = X (main_arg3 : DevRef τ sig) := by
  unfold opsLeaf
  after_results
theorem kept_arg4 (X : Valuation τ sig (Elt Ideal)) : after (opsLeaf (F := Ideal)) X (main_arg4 : DevRef τ sig) = X (main_arg4 : DevRef τ sig) := by
  unfold opsLeaf
  after_results
theorem kept_arg5 (X : Valuation τ sig (Elt Ideal)) : after (opsLeaf (F := Ideal)) X (main_arg5 : DevRef τ sig) = X (main_arg5 : DevRef τ sig) := by
  unfold opsLeaf
  after_results

end Cert.ReferenceIdeal.Leaf

end
-- ==== Proof.RLvl3.lean ====
/-
  The reference's operations for one level (131072 parents over 524288 children), read at an entry: each child's row is
  its parent's message (the parents' rows repeated four times), its bond and its outputs from the level below, laid side
  by side; the network is applied to it; the four children of a parent are summed. They write none of the six arguments.
-/
import proofs.«105904_j53970559042267_1_alg».proof.Proof.ROps
import proofs.«105904_j53970559042267_1_alg».proof.Proof.Spec
import proofs.«105904_j53970559042267_1_alg».proof.Proof.LibPlainDot
import proofs.«105904_j53970559042267_1_alg».proof.Proof.LibAfterAppend
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.Lvl3

open Cert.ReferenceIdeal Cert.ReferenceIdeal.Gen Cert.ReferenceIdeal.Ops Idealize.ShloMosaic Idealize.ShloMosaic.TcCoe Idealize.ShloMosaic.ValueIdx Idealize.SL.Sem Idealize.ShloMosaic.StableHlo Cert.Spec

/-! ## The operations' functions, each read at an entry -/

/-- The rectifier as the reference spells it — compare with zero, multiply by the slope, select — read at an entry:
    the leaky rectifier of that entry. -/
private theorem rect_apply {n m : ℕ} (h : S_.BroadcastsInDim (⟨2, ![n, m]⟩ : Shape) (![] : Fin 0 → Fin 2))
    (x : FVec Ideal ⟨2, ![n, m]⟩ .f32) (r : Fin n) (j : Fin m) :
    select (cmpf .oge x (broadcastInDim ⟨2, ![n, m]⟩ ![] h (constant (F := Ideal) S_ .f32 0x00000000#32))) x
        (mulf (broadcastInDim ⟨2, ![n, m]⟩ ![] h (constant (F := Ideal) S_ .f32 0x3C23D70A#32)) x) (ix2 r j)
      = lrelu slope (x (ix2 r j)) := by
  rw [select_apply, cmpf_apply, mulf_apply,
    broadcastInDim_apply (![] : Fin 0 → Fin 2) h (constant (F := Ideal) S_ .f32 0x00000000#32) (ix2 r j) ix0 (fun a => a.elim0),
    broadcastInDim_apply (![] : Fin 0 → Fin 2) h (constant (F := Ideal) S_ .f32 0x3C23D70A#32) (ix2 r j) ix0 (fun a => a.elim0),
    constant_apply, constant_apply, Ideal.ofBits_zero_f32, Ideal.cmpf_def]
  unfold Ideal.cmp lrelu
  by_cases h0 : (0 : EReal) ≤ x (ix2 r j)
  · rw [if_pos h0, decide_eq_true h0]
    exact select_one _ _
  · rw [if_neg h0, decide_eq_false h0]
    exact select_zero _ _

/-- The two matrix products of the network are plain products: entry `(p, q)` is the sum over the contracted position. -/
private theorem dot1_apply (l : FVec Ideal S524288x177 .f32) (w : FVec Ideal S177x125 .f32) (p : Fin 524288) (q : Fin 125) :
    Host.dotGeneral dot_S524288x177_S177x125_S524288x125_1_0_0_1_n_n none l w (ix2 p q) = ∑ k : Fin 177, l (ix2 p k) * w (ix2 k q) :=
  Cert.Lib.PlainDot.dotGeneral_apply none .single l w p q
private theorem dot2_apply (l : FVec Ideal S524288x125 .f32) (w : FVec Ideal S125x40 .f32) (p : Fin 524288) (q : Fin 40) :
    Host.dotGeneral dot_S524288x125_S125x40_S524288x40_1_0_0_1_n_n none l w (ix2 p q) = ∑ k : Fin 125, l (ix2 p k) * w (ix2 k q) :=
  Cert.Lib.PlainDot.dotGeneral_apply none .single l w p q

/-- A bias vector laid along every row: entry `(p, q)` of the result is entry `q` of the vector. -/
private theorem bias_apply {n m : ℕ} (h1 : (⟨1, ![m]⟩ : Shape).BroadcastsInDim (⟨2, ![1, m]⟩ : Shape) (![1] : Fin 1 → Fin 2))
    (h2 : (⟨2, ![1, m]⟩ : Shape).BroadcastsInDim (⟨2, ![n, m]⟩ : Shape) (![0, 1] : Fin 2 → Fin 2)) (hm : m ≠ 1)
    (b : (⟨1, ![m]⟩ : Shape).Idx → EReal) (p : Fin n) (q : Fin m) :
    broadcastInDim (⟨2, ![n, m]⟩ : Shape) ![0, 1] h2 (broadcastInDim (⟨2, ![1, m]⟩ : Shape) ![1] h1 b) (ix2 p q) = b (ix1 q) := by
  rw [broadcastInDim_apply (![0, 1] : Fin 2 → Fin 2) h2 _ (ix2 p q) (ix2 (0 : Fin 1) q)
      (fun a => match a with
        | ⟨0, _⟩ => rfl
        | ⟨1, _⟩ => by show (q : ℕ) = if m = 1 then 0 else (q : ℕ); rw [if_neg hm]),
    broadcastInDim_apply (![1] : Fin 1 → Fin 2) h1 b (ix2 (0 : Fin 1) q) (ix1 q)
      (fun a => match a with
        | ⟨0, _⟩ => by show (q : ℕ) = if m = 1 then 0 else (q : ℕ); rw [if_neg hm])]

/-- A child's row in the reference: three tables laid side by side along the columns — 125, then 12, then 40 of them — read at
    column `k` is the piece that column falls in: the specification's row of a child. -/
private theorem concat3_apply (a : FVec Ideal S524288x125 .f32) (b : FVec Ideal S524288x12 .f32) (c : FVec Ideal S524288x40 .f32)
    (r : Fin 524288) (k : Fin 177) :
    concatenate S524288x177 1 [⟨S524288x125, a⟩, ⟨S524288x12, b⟩, ⟨S524288x40, c⟩]
        concatenates_S524288x125_S524288x12_S524288x40_S524288x177_d1 (ix2 r k)
      = levelIn (cur2 a r) (cur2 b r) (cur2 c r) k := by
  unfold levelIn
  by_cases h1 : k.val < 125
  · rw [dif_pos h1]
    exact concatenate_apply_piece (1 : Fin S524288x177.rank) _ _ (ix2 r k) 0 (by show (0 : ℕ) < 3; omega) S524288x125 a rfl rfl 0 rfl
      (ix2 r ⟨k.val, h1⟩)
      (fun d => match d with
        | ⟨0, _⟩ => fun _ => rfl
        | ⟨1, _⟩ => fun h => absurd rfl h)
      (by show 0 + k.val = k.val; omega)
  · rw [dif_neg h1]
    by_cases h2 : k.val < 137
    · rw [dif_pos h2]
      exact concatenate_apply_piece (1 : Fin S524288x177.rank) _ _ (ix2 r k) 1 (by show (1 : ℕ) < 3; omega) S524288x12 b rfl rfl 125 rfl
        (ix2 r ⟨k.val - 125, by omega⟩)
        (fun d => match d with
          | ⟨0, _⟩ => fun _ => rfl
          | ⟨1, _⟩ => fun h => absurd rfl h)
        (by show 125 + (k.val - 125) = k.val; omega)
    · rw [dif_neg h2]
      exact concatenate_apply_piece (1 : Fin S524288x177.rank) _ _ (ix2 r k) 2 (by show (2 : ℕ) < 3; omega) S524288x40 c rfl rfl 137 rfl
        (ix2 r ⟨k.val - 137, by have := k.isLt; omega⟩)
        (fun d => match d with
          | ⟨0, _⟩ => fun _ => rfl
          | ⟨1, _⟩ => fun h => absurd rfl h)
        (by show 137 + (k.val - 137) = k.val; omega)

/-- The parents' rows of the node table, each repeated four times: row `4p + q` of the result is row `43008 + p` of the table. -/
private theorem parent_apply (x : FVec Ideal S698368x125 .f32) (p : Fin 131072) (q : Fin 4) (k : Fin 125) :
    shapeCast S524288x125 (broadcastInDim S131072x4x125 ![0, 2] bcast_S131072x125_S131072x4x125_0_2
        (extractStridedSlice S131072x125 ![43008, 0] x slices_S698368x125_S131072x125_43008_0))
        shapeCasts_S131072x4x125_S524288x125 (ix2 ⟨4 * p.val + q.val, by have := p.isLt; have := q.isLt; omega⟩ k)
      = x (ix2 ⟨43008 + p.val, by have := p.isLt; omega⟩ k) := by
  refine (shapeCast_apply _ shapeCasts_S131072x4x125_S524288x125 _ (ix3 p q k) ?_).trans ?_
  · rw [Shape.rowMajor_val_two, Shape.rowMajor_val_three]
    show (p.val * 4 + q.val) * 125 + k.val = (4 * p.val + q.val) * 125 + k.val
    omega
  refine (broadcastInDim_apply (![0, 2] : Fin 2 → Fin 3) bcast_S131072x125_S131072x4x125_0_2 _ (ix3 p q k) (ix2 p k)
    (fun a => match a with
      | ⟨0, _⟩ => rfl
      | ⟨1, _⟩ => rfl)).trans ?_
  exact extractStridedSlice_apply (![43008, 0] : Fin 2 → ℕ) x slices_S698368x125_S131072x125_43008_0 (ix2 p k) _
    (fun a => match a with
      | ⟨0, _⟩ => rfl
      | ⟨1, _⟩ => by show k.val = 0 + k.val; omega)

/-- The children's rows of the bond table: row `r` of the result is row `172032 + r` of the table. -/
private theorem bond_apply (x : FVec Ideal S696320x12 .f32) (r : Fin 524288) (k : Fin 12) :
    extractStridedSlice S524288x12 ![172032, 0] x slices_S696320x12_S524288x12_172032_0 (ix2 r k)
      = x (ix2 ⟨172032 + r.val, by have := r.isLt; omega⟩ k) :=
  extractStridedSlice_apply (![172032, 0] : Fin 2 → ℕ) x slices_S696320x12_S524288x12_172032_0 (ix2 r k) _
    (fun a => match a with
      | ⟨0, _⟩ => rfl
      | ⟨1, _⟩ => by show k.val = 0 + k.val; omega)

/-- The children's outputs regrouped four to a parent and summed over the four: entry `(p, o)` of the result is the sum over
    `q < 4` of entry `(4p + q, o)`. -/
private theorem sum4_apply (x : FVec Ideal S524288x40 .f32) (p : Fin 131072) (o : Fin 40) :
    Host.reduceAdd (shapeCast S131072x4x40 x shapeCasts_S524288x40_S131072x4x40) (constant (F := Ideal) S_ .f32 0x00000000#32)
        reducesTo_S131072x4x40_S131072x40_d1 h_S_ (ix2 p o)
      = ∑ q : Fin 4, x (ix2 ⟨4 * p.val + q.val, by have := p.isLt; have := q.isLt; omega⟩ o) := by
  have hred : S131072x4x40.Reduces [1] S131072x40 := by decide
  unfold Host.reduceAdd
  rw [Ideal.hostReduceAdd_def, Ideal.hostReduceAdd_single _ hred, constant_apply, Ideal.ofBits_zero_f32, zero_add]
  refine Finset.sum_congr rfl fun q _ => ?_
  refine shapeCast_apply x shapeCasts_S524288x40_S131072x4x40 _ _ ?_
  rw [Shape.rowMajor_val_two, Shape.rowMajor_val_three]
  show (4 * p.val + q.val) * 40 + o.val = (p.val * 4 + q.val) * 40 + o.val
  omega

/-! ## The operations in consecutive stretches, each run from any contents -/

/-- The level's operations cut into six consecutive stretches: the two tables' rows and the parents repeated; the rows laid
    side by side and the first layer up to its bias; the first rectifier; the second layer up to its bias; the second
    rectifier; the regrouping four to a parent and the sum. -/
private abbrev opsA1 : List (HloOp τ sig (Elt Ideal)) := (opsL3 (F := Ideal)).take 4
private abbrev opsA2 : List (HloOp τ sig (Elt Ideal)) := ((opsL3 (F := Ideal)).drop 4).take 5
private abbrev opsB : List (HloOp τ sig (Elt Ideal)) := ((opsL3 (F := Ideal)).drop 9).take 8
private abbrev opsC : List (HloOp τ sig (Elt Ideal)) := ((opsL3 (F := Ideal)).drop 17).take 4
private abbrev opsD : List (HloOp τ sig (Elt Ideal)) := ((opsL3 (F := Ideal)).drop 21).take 8
private abbrev opsE : List (HloOp τ sig (Elt Ideal)) := (opsL3 (F := Ideal)).drop 29

private theorem ops_cut : opsL3 (F := Ideal) = opsA1 ++ (opsA2 ++ (opsB ++ (opsC ++ (opsD ++ opsE)))) := rfl

/-- Running the level's operations is running the six stretches one after the other. -/
private theorem after_cut (X : Valuation τ sig (Elt Ideal)) :
    after (opsL3 (F := Ideal)) X = after opsE (after opsD (after opsC (after opsB (after opsA2 (after opsA1 X))))) := by
  conv_lhs => rw [ops_cut]
  simp only [after_append]

/-- First stretch: row `4p + q` of the repeated parents is the node table's row `43008 + p`. -/
private theorem msg_rows (V : Valuation τ sig (Elt Ideal)) (p : Fin 131072) (q : Fin 4) (k : Fin 125) :
    cur2 (after opsA1 V (main_v16 : DevRef τ sig) : S524288x125.Idx → EReal) ⟨4 * p.val + q.val, by have := p.isLt; have := q.isLt; omega⟩ k
      = cur2 (V (main_arg0 : DevRef τ sig) : S698368x125.Idx → EReal) ⟨43008 + p.val, by have := p.isLt; omega⟩ k := by
  simp only [cur2, opsA1, List.take_succ_cons, List.take_zero, List.drop_succ_cons, List.drop_zero]
  after_results
  exact parent_apply (V (main_arg0 : DevRef τ sig)) p q k

/-- First stretch: row `r` of the children's bonds is the bond table's row `172032 + r`. -/
private theorem bond_rows (V : Valuation τ sig (Elt Ideal)) (r : Fin 524288) (k : Fin 12) :
    cur2 (after opsA1 V (main_v14 : DevRef τ sig) : S524288x12.Idx → EReal) r k
      = cur2 (V (main_arg1 : DevRef τ sig) : S696320x12.Idx → EReal) ⟨172032 + r.val, by have := r.isLt; omega⟩ k := by
  simp only [cur2, opsA1, List.take_succ_cons, List.take_zero, List.drop_succ_cons, List.drop_zero]
  after_results
  exact bond_apply (V (main_arg1 : DevRef τ sig)) r k

/-- The first stretch writes neither the outputs of the level below nor the weights. -/
private theorem keepA1_prev (V : Valuation τ sig (Elt Ideal)) : after opsA1 V (main_v12 : DevRef τ sig) = V (main_v12 : DevRef τ sig) := by
  simp only [opsA1, List.take_succ_cons, List.take_zero, List.drop_succ_cons, List.drop_zero]
  after_results
private theorem keepA1_arg2 (V : Valuation τ sig (Elt Ideal)) : after opsA1 V (main_arg2 : DevRef τ sig) = V (main_arg2 : DevRef τ sig) := by
  simp only [opsA1, List.take_succ_cons, List.take_zero, List.drop_succ_cons, List.drop_zero]
  after_results
private theorem keepA1_arg3 (V : Valuation τ sig (Elt Ideal)) : after opsA1 V (main_arg3 : DevRef τ sig) = V (main_arg3 : DevRef τ sig) := by
  simp only [opsA1, List.take_succ_cons, List.take_zero, List.drop_succ_cons, List.drop_zero]
  after_results
private theorem keepA1_arg4 (V : Valuation τ sig (Elt Ideal)) : after opsA1 V (main_arg4 : DevRef τ sig) = V (main_arg4 : DevRef τ sig) := by
  simp only [opsA1, List.take_succ_cons, List.take_zero, List.drop_succ_cons, List.drop_zero]
  after_results
private theorem keepA1_arg5 (V : Valuation τ sig (Elt Ideal)) : after opsA1 V (main_arg5 : DevRef τ sig) = V (main_arg5 : DevRef τ sig) := by
  simp only [opsA1, List.take_succ_cons, List.take_zero, List.drop_succ_cons, List.drop_zero]
  after_results

/-- Second stretch: the first layer before its rectifier, on the row made of the three pieces. -/
private theorem pre1 (V : Valuation τ sig (Elt Ideal)) (r : Fin 524288) (j : Fin 125) :
    cur2 (after opsA2 V (main_v21 : DevRef τ sig) : S524288x125.Idx → EReal) r j
      = (∑ k : Fin 177, levelIn (cur2 (V (main_v16 : DevRef τ sig) : S524288x125.Idx → EReal) r)
            (cur2 (V (main_v14 : DevRef τ sig) : S524288x12.Idx → EReal) r) (cur2 (V (main_v12 : DevRef τ sig) : S524288x40.Idx → EReal) r) k
          * cur2 (V (main_arg2 : DevRef τ sig) : S177x125.Idx → EReal) k j)
        + cur1 (V (main_arg3 : DevRef τ sig) : S125.Idx → EReal) j := by
  simp only [cur1, opsA2, List.take_succ_cons, List.take_zero, List.drop_succ_cons, List.drop_zero]
  after_results
  simp only [Matrix.cons_val_zero, Matrix.cons_val_one, Matrix.cons_val]
  rw [cur2, addf_apply, dot1_apply, bias_apply _ _ (by decide)]
  refine congrArg (· + _) (Finset.sum_congr rfl fun k _ => ?_)
  rw [concat3_apply]

/-- The second stretch does not write the second layer's weights. -/
private theorem keepA2_arg4 (V : Valuation τ sig (Elt Ideal)) : after opsA2 V (main_arg4 : DevRef τ sig) = V (main_arg4 : DevRef τ sig) := by
  simp only [opsA2, List.take_succ_cons, List.take_zero, List.drop_succ_cons, List.drop_zero]
  after_results
private theorem keepA2_arg5 (V : Valuation τ sig (Elt Ideal)) : after opsA2 V (main_arg5 : DevRef τ sig) = V (main_arg5 : DevRef τ sig) := by
  simp only [opsA2, List.take_succ_cons, List.take_zero, List.drop_succ_cons, List.drop_zero]
  after_results

/-- Third stretch: the first rectifier, entry by entry. -/
private theorem rect1 (V : Valuation τ sig (Elt Ideal)) (r : Fin 524288) (j : Fin 125) :
    cur2 (after opsB V (main_v22 : DevRef τ sig) : S524288x125.Idx → EReal) r j
      = lrelu slope (cur2 (V (main_v21 : DevRef τ sig) : S524288x125.Idx → EReal) r j) := by
  simp only [cur2, opsB, List.take_succ_cons, List.take_zero, List.drop_succ_cons, List.drop_zero]
  after_results
  exact rect_apply bcast_S_S524288x125 (V (main_v21 : DevRef τ sig)) r j

/-- The third stretch does not write the second layer's weights. -/
private theorem keepB_arg4 (V : Valuation τ sig (Elt Ideal)) : after opsB V (main_arg4 : DevRef τ sig) = V (main_arg4 : DevRef τ sig) := by
  simp only [opsB, List.take_succ_cons, List.take_zero, List.drop_succ_cons, List.drop_zero]
  after_results
private theorem keepB_arg5 (V : Valuation τ sig (Elt Ideal)) : after opsB V (main_arg5 : DevRef τ sig) = V (main_arg5 : DevRef τ sig) := by
  simp only [opsB, List.take_succ_cons, List.take_zero, List.drop_succ_cons, List.drop_zero]
  after_results

/-- Fourth stretch: the second layer before its rectifier. -/
private theorem pre2 (V : Valuation τ sig (Elt Ideal)) (r : Fin 524288) (o : Fin 40) :
    cur2 (after opsC V (main_v26 : DevRef τ sig) : S524288x40.Idx → EReal) r o
      = (∑ j : Fin 125, cur2 (V (main_v22 : DevRef τ sig) : S524288x125.Idx → EReal) r j * cur2 (V (main_arg4 : DevRef τ sig) : S125x40.Idx → EReal) j o)
        + cur1 (V (main_arg5 : DevRef τ sig) : S40.Idx → EReal) o := by
  simp only [cur2, cur1, opsC, List.take_succ_cons, List.take_zero, List.drop_succ_cons, List.drop_zero]
  after_results
  rw [addf_apply, dot2_apply, bias_apply _ _ (by decide)]

/-- Fifth stretch: the second rectifier, entry by entry. -/
private theorem rect2 (V : Valuation τ sig (Elt Ideal)) (r : Fin 524288) (o : Fin 40) :
    cur2 (after opsD V (main_v27 : DevRef τ sig) : S524288x40.Idx → EReal) r o
      = lrelu slope (cur2 (V (main_v26 : DevRef τ sig) : S524288x40.Idx → EReal) r o) := by
  simp only [cur2, opsD, List.take_succ_cons, List.take_zero, List.drop_succ_cons, List.drop_zero]
  after_results
  exact rect_apply bcast_S_S524288x40 (V (main_v26 : DevRef τ sig)) r o

/-- Sixth stretch: a parent's entry is the sum of its four children's. -/
private theorem sum4 (V : Valuation τ sig (Elt Ideal)) (p : Fin 131072) (o : Fin 40) :
    cur2 (after opsE V (main_v29 : DevRef τ sig) : S131072x40.Idx → EReal) p o
      = ∑ q : Fin 4, cur2 (V (main_v27 : DevRef τ sig) : S524288x40.Idx → EReal) ⟨4 * p.val + q.val, by have := p.isLt; have := q.isLt; omega⟩ o := by
  simp only [cur2, opsE, List.take_succ_cons, List.take_zero, List.drop_succ_cons, List.drop_zero]
  after_results
  exact sum4_apply (V (main_v27 : DevRef τ sig)) p o

/-! ## The level -/

/-- After the first five stretches, child `4p + q`'s outputs are the network on that child's row: the message of parent
    `p`, the child's bond, and the child's outputs from the level below. -/
private theorem child (X : Valuation τ sig (Elt Ideal)) (p : Fin 131072) (q : Fin 4) (o : Fin 40) :
    cur2 (after opsD (after opsC (after opsB (after opsA2 (after opsA1 X)))) (main_v27 : DevRef τ sig) : S524288x40.Idx → EReal) ⟨4 * p.val + q.val, by have := p.isLt; have := q.isLt; omega⟩ o
      = net slope (levelIn (rows 43008 131072 (by norm_num) (cur2 (X (main_arg0 : DevRef τ sig) : S698368x125.Idx → EReal)) p)
            (rows 172032 524288 (by norm_num) (cur2 (X (main_arg1 : DevRef τ sig) : S696320x12.Idx → EReal)) ⟨4 * p.val + q.val, by have := p.isLt; have := q.isLt; omega⟩)
            (cur2 (X (main_v12 : DevRef τ sig) : S524288x40.Idx → EReal) ⟨4 * p.val + q.val, by have := p.isLt; have := q.isLt; omega⟩))
          (cur2 (X (main_arg2 : DevRef τ sig) : S177x125.Idx → EReal)) (cur1 (X (main_arg3 : DevRef τ sig) : S125.Idx → EReal))
          (cur2 (X (main_arg4 : DevRef τ sig) : S125x40.Idx → EReal)) (cur1 (X (main_arg5 : DevRef τ sig) : S40.Idx → EReal)) o := by
  have e16 : cur2 (after opsA1 X (main_v16 : DevRef τ sig) : S524288x125.Idx → EReal) ⟨4 * p.val + q.val, by have := p.isLt; have := q.isLt; omega⟩
      = rows 43008 131072 (by norm_num) (cur2 (X (main_arg0 : DevRef τ sig) : S698368x125.Idx → EReal)) p :=
    funext fun k => msg_rows X p q k
  have e14 : cur2 (after opsA1 X (main_v14 : DevRef τ sig) : S524288x12.Idx → EReal) ⟨4 * p.val + q.val, by have := p.isLt; have := q.isLt; omega⟩
      = rows 172032 524288 (by norm_num) (cur2 (X (main_arg1 : DevRef τ sig) : S696320x12.Idx → EReal)) ⟨4 * p.val + q.val, by have := p.isLt; have := q.isLt; omega⟩ :=
    funext fun k => bond_rows X _ k
  have hid_j : ∀ j : Fin 125,
      cur2 (after opsB (after opsA2 (after opsA1 X)) (main_v22 : DevRef τ sig) : S524288x125.Idx → EReal) ⟨4 * p.val + q.val, by have := p.isLt; have := q.isLt; omega⟩ j
        = hid slope (levelIn (rows 43008 131072 (by norm_num) (cur2 (X (main_arg0 : DevRef τ sig) : S698368x125.Idx → EReal)) p)
            (rows 172032 524288 (by norm_num) (cur2 (X (main_arg1 : DevRef τ sig) : S696320x12.Idx → EReal)) ⟨4 * p.val + q.val, by have := p.isLt; have := q.isLt; omega⟩)
            (cur2 (X (main_v12 : DevRef τ sig) : S524288x40.Idx → EReal) ⟨4 * p.val + q.val, by have := p.isLt; have := q.isLt; omega⟩))
          (cur2 (X (main_arg2 : DevRef τ sig) : S177x125.Idx → EReal)) (cur1 (X (main_arg3 : DevRef τ sig) : S125.Idx → EReal)) j := by
    intro j
    unfold hid
    rw [rect1, pre1, keepA1_arg2, keepA1_arg3, keepA1_prev, e16, e14]
  unfold net layer2
  rw [rect2, pre2, keepB_arg4, keepA2_arg4, keepA1_arg4, keepB_arg5, keepA2_arg5, keepA1_arg5]
  simp only [hid_j]

/-- This level's outputs after its operations, from any contents `X` (which hold the level below's outputs). -/
theorem val (X : Valuation τ sig (Elt Ideal)) :
    (after (opsL3 (F := Ideal)) X (main_v29 : DevRef τ sig) : S131072x40.Idx → EReal)
      = fun (i : S131072x40.Idx) => level slope 131072 524288 (by norm_num) (rows 43008 131072 (by norm_num) (cur2 (X (main_arg0 : DevRef τ sig) : S698368x125.Idx → EReal)))
          (rows 172032 524288 (by norm_num) (cur2 (X (main_arg1 : DevRef τ sig) : S696320x12.Idx → EReal))) (cur2 (X (main_v12 : DevRef τ sig) : S524288x40.Idx → EReal))
          (cur2 (X (main_arg2 : DevRef τ sig) : S177x125.Idx → EReal)) (cur1 (X (main_arg3 : DevRef τ sig) : S125.Idx → EReal)) (cur2 (X (main_arg4 : DevRef τ sig) : S125x40.Idx → EReal)) (cur1 (X (main_arg5 : DevRef τ sig) : S40.Idx → EReal)) (i 0) (i 1) := by
  funext i
  obtain ⟨p, o, rfl⟩ : ∃ p o, i = ix2 p o := ⟨i 0, i 1, eq_ix2 i⟩
  rw [after_cut]
  refine (sum4 _ p o).trans ?_
  exact Finset.sum_congr rfl fun q _ => child X p q o

/-! ## The arguments are not written -/

theorem kept_arg0 (X : Valuation τ sig (Elt Ideal)) : after (opsL3 (F := Ideal)) X (main_arg0 : DevRef τ sig) = X (main_arg0 : DevRef τ sig) := by
  after_results
theorem kept_arg1 (X : Valuation τ sig (Elt Ideal)) : after (opsL3 (F := Ideal)) X (main_arg1 : DevRef τ sig) = X (main_arg1 : DevRef τ sig) := by
  after_results
theorem kept_arg2 (X : Valuation τ sig (Elt Ideal)) : after (opsL3 (F := Ideal)) X (main_arg2 : DevRef τ sig) = X (main_arg2 : DevRef τ sig) := by
  after_results
theorem kept_arg3 (X : Valuation τ sig (Elt Ideal)) : after (opsL3 (F := Ideal)) X (main_arg3 : DevRef τ sig) = X (main_arg3 : DevRef τ sig) := by
  after_results
theorem kept_arg4 (X : Valuation τ sig (Elt Ideal)) : after (opsL3 (F := Ideal)) X (main_arg4 : DevRef τ sig) = X (main_arg4 : DevRef τ sig) := by
  after_results
theorem kept_arg5 (X : Valuation τ sig (Elt Ideal)) : after (opsL3 (F := Ideal)) X (main_arg5 : DevRef τ sig) = X (main_arg5 : DevRef τ sig) := by
  after_results

end Cert.ReferenceIdeal.Lvl3

end
-- ==== Proof.RVal.lean ====
/-
  The reference program's result after all its operations, as the specification's roots' outputs of the contents it starts
  from: the five levels' operations run one after the other, each level reading the six arguments (which no level writes)
  and the outputs of the level before.
-/
import proofs.«105904_j53970559042267_1_alg».proof.Proof.ROps
import proofs.«105904_j53970559042267_1_alg».proof.Proof.Spec
import proofs.«105904_j53970559042267_1_alg».proof.Proof.LibAfterAppend
import proofs.«105904_j53970559042267_1_alg».proof.Proof.RLeaf
import proofs.«105904_j53970559042267_1_alg».proof.Proof.RLvl3
import proofs.«105904_j53970559042267_1_alg».proof.Proof.RLvl2
import proofs.«105904_j53970559042267_1_alg».proof.Proof.RLvl1
import proofs.«105904_j53970559042267_1_alg».proof.Proof.RLvl0

noncomputable section

namespace Cert.ReferenceIdeal.RVal

open Cert.ReferenceIdeal Cert.ReferenceIdeal.Gen Cert.ReferenceIdeal.Ops Idealize.ShloMosaic Idealize.ShloMosaic.TcCoe Idealize.ShloMosaic.ValueIdx Idealize.SL.Sem Idealize.ShloMosaic.StableHlo Cert.Spec

/-- The result buffer after the whole line is the roots' outputs. -/
theorem val (X : Valuation τ sig (Elt Ideal)) :
    (after (ops (F := Ideal)) X (main_v80 : DevRef τ sig) : S2048x40.Idx → EReal)
      = fun (i : S2048x40.Idx) => out0 slope (cur2 (X (main_arg0 : DevRef τ sig) : S698368x125.Idx → EReal)) (cur2 (X (main_arg1 : DevRef τ sig) : S696320x12.Idx → EReal)) (cur2 (X (main_arg2 : DevRef τ sig) : S177x125.Idx → EReal)) (cur1 (X (main_arg3 : DevRef τ sig) : S125.Idx → EReal)) (cur2 (X (main_arg4 : DevRef τ sig) : S125x40.Idx → EReal)) (cur1 (X (main_arg5 : DevRef τ sig) : S40.Idx → EReal)) (i 0) (i 1) := by
  show after (opsLeaf (F := Ideal) ++ (opsL3 ++ (opsL2 ++ (opsL1 ++ opsL0)))) X (main_v80 : DevRef τ sig) = _
  rw [after_append, after_append, after_append, after_append]
  rw [Lvl0.val]
  rw [Lvl1.kept_arg0, Lvl1.kept_arg1, Lvl1.kept_arg2, Lvl1.kept_arg3, Lvl1.kept_arg4, Lvl1.kept_arg5, Lvl1.val]
  rw [Lvl2.kept_arg0, Lvl2.kept_arg1, Lvl2.kept_arg2, Lvl2.kept_arg3, Lvl2.kept_arg4, Lvl2.kept_arg5, Lvl2.val]
  rw [Lvl3.kept_arg0, Lvl3.kept_arg1, Lvl3.kept_arg2, Lvl3.kept_arg3, Lvl3.kept_arg4, Lvl3.kept_arg5, Lvl3.val]
  rw [Leaf.kept_arg0, Leaf.kept_arg1, Leaf.kept_arg2, Leaf.kept_arg3, Leaf.kept_arg4, Leaf.kept_arg5, Leaf.val]
  rfl

theorem kept_arg0 (X : Valuation τ sig (Elt Ideal)) : after (ops (F := Ideal)) X (main_arg0 : DevRef τ sig) = X (main_arg0 : DevRef τ sig) := by
  show after (opsLeaf (F := Ideal) ++ (opsL3 ++ (opsL2 ++ (opsL1 ++ opsL0)))) X (main_arg0 : DevRef τ sig) = _
  rw [after_append, after_append, after_append, after_append, Lvl0.kept_arg0, Lvl1.kept_arg0, Lvl2.kept_arg0, Lvl3.kept_arg0, Leaf.kept_arg0]
theorem kept_arg1 (X : Valuation τ sig (Elt Ideal)) : after (ops (F := Ideal)) X (main_arg1 : DevRef τ sig) = X (main_arg1 : DevRef τ sig) := by
  show after (opsLeaf (F := Ideal) ++ (opsL3 ++ (opsL2 ++ (opsL1 ++ opsL0)))) X (main_arg1 : DevRef τ sig) = _
  rw [after_append, after_append, after_append, after_append, Lvl0.kept_arg1, Lvl1.kept_arg1, Lvl2.kept_arg1, Lvl3.kept_arg1, Leaf.kept_arg1]
theorem kept_arg2 (X : Valuation τ sig (Elt Ideal)) : after (ops (F := Ideal)) X (main_arg2 : DevRef τ sig) = X (main_arg2 : DevRef τ sig) := by
  show after (opsLeaf (F := Ideal) ++ (opsL3 ++ (opsL2 ++ (opsL1 ++ opsL0)))) X (main_arg2 : DevRef τ sig) = _
  rw [after_append, after_append, after_append, after_append, Lvl0.kept_arg2, Lvl1.kept_arg2, Lvl2.kept_arg2, Lvl3.kept_arg2, Leaf.kept_arg2]
theorem kept_arg3 (X : Valuation τ sig (Elt Ideal)) : after (ops (F := Ideal)) X (main_arg3 : DevRef τ sig) = X (main_arg3 : DevRef τ sig) := by
  show after (opsLeaf (F := Ideal) ++ (opsL3 ++ (opsL2 ++ (opsL1 ++ opsL0)))) X (main_arg3 : DevRef τ sig) = _
  rw [after_append, after_append, after_append, after_append, Lvl0.kept_arg3, Lvl1.kept_arg3, Lvl2.kept_arg3, Lvl3.kept_arg3, Leaf.kept_arg3]
theorem kept_arg4 (X : Valuation τ sig (Elt Ideal)) : after (ops (F := Ideal)) X (main_arg4 : DevRef τ sig) = X (main_arg4 : DevRef τ sig) := by
  show after (opsLeaf (F := Ideal) ++ (opsL3 ++ (opsL2 ++ (opsL1 ++ opsL0)))) X (main_arg4 : DevRef τ sig) = _
  rw [after_append, after_append, after_append, after_append, Lvl0.kept_arg4, Lvl1.kept_arg4, Lvl2.kept_arg4, Lvl3.kept_arg4, Leaf.kept_arg4]
theorem kept_arg5 (X : Valuation τ sig (Elt Ideal)) : after (ops (F := Ideal)) X (main_arg5 : DevRef τ sig) = X (main_arg5 : DevRef τ sig) := by
  show after (opsLeaf (F := Ideal) ++ (opsL3 ++ (opsL2 ++ (opsL1 ++ opsL0)))) X (main_arg5 : DevRef τ sig) = _
  rw [after_append, after_append, after_append, after_append, Lvl0.kept_arg5, Lvl1.kept_arg5, Lvl2.kept_arg5, Lvl3.kept_arg5, Leaf.kept_arg5]

end Cert.ReferenceIdeal.RVal

end
-- ==== Proof.lean ====
/-
  The certificate: a forest of 2048 perfect 4-ary trees of depth 5, a small two-layer network applied bottom-up.
  The kernel program runs one region per tree level (the leaves, then four levels of parents), each region splitting the
  first layer's 177-column product into its message, bond and child-output parts and forming the parent's part once per
  parent; the reference lays each child's 177 columns side by side and multiplies once. Over the extended reals the two
  are one function of the six arguments (`Cert.Spec.out0`): a sum over 177 columns is the sum of its three ranges (and for a
  leaf the 52 padded columns contribute zero), and testing `x > 0` or `x ≥ 0` in the rectifier differs only at `x = 0`,
  where both give 0. The precondition is not needed for the values.
  The two kernel programs' frames are the generated ones; the kernel's value is read off the same launch with the result
  array kept (`KRun`), each region's output as a function of what it finds (`KLeaf`, `KLvl1` … `KLvl4`), what it finds read
  back to the arguments (`KGlue`, `KVal`); the reference's run is its operations' fold (`ROps`, `RRun`), read level by level
  (`RLeaf`, `RLvl3` … `RLvl0`, `RVal`).
-/
import proofs.«105904_j53970559042267_1_alg».proof.Proof.Gen.Kernel
import proofs.«105904_j53970559042267_1_alg».proof.Proof.Gen.Kernel.Frame
import proofs.«105904_j53970559042267_1_alg».proof.Proof.Gen.KernelIdeal
import proofs.«105904_j53970559042267_1_alg».proof.Proof.Gen.KernelIdeal.Frame
import proofs.«105904_j53970559042267_1_alg».proof.Proof.Gen.ReferenceIdeal
import proofs.«105904_j53970559042267_1_alg».proof.Proof.Gen.Pre_finite_inputs
import proofs.«105904_j53970559042267_1_alg».proof.Proof.Spec
import proofs.«105904_j53970559042267_1_alg».proof.Proof.KRun
import proofs.«105904_j53970559042267_1_alg».proof.Proof.KVal
import proofs.«105904_j53970559042267_1_alg».proof.Proof.RRun
import proofs.«105904_j53970559042267_1_alg».proof.Proof.RVal
import proofs.«105904_j53970559042267_1_alg».proof.Defs
import Idealize.ShloMosaic.Adequacy
import Idealize.ShloMosaic.Init

noncomputable section

namespace Cert.Proof

open Idealize.ShloMosaic Idealize.ShloMosaic.TcCoe Idealize.SL.Sem Idealize.ShloMosaic.StableHlo Cert.Spec

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program terminates, faults nowhere and leaves its arguments: the generated frame. -/
theorem frame_k : Cert.frame_Kernel := fun m ρ _ => Cert.Kernel.Gen.frame m ρ

/-- The same for the kernel program over the extended reals. -/
theorem frame_ki : Cert.frame_KernelIdeal := fun m ρ _ => Cert.KernelIdeal.Gen.frame m ρ

/-- The reference terminates, faults nowhere and leaves its arguments: none of its operations writes one. -/
theorem frame_ri : Cert.frame_ReferenceIdeal := fun m ρ _ =>
  (θ_run Cert.ReferenceIdeal.defs _ _).mono (fun r h c =>
      ⟨(h c Cert.ReferenceIdeal.main_arg0).trans (Cert.ReferenceIdeal.RVal.kept_arg0 _),
       (h c Cert.ReferenceIdeal.main_arg1).trans (Cert.ReferenceIdeal.RVal.kept_arg1 _),
       (h c Cert.ReferenceIdeal.main_arg2).trans (Cert.ReferenceIdeal.RVal.kept_arg2 _),
       (h c Cert.ReferenceIdeal.main_arg3).trans (Cert.ReferenceIdeal.RVal.kept_arg3 _),
       (h c Cert.ReferenceIdeal.main_arg4).trans (Cert.ReferenceIdeal.RVal.kept_arg4 _),
       (h c Cert.ReferenceIdeal.main_arg5).trans (Cert.ReferenceIdeal.RVal.kept_arg5 _)⟩)
    (Cert.ReferenceIdeal.RefRun.run_main (F := Ideal) m ρ)

/-- Both programs end with the roots' outputs of the six arguments, which agree. -/
theorem algebraic : Cert.algebraic_KernelIdeal_ReferenceIdeal := by
  intro m ρ m' ρ' _ hagree
  refine ⟨fun c => fun (i : Cert.KernelIdeal.S2048x40.Idx) =>
      out0 slope (cur2 (m ((c.tc : Thread Cert.KernelIdeal.nD Cert.KernelIdeal.τ).loc Cert.KernelIdeal.main_arg0) : Cert.KernelIdeal.S698368x125.Idx → EReal)) (cur2 (m ((c.tc : Thread Cert.KernelIdeal.nD Cert.KernelIdeal.τ).loc Cert.KernelIdeal.main_arg1) : Cert.KernelIdeal.S696320x12.Idx → EReal)) (cur2 (m ((c.tc : Thread Cert.KernelIdeal.nD Cert.KernelIdeal.τ).loc Cert.KernelIdeal.main_arg2) : Cert.KernelIdeal.S177x125.Idx → EReal)) (cur1 (m ((c.tc : Thread Cert.KernelIdeal.nD Cert.KernelIdeal.τ).loc Cert.KernelIdeal.main_arg3) : Cert.KernelIdeal.S125.Idx → EReal)) (cur2 (m ((c.tc : Thread Cert.KernelIdeal.nD Cert.KernelIdeal.τ).loc Cert.KernelIdeal.main_arg4) : Cert.KernelIdeal.S125x40.Idx → EReal)) (cur1 (m ((c.tc : Thread Cert.KernelIdeal.nD Cert.KernelIdeal.τ).loc Cert.KernelIdeal.main_arg5) : Cert.KernelIdeal.S40.Idx → EReal)) (i 0) (i 1), ?_, ?_⟩
  · exact (θ_run Cert.KernelIdeal.defs _ _).mono
      (fun r h c => ⟨(h c).1.trans (Cert.KernelIdeal.Val.result m ρ c), (h c).2⟩)
      (Cert.KernelIdeal.Named.run_named (F := Ideal) m ρ)
  · refine (θ_run Cert.ReferenceIdeal.defs _ _).mono (fun r h c =>
        ⟨?_,
         (h c Cert.ReferenceIdeal.main_arg0).trans (Cert.ReferenceIdeal.RVal.kept_arg0 _),
         (h c Cert.ReferenceIdeal.main_arg1).trans (Cert.ReferenceIdeal.RVal.kept_arg1 _),
         (h c Cert.ReferenceIdeal.main_arg2).trans (Cert.ReferenceIdeal.RVal.kept_arg2 _),
         (h c Cert.ReferenceIdeal.main_arg3).trans (Cert.ReferenceIdeal.RVal.kept_arg3 _),
         (h c Cert.ReferenceIdeal.main_arg4).trans (Cert.ReferenceIdeal.RVal.kept_arg4 _),
         (h c Cert.ReferenceIdeal.main_arg5).trans (Cert.ReferenceIdeal.RVal.kept_arg5 _)⟩)
      (Cert.ReferenceIdeal.RefRun.run_main (F := Ideal) m' ρ')
    refine (h c Cert.ReferenceIdeal.main_v80).trans ((Cert.ReferenceIdeal.RVal.val _).trans ?_)
    obtain ⟨e0, e1, e2, e3, e4, e5⟩ := hagree c
    show (fun (i : Cert.ReferenceIdeal.S2048x40.Idx) => out0 slope
        (cur2 (m' ((c.tc : Thread Cert.ReferenceIdeal.nD Cert.ReferenceIdeal.τ).loc Cert.ReferenceIdeal.main_arg0)))
        (cur2 (m' ((c.tc : Thread Cert.ReferenceIdeal.nD Cert.ReferenceIdeal.τ).loc Cert.ReferenceIdeal.main_arg1)))
        (cur2 (m' ((c.tc : Thread Cert.ReferenceIdeal.nD Cert.ReferenceIdeal.τ).loc Cert.ReferenceIdeal.main_arg2)))
        (cur1 (m' ((c.tc : Thread Cert.ReferenceIdeal.nD Cert.ReferenceIdeal.τ).loc Cert.ReferenceIdeal.main_arg3)))
        (cur2 (m' ((c.tc : Thread Cert.ReferenceIdeal.nD Cert.ReferenceIdeal.τ).loc Cert.ReferenceIdeal.main_arg4)))
        (cur1 (m' ((c.tc : Thread Cert.ReferenceIdeal.nD Cert.ReferenceIdeal.τ).loc Cert.ReferenceIdeal.main_arg5))) (i 0) (i 1)) = _
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
